-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S120x96 : Shape := ⟨2, ![120, 96]⟩
abbrev S3x96x96 : Shape := ⟨3, ![3, 96, 96]⟩
abbrev S3x96 : Shape := ⟨2, ![3, 96]⟩
abbrev S288x96 : Shape := ⟨2, ![288, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S120x96 : S_.BroadcastsInDim S120x96 (![] : Fin 0 → Fin S120x96.rank)
  reducesTo_S120x96_S_d0_1 : S120x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S288x96 : S_.BroadcastsInDim S288x96 (![] : Fin 0 → Fin S288x96.rank)
  reducesTo_S288x96_S_d0_1 : S288x96.ReducesTo [0, 1] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S96x2 .f32) (main_arg14 : FVec F S2 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96x2 .f32 := Host.absf main_arg13
  let main_cst_20 : FVec F S_ .f32 := constant S_ .f32 0x7F800000#32
  let main_v55 : FVec F S96x2 .f32 := broadcastInDim S96x2 ![] bcast_S_S96x2 main_cst_20
  let main_v56 : IVec S96x2 1 := cmpf .olt main_v54 main_v55
  let main_c_21 : IVec S_ 1 := constantI S_ 1 1#1
  let main_v57 : IVec S_ 1 := (fun x v => Host.reduce IntOp.andi x v reducesTo_S96x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S3x96 .f32) (main_arg10 : FVec F S3x96 .f32) (main_arg11 : FVec F S288x96 .f32) (main_arg12 : FVec F S96 .f32) (main_arg13 : FVec F S96x2 .f32) (main_arg14 : FVec F S2 .f32) (main_v33 : IVec S_ 1) : IVec S_ 1 :=
  let main_v34 : FVec F S3x96 .f32 := Host.absf main_arg9
  let main_cst_12 : FVec F S_ .f32 := constant S_ .f32 0x7F800000#32
  let main_v35 : FVec F S3x96 .f32 := broadcastInDim S3x96 ![] bcast_S_S3x96 main_cst_12
  let main_v36 : IVec S3x96 1 := cmpf .olt main_v34 main_v35
  let main_c_13 : IVec S_ 1 := constantI S_ 1 1#1
  let main_v37 : IVec S_ 1 := (fun x v => Host.reduce IntOp.andi x v reducesTo_S3x96_S_d0_1 h_S_) main_v36 main_c_13
  let main_v38 : IVec S_ 1 := andi main_v33 main_v37
  let main_v39 : FVec F S3x96 .f32 := Host.absf main_arg10
  let main_cst_14 : FVec F S_ .f32 := constant S_ .f32 0x7F800000#32
  let main_v40 : FVec F S3x96 .f32 := broadcastInDim S3x96 ![] bcast_S_S3x96 main_cst_14
  let main_v41 : IVec S3x96 1 := cmpf .olt main_v39 main_v40
  let main_c_15 : IVec S_ 1 := constantI S_ 1 1#1
  let main_v42 : IVec S_ 1 := (fun x v => Host.reduce IntOp.andi x v reducesTo_S3x96_S_d0_1 h_S_) main_v41 main_c_15
  let main_v43 : IVec S_ 1 := andi main_v38 main_v42
  let main_v44 : FVec F S288x96 .f32 := Host.absf main_arg11
  let main_cst_16 : FVec F S_ .f32 := constant S_ .f32 0x7F800000#32
  let main_v45 : FVec F S288x96 .f32 := broadcastInDim S288x96 ![] bcast_S_S288x96 main_cst_16
  let main_v46 : IVec S288x96 1 := cmpf .olt main_v44 main_v45
  let main_c_17 : IVec S_ 1 := constantI S_ 1 1#1
  let main_v47 : IVec S_ 1 := (fun x v => Host.reduce IntOp.andi x v reducesTo_S288x96_S_d0_1 h_S_) main_v46 main_c_17
  let main_v48 : IVec S_ 1 := andi main_v43 main_v47
  let main_v49 : FVec F S96 .f32 := Host.absf main_arg12
  let main_cst_18 : FVec F S_ .f32 := constant S_ .f32 0x7F800000#32
  let main_v50 : FVec F S96 .f32 := broadcastInDim S96 ![] bcast_S_S96 main_cst_18
  fn_part3 (F := F) main_arg13 main_arg14 main_v48 main_v49 main_v50

def fn_part1 {F : FTy → Type} [FloatOps F] (main_arg6 : FVec F S3x96 .f32) (main_arg7 : FVec F S3x96 .f32) (main_arg8 : FVec F S3x96 .f32) (main_arg9 : FVec F S3x96 .f32) (main_arg10 : FVec F S3x96 .f32) (main_arg11 : FVec F S288x96 .f32) (main_arg12 : FVec F S96 .f32) (main_arg13 : FVec F S96x2 .f32) (main_arg14 : FVec F S2 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg6
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96 .f32 := Host.absf main_arg7
  let main_cst_8 : FVec F S_ .f32 := constant S_ .f32 0x7F800000#32
  let main_v25 : FVec F S3x96 .f32 := broadcastInDim S3x96 ![] bcast_S_S3x96 main_cst_8
  let main_v26 : IVec S3x96 1 := cmpf .olt main_v24 main_v25
  let main_c_9 : IVec S_ 1 := constantI S_ 1 1#1
  let main_v27 : IVec S_ 1 := (fun x v => Host.reduce IntOp.andi x v reducesTo_S3x96_S_d0_1 h_S_) main_v26 main_c_9
  let main_v28 : IVec S_ 1 := andi main_v23 main_v27
  let main_v29 : FVec F S3x96 .f32 := Host.absf main_arg8
  let main_cst_10 : FVec F S_ .f32 := constant S_ .f32 0x7F800000#32
  let main_v30 : FVec F S3x96 .f32 := broadcastInDim S3x96 ![] bcast_S_S3x96 main_cst_10
  let main_v31 : IVec S3x96 1 := cmpf .olt main_v29 main_v30
  let main_c_11 : IVec S_ 1 := constantI S_ 1 1#1
  let main_v32 : IVec S_ 1 := (fun x v => Host.reduce IntOp.andi x v reducesTo_S3x96_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S50000 32) (main_arg1 : IVec S2x800000 32) (main_arg2 : FVec F S120x96 .f32) (main_arg3 : FVec F S3x96x96 .f32) (main_arg4 : FVec F S3x96 .f32) (main_arg5 : FVec F S3x96x96 .f32) (main_arg6 : FVec F S3x96 .f32) (main_arg7 : FVec F S3x96 .f32) (main_arg8 : FVec F S3x96 .f32) (main_arg9 : FVec F S3x96 .f32) (main_arg10 : FVec F S3x96 .f32) (main_arg11 : FVec F S288x96 .f32) (main_arg12 : FVec F S96 .f32) (main_arg13 : FVec F S96x2 .f32) (main_arg14 : FVec F S2 .f32) : IVec S_ 1 :=
  let main_v0 : FVec F S120x96 .f32 := Host.absf main_arg2
  let main_cst : FVec F S_ .f32 := constant S_ .f32 0x7F800000#32
  let main_v1 : FVec F S120x96 .f32 := broadcastInDim S120x96 ![] bcast_S_S120x96 main_cst
  let main_v2 : IVec S120x96 1 := cmpf .olt main_v0 main_v1
  let main_c : IVec S_ 1 := constantI S_ 1 1#1
  let main_v3 : IVec S_ 1 := (fun x v => Host.reduce IntOp.andi x v reducesTo_S120x96_S_d0_1 h_S_) main_v2 main_c
  let main_v4 : FVec F S3x96x96 .f32 := Host.absf main_arg3
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S3x96 .f32 := Host.absf main_arg4
  let main_cst_2 : FVec F S_ .f32 := constant S_ .f32 0x7F800000#32
  let main_v10 : FVec F S3x96 .f32 := broadcastInDim S3x96 ![] bcast_S_S3x96 main_cst_2
  let main_v11 : IVec S3x96 1 := cmpf .olt main_v9 main_v10
  let main_c_3 : IVec S_ 1 := constantI S_ 1 1#1
  let main_v12 : IVec S_ 1 := (fun x v => Host.reduce IntOp.andi x v reducesTo_S3x96_S_d0_1 h_S_) main_v11 main_c_3
  let main_v13 : IVec S_ 1 := andi main_v8 main_v12
  let main_v14 : FVec F S3x96x96 .f32 := Host.absf main_arg5
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg6 main_arg7 main_arg8 main_arg9 main_arg10 main_arg11 main_arg12 main_arg13 main_arg14 main_v13 main_v16
-- ==== Kernel.lean ====
abbrev S50000 : Shape := ⟨1, ![50000]⟩
abbrev S2x800000 : Shape := ⟨2, ![2, 800000]⟩
abbrev S120x96 : Shape := ⟨2, ![120, 96]⟩
abbrev S3x96x96 : Shape := ⟨3, ![3, 96, 96]⟩
abbrev S3x96 : Shape := ⟨2, ![3, 96]⟩
abbrev S288x96 : Shape := ⟨2, ![288, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x96 : Shape := ⟨2, ![50000, 96]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S5000x96 : Shape := ⟨2, ![5000, 96]⟩
abbrev S1x2 : Shape := ⟨2, ![1, 2]⟩
abbrev S50000x2 : Shape := ⟨2, ![50000, 2]⟩
abbrev S2000x96 : Shape := ⟨2, ![2000, 96]⟩
abbrev S2000x2 : Shape := ⟨2, ![2000, 2]⟩

abbrev nBuf : Space → Nat
  | .hbm => 141
  | .vmem => 50
  | .smem => 0
  | _ => 0

abbrev hbmTy0_0 (i : Nat) : BufTy := match i % 128 with
  | 0 => ⟨S50000, .i32⟩
  | 1 => ⟨S2x800000, .i32⟩
  | 2 => ⟨S120x96, .f32⟩
  | 3 => ⟨S3x96x96, .f32⟩
  | 4 => ⟨S3x96, .f32⟩
  | 5 => ⟨S3x96x96, .f32⟩
  | 6 => ⟨S3x96, .f32⟩
  | 7 => ⟨S3x96, .f32⟩
  | 8 => ⟨S3x96, .f32⟩
  | 9 => ⟨S3x96, .f32⟩
  | 10 => ⟨S3x96, .f32⟩
  | 11 => ⟨S288x96, .f32⟩
  | 12 => ⟨S96, .f32⟩
  | 13 => ⟨S96x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x96, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x96, .f32⟩
  | 37 => ⟨S_, .f32⟩
  | 38 => ⟨S50000x96, .f32⟩
  | 39 => ⟨S800000x1, .i32⟩
  | 40 => ⟨S50000x96, .f32⟩
  | 41 => ⟨S1x96x96, .f32⟩
  | 42 => ⟨S96x96, .f32⟩
  | 43 => ⟨S1x96, .f32⟩
  | 44 => ⟨S96, .f32⟩
  | 45 => ⟨S1x96x96, .f32⟩
  | 46 => ⟨S96x96, .f32⟩
  | 47 => ⟨S1x96, .f32⟩
  | 48 => ⟨S96, .f32⟩
  | 49 => ⟨S1x96, .f32⟩
  | 50 => ⟨S96, .f32⟩
  | 51 => ⟨S1x96, .f32⟩
  | 52 => ⟨S96, .f32⟩
  | 53 => ⟨S1x96, .f32⟩
  | 54 => ⟨S96, .f32⟩
  | 55 => ⟨S1x96, .f32⟩
  | 56 => ⟨S96, .f32⟩
  | 57 => ⟨S1x96, .f32⟩
  | 58 => ⟨S1x96, .f32⟩
  | 59 => ⟨S1x96, .f32⟩
  | 60 => ⟨S1x96, .f32⟩
  | 61 => ⟨S1x96, .f32⟩
  | 62 => ⟨S1x96, .f32⟩
  | 63 => ⟨S50000x96, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x96, .f32⟩
  | 73 => ⟨S_, .f32⟩
  | 74 => ⟨S50000x96, .f32⟩
  | 75 => ⟨S800000x1, .i32⟩
  | 76 => ⟨S50000x96, .f32⟩
  | 77 => ⟨S1x96x96, .f32⟩
  | 78 => ⟨S96x96, .f32⟩
  | 79 => ⟨S1x96, .f32⟩
  | 80 => ⟨S96, .f32⟩
  | 81 => ⟨S1x96x96, .f32⟩
  | 82 => ⟨S96x96, .f32⟩
  | 83 => ⟨S1x96, .f32⟩
  | 84 => ⟨S96, .f32⟩
  | 85 => ⟨S1x96, .f32⟩
  | 86 => ⟨S96, .f32⟩
  | 87 => ⟨S1x96, .f32⟩
  | 88 => ⟨S96, .f32⟩
  | 89 => ⟨S1x96, .f32⟩
  | 90 => ⟨S96, .f32⟩
  | 91 => ⟨S1x96, .f32⟩
  | 92 => ⟨S96, .f32⟩
  | 93 => ⟨S1x96, .f32⟩
  | 94 => ⟨S1x96, .f32⟩
  | 95 => ⟨S1x96, .f32⟩
  | 96 => ⟨S1x96, .f32⟩
  | 97 => ⟨S1x96, .f32⟩
  | 98 => ⟨S1x96, .f32⟩
  | 99 => ⟨S50000x96, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x96, .f32⟩
  | 109 => ⟨S_, .f32⟩
  | 110 => ⟨S50000x96, .f32⟩
  | 111 => ⟨S800000x1, .i32⟩
  | 112 => ⟨S50000x96, .f32⟩
  | 113 => ⟨S96x96, .f32⟩
  | 114 => ⟨S96x96, .f32⟩
  | 115 => ⟨S96x96, .f32⟩
  | 116 => ⟨S1x96x96, .f32⟩
  | 117 => ⟨S96x96, .f32⟩
  | 118 => ⟨S1x96, .f32⟩
  | 119 => ⟨S96, .f32⟩
  | 120 => ⟨S1x96x96, .f32⟩
  | 121 => ⟨S96x96, .f32⟩
  | 122 => ⟨S1x96, .f32⟩
  | 123 => ⟨S96, .f32⟩
  | 124 => ⟨S1x96, .f32⟩
  | 125 => ⟨S96, .f32⟩
  | 126 => ⟨S1x96, .f32⟩
  | 127 => ⟨S96, .f32⟩
  | _ => ⟨S50000, .i32⟩

abbrev hbmTy0_1 (i : Nat) : BufTy := match i % 128 with
  | 0 => ⟨S1x96, .f32⟩
  | 1 => ⟨S96, .f32⟩
  | 2 => ⟨S1x96, .f32⟩
  | 3 => ⟨S96, .f32⟩
  | 4 => ⟨S1x96, .f32⟩
  | 5 => ⟨S1x96, .f32⟩
  | 6 => ⟨S1x96, .f32⟩
  | 7 => ⟨S1x96, .f32⟩
  | 8 => ⟨S1x96, .f32⟩
  | 9 => ⟨S1x96, .f32⟩
  | 10 => ⟨S1x96, .f32⟩
  | 11 => ⟨S1x2, .f32⟩
  | 12 => ⟨S50000x2, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S1x96, .f32⟩
  | .local _ .vmem, ⟨9, _⟩ => ⟨S1x96, .f32⟩
  | .local _ .vmem, ⟨10, _⟩ => ⟨S1x96, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S96x96, .f32⟩
  | .local _ .vmem, ⟨19, _⟩ => ⟨S1x96, .f32⟩
  | .local _ .vmem, ⟨20, _⟩ => ⟨S96x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S2000x96, .f32⟩
  | .local _ .vmem, ⟨29, _⟩ => ⟨S2000x96, .f32⟩
  | .local _ .vmem, ⟨30, _⟩ => ⟨S2000x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | .local _ .vmem, ⟨34, _⟩ => ⟨S96x96, .f32⟩
  | .local _ .vmem, ⟨35, _⟩ => ⟨S1x96, .f32⟩
  | .local _ .vmem, ⟨36, _⟩ => ⟨S96x96, .f32⟩
  | .local _ .vmem, ⟨37, _⟩ => ⟨S1x96, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S96x96, .f32⟩
  | .local _ .vmem, ⟨43, _⟩ => ⟨S96x96, .f32⟩
  | .local _ .vmem, ⟨44, _⟩ => ⟨S96x96, .f32⟩
  | .local _ .vmem, ⟨45, _⟩ => ⟨S1x96, .f32⟩
  | .local _ .vmem, ⟨46, _⟩ => ⟨S96x2, .f32⟩
  | .local _ .vmem, ⟨47, _⟩ => ⟨S1x2, .f32⟩
  | .local _ .vmem, ⟨48, _⟩ => ⟨S2000x2, .f32⟩
  | .local _ .vmem, ⟨49, _⟩ => ⟨S2000x2, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_3 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_6 : Ref sig .tc := ⟨.hbm, 100, rfl⟩
abbrev main_v77 : Ref sig .tc := ⟨.hbm, 101, rfl⟩
abbrev main_v78 : Ref sig .tc := ⟨.hbm, 102, rfl⟩
abbrev main_c_7 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_8 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg14_0 : Ref sig .tc := ⟨.vmem, 45, rfl⟩
abbrev cc2_stg15_0 : Ref sig .tc := ⟨.vmem, 46, rfl⟩
abbrev cc2_stg16_0 : Ref sig .tc := ⟨.vmem, 47, rfl⟩
abbrev cc2_stg17_0 : Ref sig .tc := ⟨.vmem, 48, rfl⟩
abbrev cc2_stg17_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem14_0 : DmaSem sig := 45
abbrev cc2_sem15_0 : DmaSem sig := 46
abbrev cc2_sem16_0 : DmaSem sig := 47
abbrev cc2_sem17_0 : DmaSem sig := 48
abbrev cc2_sem17_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x96 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x96 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x96 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S96x96 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S96x96 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S96x96 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x96 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S96x2 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x2 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S2000x2 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S3x96x96_S1x96x96_1_0_0 : S3x96x96.Slices ![1, 0, 0] S1x96x96
  slices_S3x96_S1x96_1_0 : S3x96.Slices ![1, 0] S1x96
  slices_S288x96_S96x96_0_0 : S288x96.Slices ![0, 0] S96x96
  slices_S288x96_S96x96_96_0 : S288x96.Slices ![96, 0] S96x96
  slices_S288x96_S96x96_192_0 : S288x96.Slices ![192, 0] S96x96
  slices_S3x96x96_S1x96x96_2_0_0 : S3x96x96.Slices ![2, 0, 0] S1x96x96
  slices_S3x96_S1x96_2_0 : S3x96.Slices ![2, 0] S1x96
  shapeCasts_S2_S1x2 : S2.ShapeCasts S1x2
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  broadcasts_S1x96_S2000x96 : S1x96.Broadcasts S2000x96
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S120x96_S50000x1_S50000x96_1_0_n_n_0_1_196_wf : GatherDims.WF S120x96 S50000x1 S50000x96 [1] [0] [] [0] [] 1 ![1, 96]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S2000x96_S96x96_S2000x96_1_0_0_1_n_n_wf : DotDims.WF S2000x96 S96x96 S2000x96 [1] [0] [0] [1] [] []
  dot_S2000x96_S96x2_S2000x2_1_0_0_1_n_n_wf : DotDims.WF S2000x96 S96x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x96.size a ≤ S1x96.size a
  hwx0_9 : ∀ i : grid0.Coords, EltTy.bits .f32 = 32 ∨ (Rect.block (s := S1x96) S1x96.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x96.size a ≤ S50000x96.size a
  hwx0_10 : ∀ i : grid0.Coords, EltTy.bits .f32 = 32 ∨ (Rect.block (s := S50000x96) S5000x96.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x96.size a ≤ S1x96.size a
  hwx1_8 : ∀ i : grid1.Coords, EltTy.bits .f32 = 32 ∨ (Rect.block (s := S1x96) S1x96.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x96.size a ≤ S1x96.size a
  hwx1_9 : ∀ i : grid1.Coords, EltTy.bits .f32 = 32 ∨ (Rect.block (s := S1x96) S1x96.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x96.size a ≤ S50000x96.size a
  hwx1_10 : ∀ i : grid1.Coords, EltTy.bits .f32 = 32 ∨ (Rect.block (s := S50000x96) S5000x96.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x96.size a ≤ S50000x96.size a
  hwx2_1 : ∀ i : grid2.Coords, EltTy.bits .f32 = 32 ∨ (Rect.block (s := S50000x96) S2000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x96.size a ≤ S96x96.size a
  hwx2_5 : ∀ i : grid2.Coords, EltTy.bits .f32 = 32 ∨ (Rect.block (s := S96x96) S96x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x96.size a ≤ S1x96.size a
  hwx2_7 : ∀ i : grid2.Coords, EltTy.bits .f32 = 32 ∨ (Rect.block (s := S1x96) S1x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x96.size a ≤ S1x96.size a
  hwx2_8 : ∀ i : grid2.Coords, EltTy.bits .f32 = 32 ∨ (Rect.block (s := S1x96) S1x96.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x96.size a ≤ S1x96.size a
  hwx2_9 : ∀ i : grid2.Coords, EltTy.bits .f32 = 32 ∨ (Rect.block (s := S1x96) S1x96.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x96.size a ≤ S1x96.size a
  hwx2_10 : ∀ i : grid2.Coords, EltTy.bits .f32 = 32 ∨ (Rect.block (s := S1x96) S1x96.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S96x96.size a ≤ S96x96.size a
  hwx2_11 : ∀ i : grid2.Coords, EltTy.bits .f32 = 32 ∨ (Rect.block (s := S96x96) S96x96.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S96x96.size a ≤ S96x96.size a
  hwx2_12 : ∀ i : grid2.Coords, EltTy.bits .f32 = 32 ∨ (Rect.block (s := S96x96) S96x96.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S96x96.size a ≤ S96x96.size a
  hwx2_13 : ∀ i : grid2.Coords, EltTy.bits .f32 = 32 ∨ (Rect.block (s := S96x96) S96x96.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x96.size a ≤ S1x96.size a
  hwx2_14 : ∀ i : grid2.Coords, EltTy.bits .f32 = 32 ∨ (Rect.block (s := S1x96) S1x96.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S96x2.size a ≤ S96x2.size a
  hwx2_15 : ∀ i : grid2.Coords, EltTy.bits .f32 = 32 ∨ (Rect.block (s := S96x2) S96x2.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x2.size a ≤ S1x2.size a
  hwx2_16 : ∀ i : grid2.Coords, EltTy.bits .f32 = 32 ∨ (Rect.block (s := S1x2) S1x2.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x2.size a ≤ S50000x2.size a
  hwx2_17 : ∀ i : grid2.Coords, EltTy.bits .f32 = 32 ∨ (Rect.block (s := S50000x2) S2000x2.size (cc2_transform_17 i) (hinb2_17 i)).WholeWords (EltTy.packing .f32)

variable [Facts₀]

def gather_S120x96_S50000x1_S50000x96_1_0_n_n_0_1_196 : GatherDims S120x96 S50000x1 S50000x96 where
  offsetDims := [1]
  collapsedSliceDims := [0]
  operandBatchingDims := []
  startIndicesBatchingDims := []
  startIndexMap := [0]
  indexVectorDim := 1
  sliceSizes := ![1, 96]
  wf := gather_S120x96_S50000x1_S50000x96_1_0_n_n_0_1_196_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x2_S2000x2_1_0_0_1_n_n : DotDims S2000x96 S96x2 S2000x2 where
  lhsContracting := [1]
  rhsContracting := [0]
  lhsNonContracting := [0]
  rhsNonContracting := [1]
  lhsBatch := []
  rhsBatch := []
  wf := dot_S2000x96_S96x2_S2000x2_1_0_0_1_n_n_wf

abbrev win0_0 : Pipeline.Window sig grid0 :=
  Pipeline.Window.ofSpec (Memref.whole main_v10) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x96.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S5000x96.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v72) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v73) S1x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v74) S1x96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75) S1x96.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v76) S5000x96.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v43) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S2000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S2000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v91) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v106) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95) S96x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v107) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v108) S1x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v109) S1x96.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v110) S1x96.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v111) S1x96.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v87) S96x96.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v88) S96x96.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v89) S96x96.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v112) S1x96.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg13) S96x2.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v113) S1x2.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v114) S2000x2.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S120x96 : Shape := ⟨2, ![120, 96]⟩
abbrev S3x96x96 : Shape := ⟨3, ![3, 96, 96]⟩
abbrev S3x96 : Shape := ⟨2, ![3, 96]⟩
abbrev S288x96 : Shape := ⟨2, ![288, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x96 : Shape := ⟨2, ![50000, 96]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S50000x288 : Shape := ⟨2, ![50000, 288]⟩
abbrev S50000x2 : Shape := ⟨2, ![50000, 2]⟩
abbrev S1x2 : Shape := ⟨2, ![1, 2]⟩

abbrev nBuf : Space → Nat
  | .hbm => 220
  | .vmem => 0
  | .smem => 0
  | _ => 0

abbrev hbmTy0_0 (i : Nat) : BufTy := match i % 128 with
  | 0 => ⟨S50000, .i32⟩
  | 1 => ⟨S2x800000, .i32⟩
  | 2 => ⟨S120x96, .f32⟩
  | 3 => ⟨S3x96x96, .f32⟩
  | 4 => ⟨S3x96, .f32⟩
  | 5 => ⟨S3x96x96, .f32⟩
  | 6 => ⟨S3x96, .f32⟩
  | 7 => ⟨S3x96, .f32⟩
  | 8 => ⟨S3x96, .f32⟩
  | 9 => ⟨S3x96, .f32⟩
  | 10 => ⟨S3x96, .f32⟩
  | 11 => ⟨S288x96, .f32⟩
  | 12 => ⟨S96, .f32⟩
  | 13 => ⟨S96x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x96, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x96, .f32⟩
  | 37 => ⟨S_, .f32⟩
  | 38 => ⟨S50000x96, .f32⟩
  | 39 => ⟨S800000x1, .i32⟩
  | 40 => ⟨S50000x96, .f32⟩
  | 41 => ⟨S50000x96, .f32⟩
  | 42 => ⟨S1x96x96, .f32⟩
  | 43 => ⟨S96x96, .f32⟩
  | 44 => ⟨S50000x96, .f32⟩
  | 45 => ⟨S1x96, .f32⟩
  | 46 => ⟨S96, .f32⟩
  | 47 => ⟨S1x96, .f32⟩
  | 48 => ⟨S50000x96, .f32⟩
  | 49 => ⟨S50000x96, .f32⟩
  | 50 => ⟨S_, .f32⟩
  | 51 => ⟨S50000x96, .f32⟩
  | 52 => ⟨S50000x96, .f32⟩
  | 53 => ⟨S1x96x96, .f32⟩
  | 54 => ⟨S96x96, .f32⟩
  | 55 => ⟨S50000x96, .f32⟩
  | 56 => ⟨S1x96, .f32⟩
  | 57 => ⟨S96, .f32⟩
  | 58 => ⟨S1x96, .f32⟩
  | 59 => ⟨S50000x96, .f32⟩
  | 60 => ⟨S50000x96, .f32⟩
  | 61 => ⟨S_, .f32⟩
  | 62 => ⟨S50000x96, .f32⟩
  | 63 => ⟨S50000x96, .f32⟩
  | 64 => ⟨S1x96, .f32⟩
  | 65 => ⟨S96, .f32⟩
  | 66 => ⟨S1x96, .f32⟩
  | 67 => ⟨S96, .f32⟩
  | 68 => ⟨S1x96, .f32⟩
  | 69 => ⟨S50000x96, .f32⟩
  | 70 => ⟨S50000x96, .f32⟩
  | 71 => ⟨S1x96, .f32⟩
  | 72 => ⟨S50000x96, .f32⟩
  | 73 => ⟨S50000x96, .f32⟩
  | 74 => ⟨S1x96, .f32⟩
  | 75 => ⟨S96, .f32⟩
  | 76 => ⟨S_, .f32⟩
  | 77 => ⟨S96, .f32⟩
  | 78 => ⟨S96, .f32⟩
  | 79 => ⟨S96, .f32⟩
  | 80 => ⟨S1x96, .f32⟩
  | 81 => ⟨S50000x96, .f32⟩
  | 82 => ⟨S50000x96, .f32⟩
  | 83 => ⟨S1x96, .f32⟩
  | 84 => ⟨S96, .f32⟩
  | 85 => ⟨S1x96, .f32⟩
  | 86 => ⟨S50000x96, .f32⟩
  | 87 => ⟨S50000x96, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x96, .f32⟩
  | 97 => ⟨S_, .f32⟩
  | 98 => ⟨S50000x96, .f32⟩
  | 99 => ⟨S800000x1, .i32⟩
  | 100 => ⟨S50000x96, .f32⟩
  | 101 => ⟨S50000x96, .f32⟩
  | 102 => ⟨S1x96x96, .f32⟩
  | 103 => ⟨S96x96, .f32⟩
  | 104 => ⟨S50000x96, .f32⟩
  | 105 => ⟨S1x96, .f32⟩
  | 106 => ⟨S96, .f32⟩
  | 107 => ⟨S1x96, .f32⟩
  | 108 => ⟨S50000x96, .f32⟩
  | 109 => ⟨S50000x96, .f32⟩
  | 110 => ⟨S_, .f32⟩
  | 111 => ⟨S50000x96, .f32⟩
  | 112 => ⟨S50000x96, .f32⟩
  | 113 => ⟨S1x96x96, .f32⟩
  | 114 => ⟨S96x96, .f32⟩
  | 115 => ⟨S50000x96, .f32⟩
  | 116 => ⟨S1x96, .f32⟩
  | 117 => ⟨S96, .f32⟩
  | 118 => ⟨S1x96, .f32⟩
  | 119 => ⟨S50000x96, .f32⟩
  | 120 => ⟨S50000x96, .f32⟩
  | 121 => ⟨S_, .f32⟩
  | 122 => ⟨S50000x96, .f32⟩
  | 123 => ⟨S50000x96, .f32⟩
  | 124 => ⟨S1x96, .f32⟩
  | 125 => ⟨S96, .f32⟩
  | 126 => ⟨S1x96, .f32⟩
  | 127 => ⟨S96, .f32⟩
  | _ => ⟨S50000, .i32⟩

abbrev hbmTy0_1 (i : Nat) : BufTy := match i % 128 with
  | 0 => ⟨S1x96, .f32⟩
  | 1 => ⟨S50000x96, .f32⟩
  | 2 => ⟨S50000x96, .f32⟩
  | 3 => ⟨S1x96, .f32⟩
  | 4 => ⟨S50000x96, .f32⟩
  | 5 => ⟨S50000x96, .f32⟩
  | 6 => ⟨S1x96, .f32⟩
  | 7 => ⟨S96, .f32⟩
  | 8 => ⟨S_, .f32⟩
  | 9 => ⟨S96, .f32⟩
  | 10 => ⟨S96, .f32⟩
  | 11 => ⟨S96, .f32⟩
  | 12 => ⟨S1x96, .f32⟩
  | 13 => ⟨S50000x96, .f32⟩
  | 14 => ⟨S50000x96, .f32⟩
  | 15 => ⟨S1x96, .f32⟩
  | 16 => ⟨S96, .f32⟩
  | 17 => ⟨S1x96, .f32⟩
  | 18 => ⟨S50000x96, .f32⟩
  | 19 => ⟨S50000x96, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S_, .f32⟩
  | 30 => ⟨S50000x96, .f32⟩
  | 31 => ⟨S800000x1, .i32⟩
  | 32 => ⟨S50000x96, .f32⟩
  | 33 => ⟨S50000x96, .f32⟩
  | 34 => ⟨S1x96x96, .f32⟩
  | 35 => ⟨S96x96, .f32⟩
  | 36 => ⟨S50000x96, .f32⟩
  | 37 => ⟨S1x96, .f32⟩
  | 38 => ⟨S96, .f32⟩
  | 39 => ⟨S1x96, .f32⟩
  | 40 => ⟨S50000x96, .f32⟩
  | 41 => ⟨S50000x96, .f32⟩
  | 42 => ⟨S_, .f32⟩
  | 43 => ⟨S50000x96, .f32⟩
  | 44 => ⟨S50000x96, .f32⟩
  | 45 => ⟨S1x96x96, .f32⟩
  | 46 => ⟨S96x96, .f32⟩
  | 47 => ⟨S50000x96, .f32⟩
  | 48 => ⟨S1x96, .f32⟩
  | 49 => ⟨S96, .f32⟩
  | 50 => ⟨S1x96, .f32⟩
  | 51 => ⟨S50000x96, .f32⟩
  | 52 => ⟨S50000x96, .f32⟩
  | 53 => ⟨S_, .f32⟩
  | 54 => ⟨S50000x96, .f32⟩
  | 55 => ⟨S50000x96, .f32⟩
  | 56 => ⟨S1x96, .f32⟩
  | 57 => ⟨S96, .f32⟩
  | 58 => ⟨S1x96, .f32⟩
  | 59 => ⟨S96, .f32⟩
  | 60 => ⟨S1x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S1x96, .f32⟩
  | 67 => ⟨S96, .f32⟩
  | 68 => ⟨S_, .f32⟩
  | 69 => ⟨S96, .f32⟩
  | 70 => ⟨S96, .f32⟩
  | 71 => ⟨S96, .f32⟩
  | 72 => ⟨S1x96, .f32⟩
  | 73 => ⟨S50000x96, .f32⟩
  | 74 => ⟨S50000x96, .f32⟩
  | 75 => ⟨S1x96, .f32⟩
  | 76 => ⟨S96, .f32⟩
  | 77 => ⟨S1x96, .f32⟩
  | 78 => ⟨S50000x96, .f32⟩
  | 79 => ⟨S50000x96, .f32⟩
  | 80 => ⟨S50000x288, .f32⟩
  | 81 => ⟨S50000x96, .f32⟩
  | 82 => ⟨S1x96, .f32⟩
  | 83 => ⟨S50000x96, .f32⟩
  | 84 => ⟨S50000x96, .f32⟩
  | 85 => ⟨S_, .f32⟩
  | 86 => ⟨S50000x96, .f32⟩
  | 87 => ⟨S50000x96, .f32⟩
  | 88 => ⟨S50000x2, .f32⟩
  | 89 => ⟨S1x2, .f32⟩
  | 90 => ⟨S50000x2, .f32⟩
  | 91 => ⟨S50000x2, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_4 : Ref sig .tc := ⟨.hbm, 88, rfl⟩
abbrev main_v63 : Ref sig .tc := ⟨.hbm, 89, rfl⟩
abbrev main_v64 : Ref sig .tc := ⟨.hbm, 90, rfl⟩
abbrev main_c_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_6 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_cst : Ref sig .tc := ⟨.hbm, 110, rfl⟩
abbrev main_call2_v0 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call3_cst : Ref sig .tc := ⟨.hbm, 121, rfl⟩
abbrev main_call3_v0 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_7 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_8 : Ref sig .tc := ⟨.hbm, 148, rfl⟩
abbrev main_v115 : Ref sig .tc := ⟨.hbm, 149, rfl⟩
abbrev main_v116 : Ref sig .tc := ⟨.hbm, 150, rfl⟩
abbrev main_c_9 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_10 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_call4_cst : Ref sig .tc := ⟨.hbm, 170, rfl⟩
abbrev main_call4_v0 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_call5_cst : Ref sig .tc := ⟨.hbm, 181, rfl⟩
abbrev main_call5_v0 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_11 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_call6_cst : Ref sig .tc := ⟨.hbm, 213, rfl⟩
abbrev main_call6_v0 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S96 : S_.BroadcastsInDim S96 (![] : Fin 0 → Fin S96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  concatenates_S50000x96_S50000x96_S50000x96_S50000x288_d1 : Shape.Concatenates [S50000x96, S50000x96, S50000x96] S50000x288 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S120x96_S50000x1_S50000x96_1_0_n_n_0_1_196_wf : GatherDims.WF S120x96 S50000x1 S50000x96 [1] [0] [] [0] [] 1 ![1, 96]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x288_S288x96_S50000x96_1_0_0_1_n_n_wf : DotDims.WF S50000x288 S288x96 S50000x96 [1] [0] [0] [1] [] []
  dot_S50000x96_S96x2_S50000x2_1_0_0_1_n_n_wf : DotDims.WF S50000x96 S96x2 S50000x2 [1] [0] [0] [1] [] []

variable [Facts₀]

def gather_S120x96_S50000x1_S50000x96_1_0_n_n_0_1_196 : GatherDims S120x96 S50000x1 S50000x96 where
  offsetDims := [1]
  collapsedSliceDims := [0]
  operandBatchingDims := []
  startIndicesBatchingDims := []
  startIndexMap := [0]
  indexVectorDim := 1
  sliceSizes := ![1, 96]
  wf := gather_S120x96_S50000x1_S50000x96_1_0_n_n_0_1_196_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x288_S288x96_S50000x96_1_0_0_1_n_n : DotDims S50000x288 S288x96 S50000x96 where
  lhsContracting := [1]
  rhsContracting := [0]
  lhsNonContracting := [0]
  rhsNonContracting := [1]
  lhsBatch := []
  rhsBatch := []
  wf := dot_S50000x288_S288x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.GinSpec.lean ====
/-
  The mathematics both programs compute, one graph node (one row of features) at a time, over the
  extended reals.

  A GIN layer sends a node's feature row `x` and the sum `s` of its in-neighbours' rows to
      γ · (relu (relu ((x + s)·W₁ + b₁)·W₂ + b₂) − μ) · rsqrt (σ² + ε) + β ,
  and the read-out sends the three layers' rows `a`, `b`, `c` of a node to
      relu ([a | b | c]·L + d₁)·M + d₂ .
  The kernel never forms the concatenated row: it adds the three rows' products with the three
  row-blocks of `L`. That the two agree is a regrouping of ONE finite sum (`sum_three_blocks`),
  which holds in every commutative additive monoid — so on the extended reals it needs no
  finiteness of anything. The two float words (zero and the batch-norm ε) are the same words in
  both programs and are never evaluated here.
-/
import Idealize.ShloMosaic.PureOps.Ideal
import Mathlib.Algebra.BigOperators.Fin
import Idealize.ShloMosaic.Lib.ValueIdx

noncomputable section

namespace Cert.GinSpec

open Idealize.ShloMosaic

/-- The zero both programs clamp against in `relu`. -/
abbrev zeroW : EReal := Ideal.ofBits .f32 0x00000000#32
/-- The batch-norm ε both programs add to the running variance (the f32 nearest to 1e-5). -/
abbrev epsW : EReal := Ideal.ofBits .f32 0x3727C5AC#32

/-- A rank-2 array read as a function of its two coordinates. -/
abbrev matOf {p q : ℕ} (w : (⟨2, ![p, q]⟩ : Shape).Idx → EReal) : Fin p → Fin q → EReal := fun a b => w (ValueIdx.ix2 a b)
/-- Row `r` of a rank-2 array. -/
abbrev rowOf {n q : ℕ} (x : (⟨2, ![n, q]⟩ : Shape).Idx → EReal) (r : Fin n) : Fin q → EReal := fun l => x (ValueIdx.ix2 r l)
/-- A rank-1 array read as a function of its coordinate. -/
abbrev vecOf {q : ℕ} (v : (⟨1, ![q]⟩ : Shape).Idx → EReal) : Fin q → EReal := fun k => v (ValueIdx.ix1 k)

/-- One dense layer with `relu` on a row, at output feature `k`: `relu (a·W + b)`. -/
def denseRelu {p q : ℕ} (a : Fin p → EReal) (W : Fin p → Fin q → EReal) (b : Fin q → EReal) (k : Fin q) : EReal :=
  max ((∑ l : Fin p, a l * W l k) + b k) zeroW

/-- A GIN layer on one node: the two-layer perceptron of `x + s`, then batch normalisation with the
    running statistics `μ`, `σ²`, scale `γ` and shift `β`, at output feature `j`. -/
def ginRow (x s : Fin 96 → EReal) (W₁ : Fin 96 → Fin 96 → EReal) (b₁ : Fin 96 → EReal)
    (W₂ : Fin 96 → Fin 96 → EReal) (b₂ γ β μ σ2 : Fin 96 → EReal) (j : Fin 96) : EReal :=
  γ j * (denseRelu (denseRelu (fun l => x l + s l) W₁ b₁) W₂ b₂ j - μ j) * Ideal.rsqrt (σ2 j + epsW) + β j

/-- The read-out on one node as the kernel computes it: the three layers' rows against the three
    row-blocks of the first read-out matrix, summed in that order, then `relu` and the second matrix. -/
def headRow (a b c : Fin 96 → EReal) (La Lb Lc : Fin 96 → Fin 96 → EReal) (d₁ : Fin 96 → EReal)
    (M : Fin 96 → Fin 2 → EReal) (d₂ : Fin 2 → EReal) (o : Fin 2) : EReal :=
  (∑ j : Fin 96, max ((((∑ k, a k * La k j) + (∑ k, b k * Lb k j)) + (∑ k, c k * Lc k j)) + d₁ j) zeroW * M j o) + d₂ o

/-- The read-out on one node as the reference computes it: the concatenated row `z` of length 288
    against the whole first read-out matrix. -/
def headRowCat (z : Fin 288 → EReal) (L : Fin 288 → Fin 96 → EReal) (d₁ : Fin 96 → EReal)
    (M : Fin 96 → Fin 2 → EReal) (d₂ : Fin 2 → EReal) (o : Fin 2) : EReal :=
  (∑ j : Fin 96, max ((∑ q : Fin 288, z q * L q j) + d₁ j) zeroW * M j o) + d₂ o

/-- The three consecutive blocks of length 96 inside `Fin 288`. -/
abbrev blk0 (k : Fin 96) : Fin 288 := ⟨k.val, by omega⟩
abbrev blk1 (k : Fin 96) : Fin 288 := ⟨96 + k.val, by omega⟩
abbrev blk2 (k : Fin 96) : Fin 288 := ⟨192 + k.val, by omega⟩

/-- A sum over 288 terms is the sum of its three consecutive blocks of 96, grouped to the left. -/
theorem sum_three_blocks {A : Type*} [AddCommMonoid A] (f : Fin 288 → A) :
    ∑ q : Fin 288, f q = ((∑ k : Fin 96, f (blk0 k)) + (∑ k : Fin 96, f (blk1 k))) + (∑ k : Fin 96, f (blk2 k)) := by
  have h : ∀ g : Fin (96 + 96 + 96) → A,
      ∑ q, g q = ((∑ k : Fin 96, g (Fin.castAdd 96 (Fin.castAdd 96 k))) + (∑ k : Fin 96, g (Fin.castAdd 96 (Fin.natAdd 96 k))))
        + (∑ k : Fin 96, g (Fin.natAdd (96 + 96) k)) := by
    intro g; rw [Fin.sum_univ_add, Fin.sum_univ_add]
  exact h f

/-- The two read-outs agree when `z` is the concatenation of `a`, `b`, `c` and `La`, `Lb`, `Lc` are the
    three row-blocks of `L`. -/
theorem headRowCat_eq_headRow (z : Fin 288 → EReal) (L : Fin 288 → Fin 96 → EReal) (a b c : Fin 96 → EReal)
    (La Lb Lc : Fin 96 → Fin 96 → EReal) (d₁ : Fin 96 → EReal) (M : Fin 96 → Fin 2 → EReal) (d₂ : Fin 2 → EReal)
    (hza : ∀ k, z (blk0 k) = a k) (hzb : ∀ k, z (blk1 k) = b k) (hzc : ∀ k, z (blk2 k) = c k)
    (hLa : ∀ k j, L (blk0 k) j = La k j) (hLb : ∀ k j, L (blk1 k) j = Lb k j) (hLc : ∀ k j, L (blk2 k) j = Lc k j)
    (o : Fin 2) :
    headRowCat z L d₁ M d₂ o = headRow a b c La Lb Lc d₁ M d₂ o := by
  unfold headRowCat headRow
  refine congrArg (· + d₂ o) (Finset.sum_congr rfl fun j _ => ?_)
  rw [sum_three_blocks (fun q => z q * L q j)]
  simp only [hza, hzb, hzc, hLa, hLb, hLc]

end Cert.GinSpec

end
-- ==== Proof.KHeadBody.lean ====
/-
  What one grid point of the fused kernel leaves in its 2000×2 output block: row `r` is the read-out
  `headRow` of the node's first- and second-layer rows and of its third-layer row, which the kernel
  computes on the spot as `ginRow` of the second-layer row and the neighbour sum.
-/
import proofs.«414043_j79035988181207_3_alg».proof.Proof.Gen.KernelIdeal.Frame
import proofs.«414043_j79035988181207_3_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadBody

open Cert.KernelIdeal Cert.KernelIdeal.Gen Cert.GinSpec Idealize.ShloMosaic Idealize.ShloMosaic.TcCoe Idealize.ShloMosaic.ValueIdx Idealize.SL.Sem
open Idealize.ShloMosaic.Pipeline (Dat)

/-! ## The layout operations of the body, read at an index -/

/-- The zero offsets of every whole-block access. -/
theorem hz : (![0, 0] : Fin 2 → Nat) = fun _ => 0 := funext fun a => by fin_cases a <;> rfl

/-- A parameter row broadcast over the 2000 rows reads the row. -/
theorem bcast96 (v : FVec Ideal S1x96 .f32) (r : Fin 2000) (j : Fin 96) :
    broadcastTo S2000x96 v broadcasts_S1x96_S2000x96 (ix2 r j) = v (ix2 (0 : Fin 1) j) :=
  broadcastTo_1b_ab_apply v broadcasts_S1x96_S2000x96 r j

/-- The class bias broadcast over the 2000 rows reads the bias. -/
theorem bcast2 (v : FVec Ideal S1x2 .f32) (r : Fin 2000) (o : Fin 2) :
    broadcastTo S2000x2 v broadcasts_S1x2_S2000x2 (ix2 r o) = v (ix2 (0 : Fin 1) o) :=
  broadcastTo_1b_ab_apply v broadcasts_S1x2_S2000x2 r o

/-- The reciprocal square root at an index is the extended reals'. -/
theorem rsqrt_at {s : Shape} {φ : FTy} (a : FVec Ideal s φ) (i : s.Idx) : rsqrt a i = Ideal.rsqrt (a i) := rfl

/-! ## The two matrix products, read at an index

A product into the zero accumulator is the sum over the contraction index of the operands' products; the
contraction index of either product has one axis of extent 96, so the sum runs over `Fin 96`: the left operand is
read at (row, k), the right at (k, column). -/

theorem lhs96_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem lhs96_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
theorem rhs96_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
theorem rhs96_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- A 2000×96 by 96×96 product at (r, j). -/
theorem matmul96_at (a : FVec Ideal S2000x96 .bf16) (w : FVec Ideal S96x96 .bf16) (r : Fin 2000) (j : Fin 96) :
    matmul dot_S2000x96_S96x96_S2000x96_1_0_0_1_n_n none a w (constant S2000x96 .f32 0x00000000#32) (ix2 r j)
      = ∑ k : Fin 96, a (ix2 r k) * w (ix2 k j) := by
  refine (Ideal.matmul_constant_zero_apply dot_S2000x96_S96x96_S2000x96_1_0_0_1_n_n none a w (ix2 r j)).trans ?_
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx (ix2 r j) ((ValueIdx.contrEquiv1 dot_S2000x96_S96x96_S2000x96_1_0_0_1_n_n 96 rfl rfl).symm k) = ix2 r k := funext fun a => Fin.ext (by
    match a with
    | ⟨0, _⟩ => exact lhs96_0 _ _
    | ⟨1, _⟩ => exact (lhs96_1 _ _).trans hk)
  have er : dot_S2000x96_S96x96_S2000x96_1_0_0_1_n_n.rhsIdx (ix2 r j) ((ValueIdx.contrEquiv1 dot_S2000x96_S96x96_S2000x96_1_0_0_1_n_n 96 rfl rfl).symm k) = ix2 k j := funext fun a => Fin.ext (by
    match a with
    | ⟨0, _⟩ => exact (rhs96_0 _ _).trans hk
    | ⟨1, _⟩ => exact rhs96_1 _ _)
  rw [el, er]

theorem lhs2_0 (i : S2000x2.Idx) (q : dot_S2000x96_S96x2_S2000x2_1_0_0_1_n_n.contr.Idx) :
    (dot_S2000x96_S96x2_S2000x2_1_0_0_1_n_n.lhsIdx i q 0).val = (i 0).val := by
  unfold DotDims.lhsIdx
  rw [dif_neg (show ¬(0 : Fin S2000x96.rank) ∈ dot_S2000x96_S96x2_S2000x2_1_0_0_1_n_n.lhsBatch by decide), dif_pos (show (0 : Fin S2000x96.rank) ∈ dot_S2000x96_S96x2_S2000x2_1_0_0_1_n_n.lhsNonContracting by decide)]
  rfl
theorem lhs2_1 (i : S2000x2.Idx) (q : dot_S2000x96_S96x2_S2000x2_1_0_0_1_n_n.contr.Idx) :
    (dot_S2000x96_S96x2_S2000x2_1_0_0_1_n_n.lhsIdx i q 1).val = (q ⟨0, by decide⟩).val :=
  dot_S2000x96_S96x2_S2000x2_1_0_0_1_n_n.lhsIdx_val_of_single rfl i q
theorem rhs2_0 (i : S2000x2.Idx) (q : dot_S2000x96_S96x2_S2000x2_1_0_0_1_n_n.contr.Idx) :
    (dot_S2000x96_S96x2_S2000x2_1_0_0_1_n_n.rhsIdx i q 0).val = (q ⟨0, by decide⟩).val :=
  dot_S2000x96_S96x2_S2000x2_1_0_0_1_n_n.rhsIdx_val_of_single rfl i q
theorem rhs2_1 (i : S2000x2.Idx) (q : dot_S2000x96_S96x2_S2000x2_1_0_0_1_n_n.contr.Idx) :
    (dot_S2000x96_S96x2_S2000x2_1_0_0_1_n_n.rhsIdx i q 1).val = (i 1).val := by
  unfold DotDims.rhsIdx
  rw [dif_neg (show ¬(1 : Fin S96x2.rank) ∈ dot_S2000x96_S96x2_S2000x2_1_0_0_1_n_n.rhsBatch by decide), dif_pos (show (1 : Fin S96x2.rank) ∈ dot_S2000x96_S96x2_S2000x2_1_0_0_1_n_n.rhsNonContracting by decide)]
  rfl

/-- A 2000×96 by 96×2 product at (r, o). -/
theorem matmul2_at (a : FVec Ideal S2000x96 .bf16) (w : FVec Ideal S96x2 .bf16) (r : Fin 2000) (o : Fin 2) :
    matmul dot_S2000x96_S96x2_S2000x2_1_0_0_1_n_n none a w (constant S2000x2 .f32 0x00000000#32) (ix2 r o)
      = ∑ k : Fin 96, a (ix2 r k) * w (ix2 k o) := by
  refine (Ideal.matmul_constant_zero_apply dot_S2000x96_S96x2_S2000x2_1_0_0_1_n_n none a w (ix2 r o)).trans ?_
  rw [← Equiv.sum_comp (ValueIdx.contrEquiv1 dot_S2000x96_S96x2_S2000x2_1_0_0_1_n_n 96 rfl rfl).symm]
  refine Finset.sum_congr rfl fun k _ => ?_
  have hk := ValueIdx.contrEquiv1_symm_val dot_S2000x96_S96x2_S2000x2_1_0_0_1_n_n 96 rfl rfl k
  have el : dot_S2000x96_S96x2_S2000x2_1_0_0_1_n_n.lhsIdx (ix2 r o) ((ValueIdx.contrEquiv1 dot_S2000x96_S96x2_S2000x2_1_0_0_1_n_n 96 rfl rfl).symm k) = ix2 r k := funext fun a => Fin.ext (by
    match a with
    | ⟨0, _⟩ => exact lhs2_0 _ _
    | ⟨1, _⟩ => exact (lhs2_1 _ _).trans hk)
  have er : dot_S2000x96_S96x2_S2000x2_1_0_0_1_n_n.rhsIdx (ix2 r o) ((ValueIdx.contrEquiv1 dot_S2000x96_S96x2_S2000x2_1_0_0_1_n_n 96 rfl rfl).symm k) = ix2 k o := funext fun a => Fin.ext (by
    match a with
    | ⟨0, _⟩ => exact (rhs2_0 _ _).trans hk
    | ⟨1, _⟩ => exact rhs2_1 _ _)
  rw [el, er]

/-! ## The payloads, read at an index -/

/-- The second-layer block passes through unchanged. -/
theorem pay2_eq (x : Vec Ideal S2000x96 .f32) : k2_pay2 x = x := by
  unfold k2_pay2; exact shapeCast_self x _

/-- So do the scale row and the running-mean row. -/
theorem pay5_eq (x : Vec Ideal S1x96 .f32) : k2_pay5 x = x := by
  unfold k2_pay5; exact shapeCast_self x _
theorem pay6_eq (x : Vec Ideal S1x96 .f32) : k2_pay6 x = x := by
  unfold k2_pay6; exact shapeCast_self x _

/-- The normaliser: the reciprocal square root of the running variance plus ε. -/
theorem pay4_at (x : Vec Ideal S1x96 .f32) (j : Fin 96) :
    k2_pay4 x (ix2 (0 : Fin 1) j) = Ideal.rsqrt (x (ix2 (0 : Fin 1) j) + Ideal.ofBits .f32 0x3727C5AC#32) := by
  unfold k2_pay4
  simp only [shapeCast_self, rsqrt_at, addf_apply, broadcast_apply]
  rfl

/-- The two-layer perceptron of the third layer at (r, j): both dense layers with their clamps at zero. -/
theorem pay3_at (x s : Vec Ideal S2000x96 .f32) (w1 : Vec Ideal S96x96 .f32) (b1 : Vec Ideal S1x96 .f32)
    (w2 : Vec Ideal S96x96 .f32) (b2 : Vec Ideal S1x96 .f32) (r : Fin 2000) (j : Fin 96) :
    k2_pay3 x s w1 b1 w2 b2 (ix2 r j)
      = max ((∑ k : Fin 96,
              max ((∑ l : Fin 96, (x (ix2 r l) + s (ix2 r l)) * w1 (ix2 l k)) + b1 (ix2 (0 : Fin 1) k))
                (Ideal.ofBits .f32 0x00000000#32) * w2 (ix2 k j)) + b2 (ix2 (0 : Fin 1) j))
          (Ideal.ofBits .f32 0x00000000#32) := by
  unfold k2_pay3
  simp only [pay2_eq, shapeCast_self, maximumf_apply, addf_apply, matmul96_at, truncf_apply, bcast96, broadcast_apply]
  rfl

/-- The read-out before its bias at (r, o), over the layer's five intermediate values as variables: the third
    layer's row is normalised on the spot, the three products are added left to right, clamped, and
    multiplied by the second read-out matrix. -/
theorem pay7_at (v1 v26 : FVec Ideal S2000x96 .f32) (v31 v33 v35 : FVec Ideal S1x96 .f32) (bt : Vec Ideal S1x96 .f32)
    (x0 : Vec Ideal S2000x96 .f32) (c0 c1 c2 : Vec Ideal S96x96 .f32) (d1 : Vec Ideal S1x96 .f32)
    (m2 : Vec Ideal S96x2 .f32) (r : Fin 2000) (o : Fin 2) :
    k2_pay7 v1 v26 v31 v33 v35 bt x0 c0 c1 c2 d1 m2 (ix2 r o)
      = ∑ j : Fin 96,
          max (((((∑ k : Fin 96, x0 (ix2 r k) * c0 (ix2 k j)) + (∑ k : Fin 96, v1 (ix2 r k) * c1 (ix2 k j)))
                + (∑ k : Fin 96, (v33 (ix2 (0 : Fin 1) k) * (v26 (ix2 r k) - v35 (ix2 (0 : Fin 1) k)) * v31 (ix2 (0 : Fin 1) k)
                      + bt (ix2 (0 : Fin 1) k)) * c2 (ix2 k j)))
              + d1 (ix2 (0 : Fin 1) j))) (Ideal.ofBits .f32 0x00000000#32) * m2 (ix2 j o) := by
  unfold k2_pay7
  simp only [shapeCast_self, matmul2_at, truncf_apply, maximumf_apply, addf_apply, matmul96_at, mulf_apply, subf_apply,
    bcast96, broadcast_apply]
  rfl

/-- The result: the product plus the class bias. -/
theorem pay1_at (v74 : FVec Ideal S2000x2 .f32) (b : Vec Ideal S1x2 .f32) (r : Fin 2000) (o : Fin 2) :
    k2_pay1 v74 b (ix2 r o) = v74 (ix2 r o) + b (ix2 (0 : Fin 1) o) := by
  unfold k2_pay1
  simp only [shapeCast_self, addf_apply, bcast2]

/-! ## The block -/

/-- Region 2: the fused body's result at row `r`, class `o`. Windows: 0 first-layer rows, 1 second-layer rows,
    2 neighbour sum, 3–10 the third layer's parameters, 11–13 the three row-blocks of the first read-out matrix,
    14 its bias, 15 the second read-out matrix, 16 its bias. -/
theorem head_body (x0 x1 x2 : Vec Ideal S2000x96 .f32) (x3 : Vec Ideal S96x96 .f32) (x4 : Vec Ideal S1x96 .f32)
    (x5 : Vec Ideal S96x96 .f32) (x6 x7 x8 x9 x10 : Vec Ideal S1x96 .f32) (x11 x12 x13 : Vec Ideal S96x96 .f32)
    (x14 : Vec Ideal S1x96 .f32) (x15 : Vec Ideal S96x2 .f32) (x16 : Vec Ideal S1x2 .f32) (r : Fin 2000) (o : Fin 2) :
    out2_17 x0 x1 x2 x3 x4 x5 x6 x7 x8 x9 x10 x11 x12 x13 x14 x15 x16 (ix2 r o)
      = headRow (rowOf x0 r) (rowOf x1 r)
          (ginRow (rowOf x1 r) (rowOf x2 r) (matOf x3) (rowOf x4 0) (matOf x5) (rowOf x6 0)
            (rowOf x7 0) (rowOf x8 0) (rowOf x9 0) (rowOf x10 0))
          (matOf x11) (matOf x12) (matOf x13) (rowOf x14 0) (matOf x15) (rowOf x16 0) o := by
  unfold out2_17
  rw [View.canon_unit_zero hz]
  simp only [View.ld_unit_zero (S := S2000x96) hz, View.ld_unit_zero (S := S96x96) hz, View.ld_unit_zero (S := S1x96) hz,
    View.ld_unit_zero (S := S96x2) hz, View.ld_unit_zero (S := S1x2) hz]
  rw [pay1_at, pay7_at]
  simp only [pay2_eq, pay5_eq, pay6_eq, pay3_at, pay4_at]
  unfold headRow ginRow denseRelu
  rfl

end Cert.KernelIdeal.HeadBody

end
-- ==== Proof.KHeadArray.lean ====
/-
  From blocks to the whole array, for the fused kernel. Grid point `t` of twenty-five writes rows
  2000·t … 2000·t + 1999 of the 50000×2 output; row `n` depends only on row `n` of the three node-tiled
  inputs and on the parameter arrays. So the array the region leaves is the read-out `headRow`, row by
  row, of the entry arrays — the third layer's row formed inside as `ginRow`.
-/
import proofs.«414043_j79035988181207_3_alg».proof.Proof.Gen.KernelIdeal.Frame
import proofs.«414043_j79035988181207_3_alg».proof.Proof.GinSpec
import proofs.«414043_j79035988181207_3_alg».proof.Proof.KHeadBody
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadArray

open Cert.KernelIdeal Cert.KernelIdeal.Gen Cert.GinSpec Idealize.ShloMosaic Idealize.ShloMosaic.TcCoe Idealize.ShloMosaic.ValueIdx Idealize.SL.Sem
open Idealize.ShloMosaic.Pipeline (Dat)
open Cert.KernelIdeal.HeadBody

variable (V : (c : Dev nD) → (b : Ref sig .tc) → Buf (Elt Ideal) ((c : Thread nD τ).loc b))

/-! ## Where each window's block sits, at every grid point -/

/-- The four node-tiled windows (the three row inputs and the output) sit at block (t, 0) at point t:
    decided over the twenty-five points. -/
theorem tiled_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_17.index t (0 : Fin 2) = t.val ∧ win2_17.index t (1 : Fin 2) = 0) :=
  (by decide +kernel : ∀ t : Fin grid2.N, _)

/-- Every parameter window sits at block (0, 0) at every point. First the third layer's two matrices, -/
theorem layer_mat_index : ∀ t : Fin cfg2.N,
    (win2_3.index t (0 : Fin 2) = 0 ∧ win2_3.index t (1 : Fin 2) = 0)
    ∧ (win2_5.index t (0 : Fin 2) = 0 ∧ win2_5.index t (1 : Fin 2) = 0) :=
  (by decide +kernel : ∀ t : Fin grid2.N, _)

/-- then its six rows (the two biases and the four batch-norm rows), -/
theorem layer_row_index : ∀ t : Fin cfg2.N,
    (win2_4.index t (0 : Fin 2) = 0 ∧ win2_4.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N, _)

/-- and the read-out's three matrix blocks, its bias, its second matrix and that one's bias. -/
theorem head_index : ∀ t : Fin cfg2.N,
    (win2_11.index t (0 : Fin 2) = 0 ∧ win2_11.index t (1 : Fin 2) = 0)
    ∧ (win2_12.index t (0 : Fin 2) = 0 ∧ win2_12.index t (1 : Fin 2) = 0)
    ∧ (win2_13.index t (0 : Fin 2) = 0 ∧ win2_13.index t (1 : Fin 2) = 0)
    ∧ (win2_14.index t (0 : Fin 2) = 0 ∧ win2_14.index t (1 : Fin 2) = 0)
    ∧ (win2_15.index t (0 : Fin 2) = 0 ∧ win2_15.index t (1 : Fin 2) = 0)
    ∧ (win2_16.index t (0 : Fin 2) = 0 ∧ win2_16.index t (1 : Fin 2) = 0) :=
  (by decide +kernel : ∀ t : Fin grid2.N, _)

/-! ## The three node-tiled inputs: row r of the block at point t is row 2000·t + r of the array -/

/-- The first-layer rows (window 0). -/
theorem rows_layer1 (c : Dev nD) (t : Fin cfg2.N) (r : Fin 2000) (n : Fin 50000) (hn : n.val = 2000 * t.val + r.val) :
    rowOf (iblk2 V c 0 t : Vec Ideal S2000x96 .f32) r = rowOf (V c main_v43 : Vec Ideal S50000x96 .f32) n := by
  obtain ⟨⟨e0, e1⟩, -⟩ := tiled_index t
  funext l
  show (iblk2 V c 0 t : Vec Ideal S2000x96 .f32) (ix2 r l) = (V c main_v43 : Vec Ideal S50000x96 .f32) (ix2 n l)
  unfold iblk2
  rw [View.read_apply]
  show V c main_v43 _ = V c main_v43 _
  congr 1
  funext a
  apply Fin.ext
  match a with
  | ⟨0, _⟩ => show win2_0.index t (0 : Fin 2) * 2000 + 1 * r.val = n.val; omega
  | ⟨1, _⟩ => show win2_0.index t (1 : Fin 2) * 96 + 1 * l.val = l.val; omega

/-- The second-layer rows (window 1). -/
theorem rows_layer2 (c : Dev nD) (t : Fin cfg2.N) (r : Fin 2000) (n : Fin 50000) (hn : n.val = 2000 * t.val + r.val) :
    rowOf (iblk2 V c 1 t : Vec Ideal S2000x96 .f32) r = rowOf (V c main_v76 : Vec Ideal S50000x96 .f32) n := by
  obtain ⟨-, ⟨e0, e1⟩, -⟩ := tiled_index t
  funext l
  show (iblk2 V c 1 t : Vec Ideal S2000x96 .f32) (ix2 r l) = (V c main_v76 : Vec Ideal S50000x96 .f32) (ix2 n l)
  unfold iblk2
  rw [View.read_apply]
  show V c main_v76 _ = V c main_v76 _
  congr 1
  funext a
  apply Fin.ext
  match a with
  | ⟨0, _⟩ => show win2_1.index t (0 : Fin 2) * 2000 + 1 * r.val = n.val; omega
  | ⟨1, _⟩ => show win2_1.index t (1 : Fin 2) * 96 + 1 * l.val = l.val; omega

/-- The neighbour sums of the second-layer rows (window 2). -/
theorem rows_nbrsum (c : Dev nD) (t : Fin cfg2.N) (r : Fin 2000) (n : Fin 50000) (hn : n.val = 2000 * t.val + r.val) :
    rowOf (iblk2 V c 2 t : Vec Ideal S2000x96 .f32) r = rowOf (V c main_v86 : Vec Ideal S50000x96 .f32) n := by
  obtain ⟨-, -, ⟨e0, e1⟩, -⟩ := tiled_index t
  funext l
  show (iblk2 V c 2 t : Vec Ideal S2000x96 .f32) (ix2 r l) = (V c main_v86 : Vec Ideal S50000x96 .f32) (ix2 n l)
  unfold iblk2
  rw [View.read_apply]
  show V c main_v86 _ = V c main_v86 _
  congr 1
  funext a
  apply Fin.ext
  match a with
  | ⟨0, _⟩ => show win2_2.index t (0 : Fin 2) * 2000 + 1 * r.val = n.val; omega
  | ⟨1, _⟩ => show win2_2.index t (1 : Fin 2) * 96 + 1 * l.val = l.val; omega

/-! ## The parameter windows: the one block of each is its whole array -/

/-- The third layer's first matrix (window 3). -/
theorem whole_W1 (c : Dev nD) (t : Fin cfg2.N) :
    (iblk2 V c 3 t : Vec Ideal S96x96 .f32) = (V c main_v91 : Vec Ideal S96x96 .f32) := by
  obtain ⟨⟨e0, e1⟩, -⟩ := layer_mat_index t
  funext y
  unfold iblk2
  rw [View.read_apply]
  show V c main_v91 _ = V c main_v91 y
  congr 1
  funext a
  apply Fin.ext
  match a with
  | ⟨0, _⟩ => show win2_3.index t (0 : Fin 2) * 96 + 1 * (y 0).val = (y 0).val; omega
  | ⟨1, _⟩ => show win2_3.index t (1 : Fin 2) * 96 + 1 * (y 1).val = (y 1).val; omega

/-- Its first bias (window 4). -/
theorem whole_b1 (c : Dev nD) (t : Fin cfg2.N) :
    (iblk2 V c 4 t : Vec Ideal S1x96 .f32) = (V c main_v106 : Vec Ideal S1x96 .f32) := by
  obtain ⟨⟨e0, e1⟩, -⟩ := layer_row_index t
  funext y
  unfold iblk2
  rw [View.read_apply]
  show V c main_v106 _ = V c main_v106 y
  congr 1
  funext a
  apply Fin.ext
  match a with
  | ⟨0, _⟩ => show win2_4.index t (0 : Fin 2) * 1 + 1 * (y 0).val = (y 0).val; omega
  | ⟨1, _⟩ => show win2_4.index t (1 : Fin 2) * 96 + 1 * (y 1).val = (y 1).val; omega

/-- Its second matrix (window 5). -/
theorem whole_W2 (c : Dev nD) (t : Fin cfg2.N) :
    (iblk2 V c 5 t : Vec Ideal S96x96 .f32) = (V c main_v95 : Vec Ideal S96x96 .f32) := by
  obtain ⟨-, e0, e1⟩ := layer_mat_index t
  funext y
  unfold iblk2
  rw [View.read_apply]
  show V c main_v95 _ = V c main_v95 y
  congr 1
  funext a
  apply Fin.ext
  match a with
  | ⟨0, _⟩ => show win2_5.index t (0 : Fin 2) * 96 + 1 * (y 0).val = (y 0).val; omega
  | ⟨1, _⟩ => show win2_5.index t (1 : Fin 2) * 96 + 1 * (y 1).val = (y 1).val; omega

/-- Its second bias (window 6). -/
theorem whole_b2 (c : Dev nD) (t : Fin cfg2.N) :
    (iblk2 V c 6 t : Vec Ideal S1x96 .f32) = (V c main_v107 : Vec Ideal S1x96 .f32) := by
  obtain ⟨-, ⟨e0, e1⟩, -⟩ := layer_row_index t
  funext y
  unfold iblk2
  rw [View.read_apply]
  show V c main_v107 _ = V c main_v107 y
  congr 1
  funext a
  apply Fin.ext
  match a with
  | ⟨0, _⟩ => show win2_6.index t (0 : Fin 2) * 1 + 1 * (y 0).val = (y 0).val; omega
  | ⟨1, _⟩ => show win2_6.index t (1 : Fin 2) * 96 + 1 * (y 1).val = (y 1).val; omega

/-- The batch-norm scale (window 7). -/
theorem whole_scale (c : Dev nD) (t : Fin cfg2.N) :
    (iblk2 V c 7 t : Vec Ideal S1x96 .f32) = (V c main_v108 : Vec Ideal S1x96 .f32) := by
  obtain ⟨-, -, ⟨e0, e1⟩, -⟩ := layer_row_index t
  funext y
  unfold iblk2
  rw [View.read_apply]
  show V c main_v108 _ = V c main_v108 y
  congr 1
  funext a
  apply Fin.ext
  match a with
  | ⟨0, _⟩ => show win2_7.index t (0 : Fin 2) * 1 + 1 * (y 0).val = (y 0).val; omega
  | ⟨1, _⟩ => show win2_7.index t (1 : Fin 2) * 96 + 1 * (y 1).val = (y 1).val; omega

/-- The batch-norm shift (window 8). -/
theorem whole_shift (c : Dev nD) (t : Fin cfg2.N) :
    (iblk2 V c 8 t : Vec Ideal S1x96 .f32) = (V c main_v109 : Vec Ideal S1x96 .f32) := by
  obtain ⟨-, -, -, ⟨e0, e1⟩, -⟩ := layer_row_index t
  funext y
  unfold iblk2
  rw [View.read_apply]
  show V c main_v109 _ = V c main_v109 y
  congr 1
  funext a
  apply Fin.ext
  match a with
  | ⟨0, _⟩ => show win2_8.index t (0 : Fin 2) * 1 + 1 * (y 0).val = (y 0).val; omega
  | ⟨1, _⟩ => show win2_8.index t (1 : Fin 2) * 96 + 1 * (y 1).val = (y 1).val; omega

/-- The running mean (window 9). -/
theorem whole_mean (c : Dev nD) (t : Fin cfg2.N) :
    (iblk2 V c 9 t : Vec Ideal S1x96 .f32) = (V c main_v110 : Vec Ideal S1x96 .f32) := by
  obtain ⟨-, -, -, -, ⟨e0, e1⟩, -⟩ := layer_row_index t
  funext y
  unfold iblk2
  rw [View.read_apply]
  show V c main_v110 _ = V c main_v110 y
  congr 1
  funext a
  apply Fin.ext
  match a with
  | ⟨0, _⟩ => show win2_9.index t (0 : Fin 2) * 1 + 1 * (y 0).val = (y 0).val; omega
  | ⟨1, _⟩ => show win2_9.index t (1 : Fin 2) * 96 + 1 * (y 1).val = (y 1).val; omega

/-- The running variance (window 10). -/
theorem whole_var (c : Dev nD) (t : Fin cfg2.N) :
    (iblk2 V c 10 t : Vec Ideal S1x96 .f32) = (V c main_v111 : Vec Ideal S1x96 .f32) := by
  obtain ⟨-, -, -, -, -, e0, e1⟩ := layer_row_index t
  funext y
  unfold iblk2
  rw [View.read_apply]
  show V c main_v111 _ = V c main_v111 y
  congr 1
  funext a
  apply Fin.ext
  match a with
  | ⟨0, _⟩ => show win2_10.index t (0 : Fin 2) * 1 + 1 * (y 0).val = (y 0).val; omega
  | ⟨1, _⟩ => show win2_10.index t (1 : Fin 2) * 96 + 1 * (y 1).val = (y 1).val; omega

/-- The read-out matrix's first row-block (window 11). -/
theorem whole_La (c : Dev nD) (t : Fin cfg2.N) :
    (iblk2 V c 11 t : Vec Ideal S96x96 .f32) = (V c main_v87 : Vec Ideal S96x96 .f32) := by
  obtain ⟨⟨e0, e1⟩, -⟩ := head_index t
  funext y
  unfold iblk2
  rw [View.read_apply]
  show V c main_v87 _ = V c main_v87 y
  congr 1
  funext a
  apply Fin.ext
  match a with
  | ⟨0, _⟩ => show win2_11.index t (0 : Fin 2) * 96 + 1 * (y 0).val = (y 0).val; omega
  | ⟨1, _⟩ => show win2_11.index t (1 : Fin 2) * 96 + 1 * (y 1).val = (y 1).val; omega

/-- Its second row-block (window 12). -/
theorem whole_Lb (c : Dev nD) (t : Fin cfg2.N) :
    (iblk2 V c 12 t : Vec Ideal S96x96 .f32) = (V c main_v88 : Vec Ideal S96x96 .f32) := by
  obtain ⟨-, ⟨e0, e1⟩, -⟩ := head_index t
  funext y
  unfold iblk2
  rw [View.read_apply]
  show V c main_v88 _ = V c main_v88 y
  congr 1
  funext a
  apply Fin.ext
  match a with
  | ⟨0, _⟩ => show win2_12.index t (0 : Fin 2) * 96 + 1 * (y 0).val = (y 0).val; omega
  | ⟨1, _⟩ => show win2_12.index t (1 : Fin 2) * 96 + 1 * (y 1).val = (y 1).val; omega

/-- Its third row-block (window 13). -/
theorem whole_Lc (c : Dev nD) (t : Fin cfg2.N) :
    (iblk2 V c 13 t : Vec Ideal S96x96 .f32) = (V c main_v89 : Vec Ideal S96x96 .f32) := by
  obtain ⟨-, -, ⟨e0, e1⟩, -⟩ := head_index t
  funext y
  unfold iblk2
  rw [View.read_apply]
  show V c main_v89 _ = V c main_v89 y
  congr 1
  funext a
  apply Fin.ext
  match a with
  | ⟨0, _⟩ => show win2_13.index t (0 : Fin 2) * 96 + 1 * (y 0).val = (y 0).val; omega
  | ⟨1, _⟩ => show win2_13.index t (1 : Fin 2) * 96 + 1 * (y 1).val = (y 1).val; omega

/-- The read-out's first bias (window 14). -/
theorem whole_d1 (c : Dev nD) (t : Fin cfg2.N) :
    (iblk2 V c 14 t : Vec Ideal S1x96 .f32) = (V c main_v112 : Vec Ideal S1x96 .f32) := by
  obtain ⟨-, -, -, ⟨e0, e1⟩, -⟩ := head_index t
  funext y
  unfold iblk2
  rw [View.read_apply]
  show V c main_v112 _ = V c main_v112 y
  congr 1
  funext a
  apply Fin.ext
  match a with
  | ⟨0, _⟩ => show win2_14.index t (0 : Fin 2) * 1 + 1 * (y 0).val = (y 0).val; omega
  | ⟨1, _⟩ => show win2_14.index t (1 : Fin 2) * 96 + 1 * (y 1).val = (y 1).val; omega

/-- The read-out's second matrix (window 15). -/
theorem whole_M (c : Dev nD) (t : Fin cfg2.N) :
    (iblk2 V c 15 t : Vec Ideal S96x2 .f32) = (V c main_arg13 : Vec Ideal S96x2 .f32) := by
  obtain ⟨-, -, -, -, ⟨e0, e1⟩, -⟩ := head_index t
  funext y
  unfold iblk2
  rw [View.read_apply]
  show V c main_arg13 _ = V c main_arg13 y
  congr 1
  funext a
  apply Fin.ext
  match a with
  | ⟨0, _⟩ => show win2_15.index t (0 : Fin 2) * 96 + 1 * (y 0).val = (y 0).val; omega
  | ⟨1, _⟩ => show win2_15.index t (1 : Fin 2) * 2 + 1 * (y 1).val = (y 1).val; omega

/-- The read-out's second bias (window 16). -/
theorem whole_d2 (c : Dev nD) (t : Fin cfg2.N) :
    (iblk2 V c 16 t : Vec Ideal S1x2 .f32) = (V c main_v113 : Vec Ideal S1x2 .f32) := by
  obtain ⟨-, -, -, -, -, e0, e1⟩ := head_index t
  funext y
  unfold iblk2
  rw [View.read_apply]
  show V c main_v113 _ = V c main_v113 y
  congr 1
  funext a
  apply Fin.ext
  match a with
  | ⟨0, _⟩ => show win2_16.index t (0 : Fin 2) * 1 + 1 * (y 0).val = (y 0).val; omega
  | ⟨1, _⟩ => show win2_16.index t (1 : Fin 2) * 2 + 1 * (y 1).val = (y 1).val; omega

/-! ## What each point writes back, and the whole array -/

/-- The read-out of the entry arrays, index by index: node (i 0), class (i 1). -/
abbrev readOut (c : Dev nD) : S50000x2.Idx → EReal := fun i =>
  headRow (rowOf (V c main_v43 : Vec Ideal S50000x96 .f32) (i 0)) (rowOf (V c main_v76 : Vec Ideal S50000x96 .f32) (i 0))
    (ginRow (rowOf (V c main_v76 : Vec Ideal S50000x96 .f32) (i 0)) (rowOf (V c main_v86 : Vec Ideal S50000x96 .f32) (i 0))
      (matOf (V c main_v91 : Vec Ideal S96x96 .f32)) (rowOf (V c main_v106 : Vec Ideal S1x96 .f32) 0)
      (matOf (V c main_v95 : Vec Ideal S96x96 .f32)) (rowOf (V c main_v107 : Vec Ideal S1x96 .f32) 0)
      (rowOf (V c main_v108 : Vec Ideal S1x96 .f32) 0) (rowOf (V c main_v109 : Vec Ideal S1x96 .f32) 0)
      (rowOf (V c main_v110 : Vec Ideal S1x96 .f32) 0) (rowOf (V c main_v111 : Vec Ideal S1x96 .f32) 0))
    (matOf (V c main_v87 : Vec Ideal S96x96 .f32)) (matOf (V c main_v88 : Vec Ideal S96x96 .f32))
    (matOf (V c main_v89 : Vec Ideal S96x96 .f32)) (rowOf (V c main_v112 : Vec Ideal S1x96 .f32) 0)
    (matOf (V c main_arg13 : Vec Ideal S96x2 .f32)) (rowOf (V c main_v113 : Vec Ideal S1x2 .f32) 0) (i 1)

/-- What point t writes back is block t of the read-out: element (r, o) of the block is the read-out at node
    2000·t + r, class o, because the body's result at row r uses row r of each node-tiled block, which is row
    2000·t + r of its array, and the whole of every parameter array. -/
theorem flushed_readOut (c : Dev nD) (t : Fin cfg2.N) :
    (dat2 V c).flushed 17 t = ((cfg2.win 17).blk t).view.read (Elt Ideal) (readOut V c) := by
  obtain ⟨-, -, -, e0, e1⟩ := tiled_index t
  have hN : cfg2.N = 25 := N_2
  have ht : t.val < cfg2.N := t.isLt
  show (cfg2.win 17).cut (grid2.coords t) ((dat2 V c).after 17 t) = _
  rw [after2_17]
  funext j
  show out2_17 (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t)
      (iblk2 V c 14 t) (iblk2 V c 15 t) (iblk2 V c 16 t) j
    = readOut V c (((cfg2.win 17).blk t).view.emb j)
  obtain ⟨r, o, rfl⟩ : ∃ (r : Fin 2000) (o : Fin 2), j = ix2 r o := ⟨j 0, j 1, eq_ix2 j⟩
  obtain ⟨n, hn⟩ : ∃ n : Fin 50000, n.val = 2000 * t.val + r.val := ⟨⟨2000 * t.val + r.val, by omega⟩, rfl⟩
  have hemb : ((cfg2.win 17).blk t).view.emb (ix2 r o) = (ix2 n o : S50000x2.Idx) := by
    funext a
    apply Fin.ext
    match a with
    | ⟨0, _⟩ => show win2_17.index t (0 : Fin 2) * 2000 + 1 * r.val = n.val; omega
    | ⟨1, _⟩ => show win2_17.index t (1 : Fin 2) * 2 + 1 * o.val = o.val; omega
  rw [hemb]
  refine (head_body (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) (iblk2 V c 12 t)
    (iblk2 V c 13 t) (iblk2 V c 14 t) (iblk2 V c 15 t) (iblk2 V c 16 t) r o).trans ?_
  rw [rows_layer1 V c t r n hn, rows_layer2 V c t r n hn, rows_nbrsum V c t r n hn,
    whole_W1 V c t, whole_b1 V c t, whole_W2 V c t, whole_b2 V c t, whole_scale V c t, whole_shift V c t,
    whole_mean V c t, whole_var V c t, whole_La V c t, whole_Lb V c t, whole_Lc V c t, whole_d1 V c t,
    whole_M V c t, whole_d2 V c t]

/-- An index of the output array is in point t's block iff each coordinate is in the block's range on its axis. -/
theorem mem_outBlock (t : Fin cfg2.N) (i : S50000x2.Idx) :
    i ∈ ((cfg2.win 17).blk t).view.set ↔ ∀ a : Fin 2, win2_17.index t a * S2000x2.size a ≤ (i a).val ∧ (i a).val < win2_17.index t a * S2000x2.size a + S2000x2.size a := by
  show i ∈ ((View.whole main_v114).slice (win2_17.rect t)).set ↔ _
  rw [View.set_slice_whole, Rect.mem_set_unit]
  exact Iff.rfl

/-- The twenty-five blocks of 2000 rows tile the 50000 rows: node n is in the block of point n / 2000. -/
theorem covered (i : S50000x2.Idx) :
    ∃ t : Fin cfg2.N, (cfg2.win 17).flush t = true ∧ i ∈ ((cfg2.win 17).blk t).view.set := by
  have hN : cfg2.N = 25 := N_2
  have h0 : (i 0).val < 50000 := (i 0).isLt
  have h1 : (i 1).val < 2 := (i 1).isLt
  obtain ⟨t, ht⟩ : ∃ t : Fin cfg2.N, t.val = (i 0).val / 2000 := ⟨⟨(i 0).val / 2000, by omega⟩, rfl⟩
  obtain ⟨-, -, -, e0, e1⟩ := tiled_index t
  refine ⟨t, flush2_17 t, ?_⟩
  rw [mem_outBlock]
  intro a
  match a with
  | ⟨0, _⟩ => show win2_17.index t (0 : Fin 2) * 2000 ≤ (i 0).val ∧ (i 0).val < win2_17.index t (0 : Fin 2) * 2000 + 2000; omega
  | ⟨1, _⟩ => show win2_17.index t (1 : Fin 2) * 2 ≤ (i 1).val ∧ (i 1).val < win2_17.index t (1 : Fin 2) * 2 + 2; omega

/-- Region 2 leaves, in its output array, the read-out of its entry arrays. -/
theorem head_array (c : Dev nD) :
    (dat2 V c).arrAt 17 cfg2.N = fun i =>
      headRow (rowOf (V c main_v43 : Vec Ideal S50000x96 .f32) (i 0)) (rowOf (V c main_v76 : Vec Ideal S50000x96 .f32) (i 0))
        (ginRow (rowOf (V c main_v76 : Vec Ideal S50000x96 .f32) (i 0)) (rowOf (V c main_v86 : Vec Ideal S50000x96 .f32) (i 0))
          (matOf (V c main_v91 : Vec Ideal S96x96 .f32)) (rowOf (V c main_v106 : Vec Ideal S1x96 .f32) 0)
          (matOf (V c main_v95 : Vec Ideal S96x96 .f32)) (rowOf (V c main_v107 : Vec Ideal S1x96 .f32) 0)
          (rowOf (V c main_v108 : Vec Ideal S1x96 .f32) 0) (rowOf (V c main_v109 : Vec Ideal S1x96 .f32) 0)
          (rowOf (V c main_v110 : Vec Ideal S1x96 .f32) 0) (rowOf (V c main_v111 : Vec Ideal S1x96 .f32) 0))
        (matOf (V c main_v87 : Vec Ideal S96x96 .f32)) (matOf (V c main_v88 : Vec Ideal S96x96 .f32))
        (matOf (V c main_v89 : Vec Ideal S96x96 .f32)) (rowOf (V c main_v112 : Vec Ideal S1x96 .f32) 0)
        (matOf (V c main_arg13 : Vec Ideal S96x2 .f32)) (rowOf (V c main_v113 : Vec Ideal S1x2 .f32) 0) (i 1) := by
  exact (dat2 V c).arrAt_eq_of_cover 17 (readOut V c) (fun t _ => flushed_readOut V c t) covered

end Cert.KernelIdeal.HeadArray

end
-- ==== Proof.RefLayers.lean ====
/-
  The reference's three GIN layers read at an index. Each layer's output stage, at node `n` and feature
  `j`, is the row function `ginRow` of row `n` of the layer's input stage and of its neighbour-sum stage,
  with the layer's slices of the parameter arrays: the host's two `dot_general`s are sums over the 96
  input features, `relu` is the maximum with zero, and every broadcast reads its operand at the
  feature coordinate. The gather and the scatter-add that make the neighbour sum are never opened.

  The three layers apply the same operations to different stages, so the reading is done once, for
  arbitrary arrays in the places of the input, the neighbour sum and the eight parameter vectors and
  matrices (`gin_stage`), and each layer's theorem is that statement at the layer's own stages.
-/
import proofs.«414043_j79035988181207_3_alg».proof.Proof.Gen.ReferenceIdeal.Read
import proofs.«414043_j79035988181207_3_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefLayers

open Cert.ReferenceIdeal Cert.ReferenceIdeal.Read Cert.GinSpec Idealize.ShloMosaic Idealize.ShloMosaic.TcCoe Idealize.ShloMosaic.ValueIdx

/-! ## The operations of one layer, read at a node and a feature -/

/-- A vector of 96 features broadcast to every node's row (first to one row, then down the 50000 rows). -/
abbrev bcRow (v : (⟨S96, .f32⟩ : BufTy).Contents (Elt Ideal)) : (⟨S50000x96, .f32⟩ : BufTy).Contents (Elt Ideal) :=
  broadcastInDim S50000x96 ![0, 1] Gen.bcast_S1x96_S50000x96_0_1 (broadcastInDim S1x96 ![1] Gen.bcast_S96_S1x96_1 v)

/-- The float word `w` at every node and feature. -/
abbrev fillNF (w : BitVec 32) : (⟨S50000x96, .f32⟩ : BufTy).Contents (Elt Ideal) :=
  broadcastInDim S50000x96 ![] Gen.bcast_S_S50000x96 (constant (F := Ideal) S_ .f32 w)

/-- The float word `w` at every feature. -/
abbrev fillF (w : BitVec 32) : (⟨S96, .f32⟩ : BufTy).Contents (Elt Ideal) :=
  broadcastInDim S96 ![] Gen.bcast_S_S96 (constant (F := Ideal) S_ .f32 w)

/-- One dense layer on every node's row: the product with a 96×96 matrix plus the bias row, then `relu`. -/
abbrev denseNF (y : (⟨S50000x96, .f32⟩ : BufTy).Contents (Elt Ideal)) (W : (⟨S96x96, .f32⟩ : BufTy).Contents (Elt Ideal)) (b : (⟨S96, .f32⟩ : BufTy).Contents (Elt Ideal)) : (⟨S50000x96, .f32⟩ : BufTy).Contents (Elt Ideal) :=
  maximumf (F := Ideal) (φ := .f32) (addf (F := Ideal) (φ := .f32) (Host.dotGeneral (F := Ideal) (φ₁ := .f32) (φ₂ := .f32) dot_S50000x96_S96x96_S50000x96_1_0_0_1_n_n none y W) (bcRow b)) (fillNF 0x00000000#32)

/-- The broadcast vector reads, at node `n` and feature `j`, the vector's entry `j`: the row axis has extent
    one in the middle shape, so the node coordinate is dropped. -/
theorem bcRow_apply (v : (⟨S96, .f32⟩ : BufTy).Contents (Elt Ideal)) (n : Fin 50000) (j : Fin 96) : bcRow v (ix2 n j) = v (ix1 j) := by
  refine (broadcastInDim_apply _ Gen.bcast_S1x96_S50000x96_0_1 (broadcastInDim S1x96 ![1] Gen.bcast_S96_S1x96_1 v) (ix2 n j)
    (ix2 (⟨0, Nat.one_pos⟩ : Fin 1) j) (fun a => match a with
      | ⟨0, _⟩ => by show 0 = if (1 : Nat) = 1 then 0 else n.val; rw [if_pos rfl]
      | ⟨1, _⟩ => by show j.val = if (96 : Nat) = 1 then 0 else j.val; rw [if_neg (by decide)])).trans ?_
  exact broadcastInDim_apply _ Gen.bcast_S96_S1x96_1 v (ix2 (⟨0, Nat.one_pos⟩ : Fin 1) j) (ix1 j) (fun a => match a with
    | ⟨0, _⟩ => by show j.val = if (96 : Nat) = 1 then 0 else j.val; rw [if_neg (by decide)])

/-- A broadcast float word reads that word at every node and feature. -/
theorem fillNF_apply (w : BitVec 32) (i : S50000x96.Idx) : fillNF w i = Ideal.ofBits .f32 w :=
  broadcastInDim_apply _ Gen.bcast_S_S50000x96 (constant (F := Ideal) S_ .f32 w) i ix0 (fun a => a.elim0)

/-- A broadcast float word reads that word at every feature. -/
theorem fillF_apply (w : BitVec 32) (i : S96.Idx) : fillF w i = Ideal.ofBits .f32 w :=
  broadcastInDim_apply _ Gen.bcast_S_S96 (constant (F := Ideal) S_ .f32 w) i ix0 (fun a => a.elim0)

/-- The host's reciprocal square root is the extended reals' one, entry by entry. -/
theorem hostRsqrt_apply (v : (⟨S96, .f32⟩ : BufTy).Contents (Elt Ideal)) (i : S96.Idx) : Host.rsqrt (F := Ideal) (φ := .f32) v i = Ideal.rsqrt (v i) := rfl

/-- The product of the node-feature array with a 96×96 matrix, at node `n` and feature `j`, is the sum over the
    96 input features `k` of the node's entry `k` times the matrix's entry `(k, j)`: the host's `dot_general`
    contracts the one axis, and its contraction index is re-indexed by that axis's coordinate. -/
theorem dot_apply (y0 : (⟨S50000x96, .f32⟩ : BufTy).Contents (Elt Ideal)) (y1 : (⟨S96x96, .f32⟩ : BufTy).Contents (Elt Ideal)) (n : Fin 50000) (j : Fin 96) :
    Host.dotGeneral (F := Ideal) (φ₁ := .f32) (φ₂ := .f32) dot_S50000x96_S96x96_S50000x96_1_0_0_1_n_n none y0 y1 (ix2 n j) = ∑ k : Fin 96, y0 (ix2 n k) * y1 (ix2 k j) := by
  simp only [Host.dotGeneral]
  rw [Ideal.dotGeneral_apply, ← Equiv.sum_comp (ValueIdx.contrEquiv1 dot_S50000x96_S96x96_S50000x96_1_0_0_1_n_n 96 rfl rfl).symm]
  refine Finset.sum_congr rfl fun k _ => ?_
  have hk := ValueIdx.contrEquiv1_symm_val dot_S50000x96_S96x96_S50000x96_1_0_0_1_n_n 96 rfl rfl k
  have el : dot_S50000x96_S96x96_S50000x96_1_0_0_1_n_n.lhsIdx (ix2 n j) ((ValueIdx.contrEquiv1 dot_S50000x96_S96x96_S50000x96_1_0_0_1_n_n 96 rfl rfl).symm k) = ix2 n k := funext fun a => Fin.ext (by
    match a with
    | ⟨0, _⟩ => exact lhs_main_v24_0 _ _
    | ⟨1, _⟩ => exact (lhs_main_v24_1 _ _).trans hk)
  have er : dot_S50000x96_S96x96_S50000x96_1_0_0_1_n_n.rhsIdx (ix2 n j) ((ValueIdx.contrEquiv1 dot_S50000x96_S96x96_S50000x96_1_0_0_1_n_n 96 rfl rfl).symm k) = ix2 k j := funext fun a => Fin.ext (by
    match a with
    | ⟨0, _⟩ => exact (rhs_main_v24_0 _ _).trans hk
    | ⟨1, _⟩ => exact rhs_main_v24_1 _ _)
  rw [el, er]

/-- One dense layer at node `n` and output feature `k` is `denseRelu` of the node's row. -/
theorem denseNF_apply (y : (⟨S50000x96, .f32⟩ : BufTy).Contents (Elt Ideal)) (W : (⟨S96x96, .f32⟩ : BufTy).Contents (Elt Ideal)) (b : (⟨S96, .f32⟩ : BufTy).Contents (Elt Ideal)) (n : Fin 50000) (k : Fin 96) :
    denseNF y W b (ix2 n k) = denseRelu (rowOf y n) (matOf W) (vecOf b) k := by
  show max ((Host.dotGeneral (F := Ideal) (φ₁ := .f32) (φ₂ := .f32) dot_S50000x96_S96x96_S50000x96_1_0_0_1_n_n none y W) (ix2 n k) + bcRow b (ix2 n k)) (fillNF 0x00000000#32 (ix2 n k)) = _
  rw [dot_apply, bcRow_apply, fillNF_apply]
  rfl

/-- **One GIN layer of the reference, read at an index.** With arbitrary arrays for the input stage `xin`, the
    neighbour-sum stage `sagg` and the layer's parameters, the stage the layer's operations build — the two
    dense layers of `xin + sagg`, minus the running mean, times the scale, times the reciprocal square root
    of the running variance plus ε, plus the shift — reads at node `i 0` and feature `i 1` as `ginRow` of
    the node's rows of `xin` and `sagg`. -/
theorem gin_stage (xin sagg : (⟨S50000x96, .f32⟩ : BufTy).Contents (Elt Ideal)) (W1 : (⟨S96x96, .f32⟩ : BufTy).Contents (Elt Ideal)) (b1 : (⟨S96, .f32⟩ : BufTy).Contents (Elt Ideal)) (W2 : (⟨S96x96, .f32⟩ : BufTy).Contents (Elt Ideal)) (b2 g be mu var : (⟨S96, .f32⟩ : BufTy).Contents (Elt Ideal)) (i : S50000x96.Idx) :
    addf (F := Ideal) (φ := .f32)
        (mulf (F := Ideal) (φ := .f32)
          (mulf (F := Ideal) (φ := .f32) (bcRow g) (subf (F := Ideal) (φ := .f32) (denseNF (denseNF (addf (F := Ideal) (φ := .f32) xin sagg) W1 b1) W2 b2) (bcRow mu)))
          (bcRow (Host.rsqrt (F := Ideal) (φ := .f32) (addf (F := Ideal) (φ := .f32) var (fillF 0x3727C5AC#32)))))
        (bcRow be) i
      = ginRow (rowOf xin (i 0)) (rowOf sagg (i 0)) (matOf W1) (vecOf b1) (matOf W2) (vecOf b2)
          (vecOf g) (vecOf be) (vecOf mu) (vecOf var) (i 1) := by
  obtain ⟨n, j, rfl⟩ : ∃ (n : Fin 50000) (j : Fin 96), i = ix2 n j := ⟨i 0, i 1, eq_ix2 i⟩
  show bcRow g (ix2 n j) * (denseNF (denseNF (addf (F := Ideal) (φ := .f32) xin sagg) W1 b1) W2 b2 (ix2 n j) - bcRow mu (ix2 n j))
        * bcRow (Host.rsqrt (F := Ideal) (φ := .f32) (addf (F := Ideal) (φ := .f32) var (fillF 0x3727C5AC#32))) (ix2 n j) + bcRow be (ix2 n j)
      = ginRow (rowOf xin n) (rowOf sagg n) (matOf W1) (vecOf b1) (matOf W2) (vecOf b2)
          (vecOf g) (vecOf be) (vecOf mu) (vecOf var) j
  rw [bcRow_apply, bcRow_apply, bcRow_apply, bcRow_apply, denseNF_apply, hostRsqrt_apply]
  show _ * _ * Ideal.rsqrt (var (ix1 j) + fillF 0x3727C5AC#32 (ix1 j)) + _ = _
  rw [fillF_apply]
  unfold ginRow
  refine congrArg (fun t => g (ix1 j) * (t - mu (ix1 j)) * Ideal.rsqrt (var (ix1 j) + Ideal.ofBits .f32 0x3727C5AC#32) + be (ix1 j)) ?_
  unfold denseRelu
  refine congrArg (fun t => max (t + b2 (ix1 j)) zeroW) (Finset.sum_congr rfl fun k _ => ?_)
  refine congrArg (· * W2 (ix2 k j)) ?_
  exact denseNF_apply (addf (F := Ideal) (φ := .f32) xin sagg) W1 b1 n k

variable (x0 : (⟨S50000, .i32⟩ : BufTy).Contents (Elt Ideal)) (x1 : (⟨S2x800000, .i32⟩ : BufTy).Contents (Elt Ideal))
  (x2 : (⟨S120x96, .f32⟩ : BufTy).Contents (Elt Ideal)) (x3 : (⟨S3x96x96, .f32⟩ : BufTy).Contents (Elt Ideal))
  (x4 : (⟨S3x96, .f32⟩ : BufTy).Contents (Elt Ideal)) (x5 : (⟨S3x96x96, .f32⟩ : BufTy).Contents (Elt Ideal))
  (x6 x7 x8 x9 x10 : (⟨S3x96, .f32⟩ : BufTy).Contents (Elt Ideal))

/-- The first layer's output stage is `ginRow` of the embedded features and their neighbour sum. -/
theorem layer0_ref (i : S50000x96.Idx) :
    val_main_v62 (F := Ideal) x0 x1 x2 x3 x4 x5 x6 x7 x8 x9 x10 i
      = ginRow (rowOf (val_main_v10 (F := Ideal) x0 x2) (i 0)) (rowOf (val_main_v20 (F := Ideal) x0 x1 x2) (i 0))
          (matOf (val_main_v23 (F := Ideal) x3)) (vecOf (val_main_v26 (F := Ideal) x4))
          (matOf (val_main_v32 (F := Ideal) x5)) (vecOf (val_main_v35 (F := Ideal) x6))
          (vecOf (val_main_v41 (F := Ideal) x7)) (vecOf (val_main_v59 (F := Ideal) x8))
          (vecOf (val_main_v43 (F := Ideal) x9)) (vecOf (val_main_v51 (F := Ideal) x10)) (i 1) := by
  unfold val_main_v62 val_main_v61 val_main_v60 val_main_v57 val_main_v56 val_main_v55 val_main_v54 val_main_v53 val_main_v52 val_main_cst_3
    val_main_v49 val_main_v48 val_main_v47 val_main_v46 val_main_v45 val_main_v44 val_main_v39 val_main_call1_v0 val_main_call1_cst
    val_main_v38 val_main_v37 val_main_v36 val_main_v33 val_main_v30 val_main_call0_v0 val_main_call0_cst
    val_main_v29 val_main_v28 val_main_v27 val_main_v24 val_main_v21
  exact gin_stage (val_main_v10 (F := Ideal) x0 x2) (val_main_v20 (F := Ideal) x0 x1 x2)
    (val_main_v23 (F := Ideal) x3) (val_main_v26 (F := Ideal) x4) (val_main_v32 (F := Ideal) x5) (val_main_v35 (F := Ideal) x6)
    (val_main_v41 (F := Ideal) x7) (val_main_v59 (F := Ideal) x8) (val_main_v43 (F := Ideal) x9) (val_main_v51 (F := Ideal) x10) i

/-- The second layer's output stage is `ginRow` of the first layer's output and its neighbour sum. -/
theorem layer1_ref (i : S50000x96.Idx) :
    val_main_v114 (F := Ideal) x0 x1 x2 x3 x4 x5 x6 x7 x8 x9 x10 i
      = ginRow (rowOf (val_main_v62 (F := Ideal) x0 x1 x2 x3 x4 x5 x6 x7 x8 x9 x10) (i 0)) (rowOf (val_main_v72 (F := Ideal) x0 x1 x2 x3 x4 x5 x6 x7 x8 x9 x10) (i 0))
          (matOf (val_main_v75 (F := Ideal) x3)) (vecOf (val_main_v78 (F := Ideal) x4))
          (matOf (val_main_v84 (F := Ideal) x5)) (vecOf (val_main_v87 (F := Ideal) x6))
          (vecOf (val_main_v93 (F := Ideal) x7)) (vecOf (val_main_v111 (F := Ideal) x8))
          (vecOf (val_main_v95 (F := Ideal) x9)) (vecOf (val_main_v103 (F := Ideal) x10)) (i 1) := by
  unfold val_main_v114 val_main_v113 val_main_v112 val_main_v109 val_main_v108 val_main_v107 val_main_v106 val_main_v105 val_main_v104 val_main_cst_7
    val_main_v101 val_main_v100 val_main_v99 val_main_v98 val_main_v97 val_main_v96 val_main_v91 val_main_call3_v0 val_main_call3_cst
    val_main_v90 val_main_v89 val_main_v88 val_main_v85 val_main_v82 val_main_call2_v0 val_main_call2_cst
    val_main_v81 val_main_v80 val_main_v79 val_main_v76 val_main_v73
  exact gin_stage (val_main_v62 (F := Ideal) x0 x1 x2 x3 x4 x5 x6 x7 x8 x9 x10) (val_main_v72 (F := Ideal) x0 x1 x2 x3 x4 x5 x6 x7 x8 x9 x10)
    (val_main_v75 (F := Ideal) x3) (val_main_v78 (F := Ideal) x4) (val_main_v84 (F := Ideal) x5) (val_main_v87 (F := Ideal) x6)
    (val_main_v93 (F := Ideal) x7) (val_main_v111 (F := Ideal) x8) (val_main_v95 (F := Ideal) x9) (val_main_v103 (F := Ideal) x10) i

/-- The third layer's output stage is `ginRow` of the second layer's output and its neighbour sum. -/
theorem layer2_ref (i : S50000x96.Idx) :
    val_main_v166 (F := Ideal) x0 x1 x2 x3 x4 x5 x6 x7 x8 x9 x10 i
      = ginRow (rowOf (val_main_v114 (F := Ideal) x0 x1 x2 x3 x4 x5 x6 x7 x8 x9 x10) (i 0)) (rowOf (val_main_v124 (F := Ideal) x0 x1 x2 x3 x4 x5 x6 x7 x8 x9 x10) (i 0))
          (matOf (val_main_v127 (F := Ideal) x3)) (vecOf (val_main_v130 (F := Ideal) x4))
          (matOf (val_main_v136 (F := Ideal) x5)) (vecOf (val_main_v139 (F := Ideal) x6))
          (vecOf (val_main_v145 (F := Ideal) x7)) (vecOf (val_main_v163 (F := Ideal) x8))
          (vecOf (val_main_v147 (F := Ideal) x9)) (vecOf (val_main_v155 (F := Ideal) x10)) (i 1) := by
  unfold val_main_v166 val_main_v165 val_main_v164 val_main_v161 val_main_v160 val_main_v159 val_main_v158 val_main_v157 val_main_v156 val_main_cst_11
    val_main_v153 val_main_v152 val_main_v151 val_main_v150 val_main_v149 val_main_v148 val_main_v143 val_main_call5_v0 val_main_call5_cst
    val_main_v142 val_main_v141 val_main_v140 val_main_v137 val_main_v134 val_main_call4_v0 val_main_call4_cst
    val_main_v133 val_main_v132 val_main_v131 val_main_v128 val_main_v125
  exact gin_stage (val_main_v114 (F := Ideal) x0 x1 x2 x3 x4 x5 x6 x7 x8 x9 x10) (val_main_v124 (F := Ideal) x0 x1 x2 x3 x4 x5 x6 x7 x8 x9 x10)
    (val_main_v127 (F := Ideal) x3) (val_main_v130 (F := Ideal) x4) (val_main_v136 (F := Ideal) x5) (val_main_v139 (F := Ideal) x6)
    (val_main_v145 (F := Ideal) x7) (val_main_v163 (F := Ideal) x8) (val_main_v147 (F := Ideal) x9) (val_main_v155 (F := Ideal) x10) i

end Cert.ReferenceIdeal.RefLayers

end
-- ==== Proof.RefHead.lean ====
/-
  The reference's read-out read at an index. The result at node `n`, class `o`, is `headRowCat` of row
  `n` of the concatenated 50000×288 stage; and that row's three consecutive blocks of 96 are row `n`
  of the three layers' output stages (a concatenate along the feature axis takes each element from
  the operand its feature coordinate falls in).
-/
import proofs.«414043_j79035988181207_3_alg».proof.Proof.Gen.ReferenceIdeal.Read
import proofs.«414043_j79035988181207_3_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefHead

open Cert.ReferenceIdeal Cert.ReferenceIdeal.Read Cert.GinSpec Idealize.ShloMosaic Idealize.ShloMosaic.TcCoe Idealize.ShloMosaic.ValueIdx

variable (x0 : (⟨S50000, .i32⟩ : BufTy).Contents (Elt Ideal)) (x1 : (⟨S2x800000, .i32⟩ : BufTy).Contents (Elt Ideal))
  (x2 : (⟨S120x96, .f32⟩ : BufTy).Contents (Elt Ideal)) (x3 : (⟨S3x96x96, .f32⟩ : BufTy).Contents (Elt Ideal))
  (x4 : (⟨S3x96, .f32⟩ : BufTy).Contents (Elt Ideal)) (x5 : (⟨S3x96x96, .f32⟩ : BufTy).Contents (Elt Ideal))
  (x6 x7 x8 x9 x10 : (⟨S3x96, .f32⟩ : BufTy).Contents (Elt Ideal))
  (x11 : (⟨S288x96, .f32⟩ : BufTy).Contents (Elt Ideal)) (x12 : (⟨S96, .f32⟩ : BufTy).Contents (Elt Ideal))
  (x13 : (⟨S96x2, .f32⟩ : BufTy).Contents (Elt Ideal)) (x14 : (⟨S2, .f32⟩ : BufTy).Contents (Elt Ideal))

/-! ### A three-piece concatenation along the feature axis, read at an index

The joined axis has extents 96 + 96 + 96 = 288: a feature coordinate `q` below 96 falls in the first piece at `q`,
one in `[96, 192)` in the second at `q - 96`, one in `[192, 288)` in the third at `q - 192`; the node coordinate
is kept. Stated over arbitrary pieces. -/

/-- Feature `q = k < 96` of the concatenation is feature `k` of the first piece. -/
theorem concat3_fst {α : Type} (a b c : S50000x96.Idx → α)
    (h : Shape.Concatenates [S50000x96, S50000x96, S50000x96] S50000x288 1) (n : Fin 50000) (k : Fin 96) (q : Fin 288)
    (hq : q.val = k.val) :
    concatenate S50000x288 1 [⟨S50000x96, a⟩, ⟨S50000x96, b⟩, ⟨S50000x96, c⟩] h (ix2 n q) = a (ix2 n k) := by
  refine concatenate_apply_piece (1 : Fin S50000x288.rank) [⟨S50000x96, a⟩, ⟨S50000x96, b⟩, ⟨S50000x96, c⟩] h (ix2 n q) 0
    (by show 0 < 3; omega) S50000x96 a rfl rfl 0 rfl (ix2 n k) ?_ ?_
  · intro d hd
    match d with
    | ⟨0, _⟩ => rfl
    | ⟨1, _⟩ => exact absurd rfl hd
  · show 0 + k.val = q.val
    omega

/-- Feature `q = 96 + k` of the concatenation is feature `k` of the second piece. -/
theorem concat3_snd {α : Type} (a b c : S50000x96.Idx → α)
    (h : Shape.Concatenates [S50000x96, S50000x96, S50000x96] S50000x288 1) (n : Fin 50000) (k : Fin 96) (q : Fin 288)
    (hq : q.val = 96 + k.val) :
    concatenate S50000x288 1 [⟨S50000x96, a⟩, ⟨S50000x96, b⟩, ⟨S50000x96, c⟩] h (ix2 n q) = b (ix2 n k) := by
  refine concatenate_apply_piece (1 : Fin S50000x288.rank) [⟨S50000x96, a⟩, ⟨S50000x96, b⟩, ⟨S50000x96, c⟩] h (ix2 n q) 1
    (by show 1 < 3; omega) S50000x96 b rfl rfl 96 rfl (ix2 n k) ?_ ?_
  · intro d hd
    match d with
    | ⟨0, _⟩ => rfl
    | ⟨1, _⟩ => exact absurd rfl hd
  · show 96 + k.val = q.val
    omega

/-- Feature `q = 192 + k` of the concatenation is feature `k` of the third piece. -/
theorem concat3_thd {α : Type} (a b c : S50000x96.Idx → α)
    (h : Shape.Concatenates [S50000x96, S50000x96, S50000x96] S50000x288 1) (n : Fin 50000) (k : Fin 96) (q : Fin 288)
    (hq : q.val = 192 + k.val) :
    concatenate S50000x288 1 [⟨S50000x96, a⟩, ⟨S50000x96, b⟩, ⟨S50000x96, c⟩] h (ix2 n q) = c (ix2 n k) := by
  refine concatenate_apply_piece (1 : Fin S50000x288.rank) [⟨S50000x96, a⟩, ⟨S50000x96, b⟩, ⟨S50000x96, c⟩] h (ix2 n q) 2
    (by show 2 < 3; omega) S50000x96 c rfl rfl 192 rfl (ix2 n k) ?_ ?_
  · intro d hd
    match d with
    | ⟨0, _⟩ => rfl
    | ⟨1, _⟩ => exact absurd rfl hd
  · show 192 + k.val = q.val
    omega

/-! ### Where each operation of the read-out reads its operands

A matrix product's element `(n, j)` reads row `n` of the left factor and column `j` of the right one at the summation
index; a bias broadcast over the nodes reads the bias at the feature coordinate alone. -/

theorem lidx168 (n : Fin 50000) (j : Fin 96) (q : Fin 288) : lidx_main_v168 (ix2 n j) q = ix2 n q :=
  funext fun a => Fin.ext (by match a with | ⟨0, _⟩ => rfl | ⟨1, _⟩ => rfl)
theorem ridx168 (n : Fin 50000) (j : Fin 96) (q : Fin 288) : ridx_main_v168 (ix2 n j) q = ix2 q j :=
  funext fun a => Fin.ext (by match a with | ⟨0, _⟩ => rfl | ⟨1, _⟩ => rfl)
theorem bias1_idx (n : Fin 50000) (j : Fin 96) : idx_main_v169 (idx_main_v170 (ix2 n j)) = ix1 j :=
  funext fun a => Fin.ext (by match a with | ⟨0, _⟩ => rfl)
theorem lidx173 (n : Fin 50000) (o : Fin 2) (j : Fin 96) : lidx_main_v173 (ix2 n o) j = ix2 n j :=
  funext fun a => Fin.ext (by match a with | ⟨0, _⟩ => rfl | ⟨1, _⟩ => rfl)
theorem ridx173 (n : Fin 50000) (o : Fin 2) (j : Fin 96) : ridx_main_v173 (ix2 n o) j = ix2 j o :=
  funext fun a => Fin.ext (by match a with | ⟨0, _⟩ => rfl | ⟨1, _⟩ => rfl)
theorem bias2_idx (n : Fin 50000) (o : Fin 2) : idx_main_v174 (idx_main_v175 (ix2 n o)) = ix1 o :=
  funext fun a => Fin.ext (by match a with | ⟨0, _⟩ => rfl)

/-- The hidden layer of the read-out at node `n`, feature `j`: `relu (z·L + d₁)` with `z` row `n` of the concatenated
    stage, the sum over its 288 features. -/
theorem hidden_at (n : Fin 50000) (j : Fin 96) :
    val_main_v172 (F := Ideal) x0 x1 x2 x3 x4 x5 x6 x7 x8 x9 x10 x11 x12 (ix2 n j)
      = max ((∑ q : Fin 288, val_main_v167 (F := Ideal) x0 x1 x2 x3 x4 x5 x6 x7 x8 x9 x10 (ix2 n q) * x11 (ix2 q j)) + x12 (ix1 j)) zeroW := by
  rw [val_main_v172_apply, val_main_v171_apply, val_main_v168_apply, val_main_v170_apply, val_main_v169_apply,
    val_main_call6_v0_apply, val_main_call6_cst_apply]
  simp only [lidx168, ridx168, bias1_idx, Ideal.addf_def, Ideal.maximumf_def, Ideal.ofBits_def]

/-- The result at node `n`, class `o`: the hidden layer's row against the second read-out matrix, plus its bias. -/
theorem out_at (n : Fin 50000) (o : Fin 2) :
    val_main_v176 (F := Ideal) x0 x1 x2 x3 x4 x5 x6 x7 x8 x9 x10 x11 x12 x13 x14 (ix2 n o)
      = (∑ j : Fin 96, val_main_v172 (F := Ideal) x0 x1 x2 x3 x4 x5 x6 x7 x8 x9 x10 x11 x12 (ix2 n j) * x13 (ix2 j o)) + x14 (ix1 o) := by
  rw [val_main_v176_apply, val_main_v173_apply, val_main_v175_apply, val_main_v174_apply]
  simp only [lidx173, ridx173, bias2_idx, Ideal.addf_def]

/-- The result stage is the read-out of the concatenated row against the whole first read-out matrix. -/
theorem head_ref (i : S50000x2.Idx) :
    val_main_v176 (F := Ideal) x0 x1 x2 x3 x4 x5 x6 x7 x8 x9 x10 x11 x12 x13 x14 i
      = headRowCat (rowOf (val_main_v167 (F := Ideal) x0 x1 x2 x3 x4 x5 x6 x7 x8 x9 x10) (i 0)) (matOf x11) (vecOf x12) (matOf x13) (vecOf x14) (i 1) := by
  obtain ⟨n, o, rfl⟩ : ∃ (n : Fin 50000) (o : Fin 2), i = ix2 n o := ⟨i 0, i 1, eq_ix2 i⟩
  rw [out_at]
  simp only [hidden_at]
  rfl

/-- Features 0–95 of the concatenated row are the first layer's row. -/
theorem concat_blk0 (n : Fin 50000) (k : Fin 96) :
    val_main_v167 (F := Ideal) x0 x1 x2 x3 x4 x5 x6 x7 x8 x9 x10 (ix2 n (blk0 k)) = val_main_v62 (F := Ideal) x0 x1 x2 x3 x4 x5 x6 x7 x8 x9 x10 (ix2 n k) := by
  unfold val_main_v167
  generalize val_main_v62 (F := Ideal) x0 x1 x2 x3 x4 x5 x6 x7 x8 x9 x10 = a
  generalize val_main_v114 (F := Ideal) x0 x1 x2 x3 x4 x5 x6 x7 x8 x9 x10 = b
  generalize val_main_v166 (F := Ideal) x0 x1 x2 x3 x4 x5 x6 x7 x8 x9 x10 = c
  exact concat3_fst a b c _ n k (blk0 k) rfl
/-- Features 96–191 are the second layer's row. -/
theorem concat_blk1 (n : Fin 50000) (k : Fin 96) :
    val_main_v167 (F := Ideal) x0 x1 x2 x3 x4 x5 x6 x7 x8 x9 x10 (ix2 n (blk1 k)) = val_main_v114 (F := Ideal) x0 x1 x2 x3 x4 x5 x6 x7 x8 x9 x10 (ix2 n k) := by
  unfold val_main_v167
  generalize val_main_v62 (F := Ideal) x0 x1 x2 x3 x4 x5 x6 x7 x8 x9 x10 = a
  generalize val_main_v114 (F := Ideal) x0 x1 x2 x3 x4 x5 x6 x7 x8 x9 x10 = b
  generalize val_main_v166 (F := Ideal) x0 x1 x2 x3 x4 x5 x6 x7 x8 x9 x10 = c
  exact concat3_snd a b c _ n k (blk1 k) rfl
/-- Features 192–287 are the third layer's row. -/
theorem concat_blk2 (n : Fin 50000) (k : Fin 96) :
    val_main_v167 (F := Ideal) x0 x1 x2 x3 x4 x5 x6 x7 x8 x9 x10 (ix2 n (blk2 k)) = val_main_v166 (F := Ideal) x0 x1 x2 x3 x4 x5 x6 x7 x8 x9 x10 (ix2 n k) := by
  unfold val_main_v167
  generalize val_main_v62 (F := Ideal) x0 x1 x2 x3 x4 x5 x6 x7 x8 x9 x10 = a
  generalize val_main_v114 (F := Ideal) x0 x1 x2 x3 x4 x5 x6 x7 x8 x9 x10 = b
  generalize val_main_v166 (F := Ideal) x0 x1 x2 x3 x4 x5 x6 x7 x8 x9 x10 = c
  exact concat3_thd a b c _ n k (blk2 k) rfl

end Cert.ReferenceIdeal.RefHead

end
-- ==== Proof.KLayerBody.lean ====
/-
  What one grid point of a GIN-layer kernel leaves in its output block, entry by entry: row `r` of the
  block depends only on row `r` of the two 5000×96 input blocks (the node's features and its
  neighbour sum) and on the whole parameter blocks, and is the layer's row function `ginRow` of them.
  The two matrix products are sums over the 96 input features; the bf16 casts are the identity on the
  extended reals.
-/
import proofs.«414043_j79035988181207_3_alg».proof.Proof.Gen.KernelIdeal.Frame
import proofs.«414043_j79035988181207_3_alg».proof.Proof.GinSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerBody

open Cert.KernelIdeal Cert.KernelIdeal.Gen Cert.GinSpec Idealize.ShloMosaic Idealize.ShloMosaic.TcCoe Idealize.ShloMosaic.ValueIdx Idealize.SL.Sem
open Idealize.ShloMosaic.Pipeline (Dat)

/-- The whole-buffer rectangles sit at the zero offsets. -/
theorem off_zero : (![0, 0] : Fin 2 → Nat) = fun _ => 0 := by
  funext a; match a with | ⟨0, _⟩ => rfl | ⟨1, _⟩ => rfl

/-! ## The 5000×96 by 96×96 product, one entry at a time

The product contracts the left operand's axis 1 with the right operand's axis 0. At output entry `(r, k)`
and contraction position `q` the left operand is read at `(r, q)` and the right one at `(q, k)`: one
equation per operand axis. -/

theorem lhs_axis0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide),
    dif_pos (show (0 : Fin S5000x96.rank) ∈ dot_S5000x96_S96x96_S5000x96_1_0_0_1_n_n.lhsNonContracting by decide)]
  rfl
theorem lhs_axis1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_axis0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_axis1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide),
    dif_pos (show (1 : Fin S96x96.rank) ∈ dot_S5000x96_S96x96_S5000x96_1_0_0_1_n_n.rhsNonContracting by decide)]
  rfl

/-- The product accumulated into zero, at entry `(r, k)`: the sum over the 96 shared features `l` of
    `a (r, l) * w (l, k)`. The contraction positions are the values of `l` (a bijection), and the sum is
    carried across it. -/
theorem matmul_row (a : FVec Ideal S5000x96 .bf16) (w : FVec Ideal S96x96 .bf16) (r : Fin 5000) (k : Fin 96) :
    matmul dot_S5000x96_S96x96_S5000x96_1_0_0_1_n_n none a w (constant (F := Ideal) S5000x96 .f32 0x00000000#32) (ix2 r k)
      = ∑ l : Fin 96, a (ix2 r l) * w (ix2 l k) := by
  refine (Ideal.matmul_constant_zero_apply dot_S5000x96_S96x96_S5000x96_1_0_0_1_n_n none a w (ix2 r k)).trans ?_
  rw [← Equiv.sum_comp (contrEquiv1 dot_S5000x96_S96x96_S5000x96_1_0_0_1_n_n 96 rfl rfl).symm]
  refine Finset.sum_congr rfl fun l _ => ?_
  have hl := contrEquiv1_symm_val dot_S5000x96_S96x96_S5000x96_1_0_0_1_n_n 96 rfl rfl l
  have el : dot_S5000x96_S96x96_S5000x96_1_0_0_1_n_n.lhsIdx (ix2 r k)
      ((contrEquiv1 dot_S5000x96_S96x96_S5000x96_1_0_0_1_n_n 96 rfl rfl).symm l) = ix2 r l :=
    funext fun a => Fin.ext (by
      match a with
      | ⟨0, _⟩ => exact lhs_axis0 _ _
      | ⟨1, _⟩ => exact (lhs_axis1 _ _).trans hl)
  have er : dot_S5000x96_S96x96_S5000x96_1_0_0_1_n_n.rhsIdx (ix2 r k)
      ((contrEquiv1 dot_S5000x96_S96x96_S5000x96_1_0_0_1_n_n 96 rfl rfl).symm l) = ix2 l k :=
    funext fun a => Fin.ext (by
      match a with
      | ⟨0, _⟩ => exact (rhs_axis0 _ _).trans hl
      | ⟨1, _⟩ => exact rhs_axis1 _ _)
  rw [el, er]

/-! ## The pieces of the layer, one entry at a time -/

/-- One dense layer with `relu` as the body writes it — both operands narrowed to bf16 (the identity on
    the extended reals), multiplied into zero, the 1×96 bias row repeated down the 5000 rows, the maximum
    with the zero word — is `denseRelu` of row `r` of the input, at entry `(r, k)`. -/
theorem dense_row (a : FVec Ideal S5000x96 .f32) (w : FVec Ideal S96x96 .f32) (b : FVec Ideal S1x96 .f32)
    (ht : FTy.bits .bf16 < FTy.bits .f32) (hb : S1x96.Broadcasts S5000x96) (r : Fin 5000) (k : Fin 96) :
    maximumf (addf (matmul dot_S5000x96_S96x96_S5000x96_1_0_0_1_n_n none (truncf .bf16 a ht) (truncf .bf16 w ht)
        (constant (F := Ideal) S5000x96 .f32 0x00000000#32)) (broadcastTo S5000x96 b hb))
        (broadcast S5000x96 (Scalar.ofBits (F := Ideal) .f32 0x00000000#32)) (ix2 r k)
      = denseRelu (fun l => a (ix2 r l)) (matOf w) (rowOf b 0) k := by
  show max (matmul dot_S5000x96_S96x96_S5000x96_1_0_0_1_n_n none (truncf .bf16 a ht) (truncf .bf16 w ht)
        (constant (F := Ideal) S5000x96 .f32 0x00000000#32) (ix2 r k) + broadcastTo S5000x96 b hb (ix2 r k))
      (Ideal.ofBits .f32 0x00000000#32) = _
  rw [matmul_row, broadcastTo_1b_ab_apply]
  rfl

/-- The two-layer perceptron of `x + s`: the second dense layer reads row `r` of the first one's result,
    which is the first dense layer of row `r` of `x + s`. The same-shape casts are the identity. -/
theorem mlp_row (v0 v2 : Vec Ideal S5000x96 .f32) (v6 : Vec Ideal S96x96 .f32) (v10 : Vec Ideal S1x96 .f32)
    (v16 : Vec Ideal S96x96 .f32) (v21 : Vec Ideal S1x96 .f32) (r : Fin 5000) (j : Fin 96) :
    k0_pay2 v0 v2 v6 v10 v16 v21 (ix2 r j)
      = denseRelu (denseRelu (fun l => v0 (ix2 r l) + v2 (ix2 r l)) (matOf v6) (rowOf v10 0)) (matOf v16) (rowOf v21 0) j := by
  unfold k0_pay2
  simp only [shapeCast_self]
  refine (dense_row _ v16 v21 _ _ r j).trans ?_
  refine congrArg (fun a => denseRelu a (matOf v16) (rowOf v21 0) j) (funext fun l => ?_)
  exact dense_row (addf v0 v2) v6 v10 _ _ r l

/-- The batch norm's factor `rsqrt (σ² + ε)`, entry by entry of the 1×96 row. -/
theorem inv_row (v27 : Vec Ideal S1x96 .f32) (j : Fin 96) :
    k0_pay3 v27 (ix2 (0 : Fin 1) j) = Ideal.rsqrt (v27 (ix2 (0 : Fin 1) j) + epsW) := by
  unfold k0_pay3
  simp only [shapeCast_self]
  rfl

/-- The scale row and the mean row pass through a same-shape cast: unchanged. -/
theorem pay4_id (v : Vec Ideal S1x96 .f32) : k0_pay4 v = v := by
  unfold k0_pay4
  exact shapeCast_self _ _
theorem pay5_id (v : Vec Ideal S1x96 .f32) : k0_pay5 v = v := by
  unfold k0_pay5
  exact shapeCast_self _ _

/-- The normalisation `γ · (h − μ) · inv + β` at entry `(r, j)`: each 1×96 row is repeated down the 5000
    rows, so it is read at `(0, j)`. -/
theorem norm_row (h : FVec Ideal S5000x96 .f32) (inv g mu : FVec Ideal S1x96 .f32) (beta : Vec Ideal S1x96 .f32)
    (r : Fin 5000) (j : Fin 96) :
    k0_pay1 h inv g mu beta (ix2 r j)
      = g (ix2 (0 : Fin 1) j) * (h (ix2 r j) - mu (ix2 (0 : Fin 1) j)) * inv (ix2 (0 : Fin 1) j) + beta (ix2 (0 : Fin 1) j) := by
  unfold k0_pay1
  simp only [shapeCast_self]
  show broadcastTo S5000x96 g _ (ix2 r j) * (h (ix2 r j) - broadcastTo S5000x96 mu _ (ix2 r j))
      * broadcastTo S5000x96 inv _ (ix2 r j) + broadcastTo S5000x96 beta _ (ix2 r j) = _
  simp only [broadcastTo_1b_ab_apply]

/-- Region 0 (first GIN layer): the body's result at row `r`, feature `j`. -/
theorem layer0_body (x0 x1 : Vec Ideal S5000x96 .f32) (x2 : Vec Ideal S96x96 .f32) (x3 : Vec Ideal S1x96 .f32)
    (x4 : Vec Ideal S96x96 .f32) (x5 x6 x7 x8 x9 : Vec Ideal S1x96 .f32) (r : Fin 5000) (j : Fin 96) :
    out0_10 x0 x1 x2 x3 x4 x5 x6 x7 x8 x9 (ix2 r j)
      = ginRow (rowOf x0 r) (rowOf x1 r) (matOf x2) (rowOf x3 0) (matOf x4) (rowOf x5 0)
          (rowOf x6 0) (rowOf x7 0) (rowOf x8 0) (rowOf x9 0) j := by
  -- the body loads every block whole and stores its one result whole: what it leaves is the stored value
  unfold out0_10
  rw [View.canon_unit_zero off_zero]
  simp only [View.ld_unit_zero (S := S5000x96) off_zero, View.ld_unit_zero (S := S96x96) off_zero,
    View.ld_unit_zero (S := S1x96) off_zero]
  -- the normalisation of the perceptron's row, with the scale, mean and variance rows read at (0, j)
  refine (norm_row _ _ _ _ _ r j).trans ?_
  rw [mlp_row, inv_row, pay4_id, pay5_id]
  rfl

/-- Region 1 (second GIN layer): the same body on its own blocks. -/
theorem layer1_body (x0 x1 : Vec Ideal S5000x96 .f32) (x2 : Vec Ideal S96x96 .f32) (x3 : Vec Ideal S1x96 .f32)
    (x4 : Vec Ideal S96x96 .f32) (x5 x6 x7 x8 x9 : Vec Ideal S1x96 .f32) (r : Fin 5000) (j : Fin 96) :
    out1_10 x0 x1 x2 x3 x4 x5 x6 x7 x8 x9 (ix2 r j)
      = ginRow (rowOf x0 r) (rowOf x1 r) (matOf x2) (rowOf x3 0) (matOf x4) (rowOf x5 0)
          (rowOf x6 0) (rowOf x7 0) (rowOf x8 0) (rowOf x9 0) j := by
  -- the second layer's body is the same function of its ten blocks as the first layer's
  have same : out1_10 x0 x1 x2 x3 x4 x5 x6 x7 x8 x9 = out0_10 x0 x1 x2 x3 x4 x5 x6 x7 x8 x9 := rfl
  rw [same]
  exact layer0_body x0 x1 x2 x3 x4 x5 x6 x7 x8 x9 r j

end Cert.KernelIdeal.LayerBody

end
-- ==== Proof.KLayerArray.lean ====
/-
  From blocks to the whole array, for the two GIN-layer kernels. Grid point `t` of ten writes rows
  5000·t … 5000·t + 4999 of the 50000×96 output; row `n` of the output therefore depends only on row
  `n` of the two node-tiled inputs (their blocks move with the output's) and on the parameter arrays
  (one block, fetched at every point). So the array the region leaves is `ginRow` of the entry arrays,
  row by row, whatever those entry arrays are.
-/
import proofs.«414043_j79035988181207_3_alg».proof.Proof.Gen.KernelIdeal.Frame
import proofs.«414043_j79035988181207_3_alg».proof.Proof.GinSpec
import proofs.«414043_j79035988181207_3_alg».proof.Proof.KLayerBody
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerArray

open Cert.KernelIdeal Cert.KernelIdeal.Gen Cert.GinSpec Idealize.ShloMosaic Idealize.ShloMosaic.TcCoe Idealize.ShloMosaic.ValueIdx Idealize.SL.Sem
open Idealize.ShloMosaic.Pipeline (Dat)
open Cert.KernelIdeal.LayerBody

variable (V : (c : Dev nD) → (b : Ref sig .tc) → Buf (Elt Ideal) ((c : Thread nD τ).loc b))

/-! ## Region 0: the first GIN layer -/

/-- The layer of the region's entry arrays, as one function of the output array's index: row i 0 of the two
    node-tiled arrays and the eight parameter arrays, at feature i 1. -/
abbrev layer0 (c : Dev nD) : S50000x96.Idx → EReal := fun i =>
  ginRow (rowOf (V c main_v10 : Vec Ideal S50000x96 .f32) (i 0)) (rowOf (V c main_v20 : Vec Ideal S50000x96 .f32) (i 0))
    (matOf (V c main_v22 : Vec Ideal S96x96 .f32)) (rowOf (V c main_v37 : Vec Ideal S1x96 .f32) 0)
    (matOf (V c main_v26 : Vec Ideal S96x96 .f32)) (rowOf (V c main_v38 : Vec Ideal S1x96 .f32) 0)
    (rowOf (V c main_v39 : Vec Ideal S1x96 .f32) 0) (rowOf (V c main_v40 : Vec Ideal S1x96 .f32) 0)
    (rowOf (V c main_v41 : Vec Ideal S1x96 .f32) 0) (rowOf (V c main_v42 : Vec Ideal S1x96 .f32) 0) (i 1)

/-- The layer at an index whose two coordinates are known. -/
theorem layer0_at (c : Dev nD) (i : S50000x96.Idx) (n : Fin 50000) (q : Fin 96) (h0 : i 0 = n) (h1 : i 1 = q) :
    layer0 V c i =
      ginRow (rowOf (V c main_v10 : Vec Ideal S50000x96 .f32) n) (rowOf (V c main_v20 : Vec Ideal S50000x96 .f32) n)
        (matOf (V c main_v22 : Vec Ideal S96x96 .f32)) (rowOf (V c main_v37 : Vec Ideal S1x96 .f32) 0)
        (matOf (V c main_v26 : Vec Ideal S96x96 .f32)) (rowOf (V c main_v38 : Vec Ideal S1x96 .f32) 0)
        (rowOf (V c main_v39 : Vec Ideal S1x96 .f32) 0) (rowOf (V c main_v40 : Vec Ideal S1x96 .f32) 0)
        (rowOf (V c main_v41 : Vec Ideal S1x96 .f32) 0) (rowOf (V c main_v42 : Vec Ideal S1x96 .f32) 0) q := by
  subst h0 h1; rfl

/-- The printed index maps of the three node-tiled windows (the two inputs and the output), over the ten
    grid points: block row t, block column 0. -/
theorem tiled_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The printed index maps of the eight parameter windows: block (0, 0) at every point. -/
theorem param_index0 : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row r of the first node-tiled input's block at point t is row 5000·t + r of its array. -/
theorem row0_0 (c : Dev nD) (t : Fin cfg0.N) (r : Fin 5000) (n : Fin 50000) (hn : n.val = 5000 * t.val + r.val) :
    rowOf (iblk0 V c 0 t : Vec Ideal S5000x96 .f32) r = rowOf (V c main_v10 : Vec Ideal S50000x96 .f32) n := by
  obtain ⟨e0, e1, -⟩ := tiled_index0 t
  funext q
  show V c main_v10 (((cfg0.win 0).blk t).view.emb (ix2 r q)) = V c main_v10 (ix2 n q)
  refine congrArg (V c main_v10) (funext fun a => Fin.ext ?_)
  match a with
  | ⟨0, _⟩ => show win0_0.index t (0 : Fin 2) * 5000 + 1 * r.val = n.val; omega
  | ⟨1, _⟩ => show win0_0.index t (1 : Fin 2) * 96 + 1 * q.val = q.val; omega

/-- Row r of the second node-tiled input's block at point t is row 5000·t + r of its array. -/
theorem row0_1 (c : Dev nD) (t : Fin cfg0.N) (r : Fin 5000) (n : Fin 50000) (hn : n.val = 5000 * t.val + r.val) :
    rowOf (iblk0 V c 1 t : Vec Ideal S5000x96 .f32) r = rowOf (V c main_v20 : Vec Ideal S50000x96 .f32) n := by
  obtain ⟨-, -, e0, e1, -⟩ := tiled_index0 t
  funext q
  show V c main_v20 (((cfg0.win 1).blk t).view.emb (ix2 r q)) = V c main_v20 (ix2 n q)
  refine congrArg (V c main_v20) (funext fun a => Fin.ext ?_)
  match a with
  | ⟨0, _⟩ => show win0_1.index t (0 : Fin 2) * 5000 + 1 * r.val = n.val; omega
  | ⟨1, _⟩ => show win0_1.index t (1 : Fin 2) * 96 + 1 * q.val = q.val; omega

/-- The one block of window 2 (the first weight matrix) is its whole array, at every point. -/
theorem param0_2 (c : Dev nD) (t : Fin cfg0.N) :
    (iblk0 V c 2 t : Vec Ideal S96x96 .f32) = (V c main_v22 : Vec Ideal S96x96 .f32) := by
  obtain ⟨⟨e0, e1⟩, -⟩ := param_index0 t
  funext y
  show V c main_v22 (((cfg0.win 2).blk t).view.emb y) = V c main_v22 y
  refine congrArg (V c main_v22) (funext fun a => Fin.ext ?_)
  match a with
  | ⟨0, _⟩ => show win0_2.index t (0 : Fin 2) * 96 + 1 * (y 0).val = (y 0).val; omega
  | ⟨1, _⟩ => show win0_2.index t (1 : Fin 2) * 96 + 1 * (y 1).val = (y 1).val; omega

/-- The one block of window 3 (the first bias) is its whole array, at every point. -/
theorem param0_3 (c : Dev nD) (t : Fin cfg0.N) :
    (iblk0 V c 3 t : Vec Ideal S1x96 .f32) = (V c main_v37 : Vec Ideal S1x96 .f32) := by
  obtain ⟨-, ⟨e0, e1⟩, -⟩ := param_index0 t
  funext y
  show V c main_v37 (((cfg0.win 3).blk t).view.emb y) = V c main_v37 y
  refine congrArg (V c main_v37) (funext fun a => Fin.ext ?_)
  match a with
  | ⟨0, _⟩ => show win0_3.index t (0 : Fin 2) * 1 + 1 * (y 0).val = (y 0).val; omega
  | ⟨1, _⟩ => show win0_3.index t (1 : Fin 2) * 96 + 1 * (y 1).val = (y 1).val; omega

/-- The one block of window 4 (the second weight matrix) is its whole array, at every point. -/
theorem param0_4 (c : Dev nD) (t : Fin cfg0.N) :
    (iblk0 V c 4 t : Vec Ideal S96x96 .f32) = (V c main_v26 : Vec Ideal S96x96 .f32) := by
  obtain ⟨-, -, ⟨e0, e1⟩, -⟩ := param_index0 t
  funext y
  show V c main_v26 (((cfg0.win 4).blk t).view.emb y) = V c main_v26 y
  refine congrArg (V c main_v26) (funext fun a => Fin.ext ?_)
  match a with
  | ⟨0, _⟩ => show win0_4.index t (0 : Fin 2) * 96 + 1 * (y 0).val = (y 0).val; omega
  | ⟨1, _⟩ => show win0_4.index t (1 : Fin 2) * 96 + 1 * (y 1).val = (y 1).val; omega

/-- The one block of window 5 (the second bias) is its whole array, at every point. -/
theorem param0_5 (c : Dev nD) (t : Fin cfg0.N) :
    (iblk0 V c 5 t : Vec Ideal S1x96 .f32) = (V c main_v38 : Vec Ideal S1x96 .f32) := by
  obtain ⟨-, -, -, ⟨e0, e1⟩, -⟩ := param_index0 t
  funext y
  show V c main_v38 (((cfg0.win 5).blk t).view.emb y) = V c main_v38 y
  refine congrArg (V c main_v38) (funext fun a => Fin.ext ?_)
  match a with
  | ⟨0, _⟩ => show win0_5.index t (0 : Fin 2) * 1 + 1 * (y 0).val = (y 0).val; omega
  | ⟨1, _⟩ => show win0_5.index t (1 : Fin 2) * 96 + 1 * (y 1).val = (y 1).val; omega

/-- The one block of window 6 (the scale) is its whole array, at every point. -/
theorem param0_6 (c : Dev nD) (t : Fin cfg0.N) :
    (iblk0 V c 6 t : Vec Ideal S1x96 .f32) = (V c main_v39 : Vec Ideal S1x96 .f32) := by
  obtain ⟨-, -, -, -, ⟨e0, e1⟩, -⟩ := param_index0 t
  funext y
  show V c main_v39 (((cfg0.win 6).blk t).view.emb y) = V c main_v39 y
  refine congrArg (V c main_v39) (funext fun a => Fin.ext ?_)
  match a with
  | ⟨0, _⟩ => show win0_6.index t (0 : Fin 2) * 1 + 1 * (y 0).val = (y 0).val; omega
  | ⟨1, _⟩ => show win0_6.index t (1 : Fin 2) * 96 + 1 * (y 1).val = (y 1).val; omega

/-- The one block of window 7 (the shift) is its whole array, at every point. -/
theorem param0_7 (c : Dev nD) (t : Fin cfg0.N) :
    (iblk0 V c 7 t : Vec Ideal S1x96 .f32) = (V c main_v40 : Vec Ideal S1x96 .f32) := by
  obtain ⟨-, -, -, -, -, ⟨e0, e1⟩, -⟩ := param_index0 t
  funext y
  show V c main_v40 (((cfg0.win 7).blk t).view.emb y) = V c main_v40 y
  refine congrArg (V c main_v40) (funext fun a => Fin.ext ?_)
  match a with
  | ⟨0, _⟩ => show win0_7.index t (0 : Fin 2) * 1 + 1 * (y 0).val = (y 0).val; omega
  | ⟨1, _⟩ => show win0_7.index t (1 : Fin 2) * 96 + 1 * (y 1).val = (y 1).val; omega

/-- The one block of window 8 (the running mean) is its whole array, at every point. -/
theorem param0_8 (c : Dev nD) (t : Fin cfg0.N) :
    (iblk0 V c 8 t : Vec Ideal S1x96 .f32) = (V c main_v41 : Vec Ideal S1x96 .f32) := by
  obtain ⟨-, -, -, -, -, -, ⟨e0, e1⟩, -⟩ := param_index0 t
  funext y
  show V c main_v41 (((cfg0.win 8).blk t).view.emb y) = V c main_v41 y
  refine congrArg (V c main_v41) (funext fun a => Fin.ext ?_)
  match a with
  | ⟨0, _⟩ => show win0_8.index t (0 : Fin 2) * 1 + 1 * (y 0).val = (y 0).val; omega
  | ⟨1, _⟩ => show win0_8.index t (1 : Fin 2) * 96 + 1 * (y 1).val = (y 1).val; omega

/-- The one block of window 9 (the running variance) is its whole array, at every point. -/
theorem param0_9 (c : Dev nD) (t : Fin cfg0.N) :
    (iblk0 V c 9 t : Vec Ideal S1x96 .f32) = (V c main_v42 : Vec Ideal S1x96 .f32) := by
  obtain ⟨-, -, -, -, -, -, -, ⟨e0, e1⟩⟩ := param_index0 t
  funext y
  show V c main_v42 (((cfg0.win 9).blk t).view.emb y) = V c main_v42 y
  refine congrArg (V c main_v42) (funext fun a => Fin.ext ?_)
  match a with
  | ⟨0, _⟩ => show win0_9.index t (0 : Fin 2) * 1 + 1 * (y 0).val = (y 0).val; omega
  | ⟨1, _⟩ => show win0_9.index t (1 : Fin 2) * 96 + 1 * (y 1).val = (y 1).val; omega

/-- What point t writes back is block t of the layer of the entry arrays: entry (r, q) of the body's result
    is the layer's row function of row r of the input blocks, which is row 5000·t + r of the arrays, and the
    output block's entry (r, q) sits at (5000·t + r, q) of the output array. -/
theorem flushed0_eq (c : Dev nD) (t : Fin cfg0.N) :
    (dat0 V c).flushed 10 t = ((cfg0.win 10).blk t).view.read (Elt Ideal) (layer0 V c) := by
  show (cfg0.win 10).cut (grid0.coords t) ((dat0 V c).after 10 t) = _
  rw [after0_10]
  funext j
  obtain ⟨r, q, rfl⟩ : ∃ (r : Fin 5000) (q : Fin 96), j = ix2 r q := ⟨j 0, j 1, eq_ix2 j⟩
  obtain ⟨-, -, -, -, e0, e1⟩ := tiled_index0 t
  have ht : t.val < 10 := Nat.lt_of_lt_of_eq t.isLt N_0
  have hn : 5000 * t.val + r.val < 50000 := by have := r.isLt; omega
  show out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (ix2 r q)
    = layer0 V c (((cfg0.win 10).blk t).view.emb (ix2 r q))
  refine ((layer0_body (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) r q).trans ?_).trans
    (layer0_at V c _ ⟨5000 * t.val + r.val, hn⟩ q
      (Fin.ext (by show win0_10.index t (0 : Fin 2) * 5000 + 1 * r.val = 5000 * t.val + r.val; omega))
      (Fin.ext (by show win0_10.index t (1 : Fin 2) * 96 + 1 * q.val = q.val; omega))).symm
  rw [row0_0 V c t r ⟨5000 * t.val + r.val, hn⟩ rfl, row0_1 V c t r ⟨5000 * t.val + r.val, hn⟩ rfl,
    param0_2 V c t, param0_3 V c t, param0_4 V c t, param0_5 V c t, param0_6 V c t, param0_7 V c t,
    param0_8 V c t, param0_9 V c t]

/-- An index of the output array is in point t's block iff each coordinate is in the block's range on its axis. -/
theorem mem_out0 (t : Fin cfg0.N) (i : S50000x96.Idx) :
    i ∈ ((cfg0.win 10).blk t).view.set ↔ ∀ a : Fin 2, win0_10.index t a * S5000x96.size a ≤ (i a).val
      ∧ (i a).val < win0_10.index t a * S5000x96.size a + S5000x96.size a := by
  show i ∈ ((View.whole main_v43).slice (win0_10.rect t)).set ↔ _
  rw [View.set_slice_whole, Rect.mem_set_unit]
  exact Iff.rfl

/-- Every index of the output array is in the block of the point its row falls in: row n in point n / 5000. -/
theorem cover0 (i : S50000x96.Idx) :
    ∃ t : Fin cfg0.N, (cfg0.win 10).flush t = true ∧ i ∈ ((cfg0.win 10).blk t).view.set := by
  have hi0 : (i 0).val < 50000 := idx2_lt0 i
  have hi1 : (i 1).val < 96 := idx2_lt1 i
  have hN : (i 0).val / 5000 < cfg0.N := by rw [show cfg0.N = 10 from N_0]; omega
  obtain ⟨-, -, -, -, e0, e1⟩ := tiled_index0 ⟨(i 0).val / 5000, hN⟩
  have e0' : win0_10.index ⟨(i 0).val / 5000, hN⟩ (0 : Fin 2) = (i 0).val / 5000 := e0
  refine ⟨⟨(i 0).val / 5000, hN⟩, flush0_10 _, ?_⟩
  rw [mem_out0]
  intro a
  match a with
  | ⟨0, _⟩ =>
    show win0_10.index ⟨(i 0).val / 5000, hN⟩ (0 : Fin 2) * 5000 ≤ (i 0).val
      ∧ (i 0).val < win0_10.index ⟨(i 0).val / 5000, hN⟩ (0 : Fin 2) * 5000 + 5000
    omega
  | ⟨1, _⟩ =>
    show win0_10.index ⟨(i 0).val / 5000, hN⟩ (1 : Fin 2) * 96 ≤ (i 1).val
      ∧ (i 1).val < win0_10.index ⟨(i 0).val / 5000, hN⟩ (1 : Fin 2) * 96 + 96
    omega

/-- Region 0 leaves, in its output array, the first GIN layer of its entry arrays. -/
theorem layer0_array (c : Dev nD) :
    (dat0 V c).arrAt 10 cfg0.N = fun i =>
      ginRow (rowOf (V c main_v10 : Vec Ideal S50000x96 .f32) (i 0)) (rowOf (V c main_v20 : Vec Ideal S50000x96 .f32) (i 0))
        (matOf (V c main_v22 : Vec Ideal S96x96 .f32)) (rowOf (V c main_v37 : Vec Ideal S1x96 .f32) 0)
        (matOf (V c main_v26 : Vec Ideal S96x96 .f32)) (rowOf (V c main_v38 : Vec Ideal S1x96 .f32) 0)
        (rowOf (V c main_v39 : Vec Ideal S1x96 .f32) 0) (rowOf (V c main_v40 : Vec Ideal S1x96 .f32) 0)
        (rowOf (V c main_v41 : Vec Ideal S1x96 .f32) 0) (rowOf (V c main_v42 : Vec Ideal S1x96 .f32) 0) (i 1) :=
  (dat0 V c).arrAt_eq_of_cover 10 (layer0 V c) (fun t _ => flushed0_eq V c t) cover0

/-! ## Region 1: the second GIN layer -/

/-- The layer of the region's entry arrays, as one function of the output array's index: row i 0 of the two
    node-tiled arrays and the eight parameter arrays, at feature i 1. -/
abbrev layer1 (c : Dev nD) : S50000x96.Idx → EReal := fun i =>
  ginRow (rowOf (V c main_v43 : Vec Ideal S50000x96 .f32) (i 0)) (rowOf (V c main_v53 : Vec Ideal S50000x96 .f32) (i 0))
    (matOf (V c main_v55 : Vec Ideal S96x96 .f32)) (rowOf (V c main_v70 : Vec Ideal S1x96 .f32) 0)
    (matOf (V c main_v59 : Vec Ideal S96x96 .f32)) (rowOf (V c main_v71 : Vec Ideal S1x96 .f32) 0)
    (rowOf (V c main_v72 : Vec Ideal S1x96 .f32) 0) (rowOf (V c main_v73 : Vec Ideal S1x96 .f32) 0)
    (rowOf (V c main_v74 : Vec Ideal S1x96 .f32) 0) (rowOf (V c main_v75 : Vec Ideal S1x96 .f32) 0) (i 1)

/-- The layer at an index whose two coordinates are known. -/
theorem layer1_at (c : Dev nD) (i : S50000x96.Idx) (n : Fin 50000) (q : Fin 96) (h0 : i 0 = n) (h1 : i 1 = q) :
    layer1 V c i =
      ginRow (rowOf (V c main_v43 : Vec Ideal S50000x96 .f32) n) (rowOf (V c main_v53 : Vec Ideal S50000x96 .f32) n)
        (matOf (V c main_v55 : Vec Ideal S96x96 .f32)) (rowOf (V c main_v70 : Vec Ideal S1x96 .f32) 0)
        (matOf (V c main_v59 : Vec Ideal S96x96 .f32)) (rowOf (V c main_v71 : Vec Ideal S1x96 .f32) 0)
        (rowOf (V c main_v72 : Vec Ideal S1x96 .f32) 0) (rowOf (V c main_v73 : Vec Ideal S1x96 .f32) 0)
        (rowOf (V c main_v74 : Vec Ideal S1x96 .f32) 0) (rowOf (V c main_v75 : Vec Ideal S1x96 .f32) 0) q := by
  subst h0 h1; rfl

/-- The printed index maps of the three node-tiled windows (the two inputs and the output), over the ten
    grid points: block row t, block column 0. -/
theorem tiled_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0 :=
  (by decide +kernel : ∀ t : Fin grid1.N, _)

/-- The printed index maps of the eight parameter windows: block (0, 0) at every point. -/
theorem param_index1 : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- Row r of the first node-tiled input's block at point t is row 5000·t + r of its array. -/
theorem row1_0 (c : Dev nD) (t : Fin cfg1.N) (r : Fin 5000) (n : Fin 50000) (hn : n.val = 5000 * t.val + r.val) :
    rowOf (iblk1 V c 0 t : Vec Ideal S5000x96 .f32) r = rowOf (V c main_v43 : Vec Ideal S50000x96 .f32) n := by
  obtain ⟨e0, e1, -⟩ := tiled_index1 t
  funext q
  show V c main_v43 (((cfg1.win 0).blk t).view.emb (ix2 r q)) = V c main_v43 (ix2 n q)
  refine congrArg (V c main_v43) (funext fun a => Fin.ext ?_)
  match a with
  | ⟨0, _⟩ => show win1_0.index t (0 : Fin 2) * 5000 + 1 * r.val = n.val; omega
  | ⟨1, _⟩ => show win1_0.index t (1 : Fin 2) * 96 + 1 * q.val = q.val; omega

/-- Row r of the second node-tiled input's block at point t is row 5000·t + r of its array. -/
theorem row1_1 (c : Dev nD) (t : Fin cfg1.N) (r : Fin 5000) (n : Fin 50000) (hn : n.val = 5000 * t.val + r.val) :
    rowOf (iblk1 V c 1 t : Vec Ideal S5000x96 .f32) r = rowOf (V c main_v53 : Vec Ideal S50000x96 .f32) n := by
  obtain ⟨-, -, e0, e1, -⟩ := tiled_index1 t
  funext q
  show V c main_v53 (((cfg1.win 1).blk t).view.emb (ix2 r q)) = V c main_v53 (ix2 n q)
  refine congrArg (V c main_v53) (funext fun a => Fin.ext ?_)
  match a with
  | ⟨0, _⟩ => show win1_1.index t (0 : Fin 2) * 5000 + 1 * r.val = n.val; omega
  | ⟨1, _⟩ => show win1_1.index t (1 : Fin 2) * 96 + 1 * q.val = q.val; omega

/-- The one block of window 2 (the first weight matrix) is its whole array, at every point. -/
theorem param1_2 (c : Dev nD) (t : Fin cfg1.N) :
    (iblk1 V c 2 t : Vec Ideal S96x96 .f32) = (V c main_v55 : Vec Ideal S96x96 .f32) := by
  obtain ⟨⟨e0, e1⟩, -⟩ := param_index1 t
  funext y
  show V c main_v55 (((cfg1.win 2).blk t).view.emb y) = V c main_v55 y
  refine congrArg (V c main_v55) (funext fun a => Fin.ext ?_)
  match a with
  | ⟨0, _⟩ => show win1_2.index t (0 : Fin 2) * 96 + 1 * (y 0).val = (y 0).val; omega
  | ⟨1, _⟩ => show win1_2.index t (1 : Fin 2) * 96 + 1 * (y 1).val = (y 1).val; omega

/-- The one block of window 3 (the first bias) is its whole array, at every point. -/
theorem param1_3 (c : Dev nD) (t : Fin cfg1.N) :
    (iblk1 V c 3 t : Vec Ideal S1x96 .f32) = (V c main_v70 : Vec Ideal S1x96 .f32) := by
  obtain ⟨-, ⟨e0, e1⟩, -⟩ := param_index1 t
  funext y
  show V c main_v70 (((cfg1.win 3).blk t).view.emb y) = V c main_v70 y
  refine congrArg (V c main_v70) (funext fun a => Fin.ext ?_)
  match a with
  | ⟨0, _⟩ => show win1_3.index t (0 : Fin 2) * 1 + 1 * (y 0).val = (y 0).val; omega
  | ⟨1, _⟩ => show win1_3.index t (1 : Fin 2) * 96 + 1 * (y 1).val = (y 1).val; omega

/-- The one block of window 4 (the second weight matrix) is its whole array, at every point. -/
theorem param1_4 (c : Dev nD) (t : Fin cfg1.N) :
    (iblk1 V c 4 t : Vec Ideal S96x96 .f32) = (V c main_v59 : Vec Ideal S96x96 .f32) := by
  obtain ⟨-, -, ⟨e0, e1⟩, -⟩ := param_index1 t
  funext y
  show V c main_v59 (((cfg1.win 4).blk t).view.emb y) = V c main_v59 y
  refine congrArg (V c main_v59) (funext fun a => Fin.ext ?_)
  match a with
  | ⟨0, _⟩ => show win1_4.index t (0 : Fin 2) * 96 + 1 * (y 0).val = (y 0).val; omega
  | ⟨1, _⟩ => show win1_4.index t (1 : Fin 2) * 96 + 1 * (y 1).val = (y 1).val; omega

/-- The one block of window 5 (the second bias) is its whole array, at every point. -/
theorem param1_5 (c : Dev nD) (t : Fin cfg1.N) :
    (iblk1 V c 5 t : Vec Ideal S1x96 .f32) = (V c main_v71 : Vec Ideal S1x96 .f32) := by
  obtain ⟨-, -, -, ⟨e0, e1⟩, -⟩ := param_index1 t
  funext y
  show V c main_v71 (((cfg1.win 5).blk t).view.emb y) = V c main_v71 y
  refine congrArg (V c main_v71) (funext fun a => Fin.ext ?_)
  match a with
  | ⟨0, _⟩ => show win1_5.index t (0 : Fin 2) * 1 + 1 * (y 0).val = (y 0).val; omega
  | ⟨1, _⟩ => show win1_5.index t (1 : Fin 2) * 96 + 1 * (y 1).val = (y 1).val; omega

/-- The one block of window 6 (the scale) is its whole array, at every point. -/
theorem param1_6 (c : Dev nD) (t : Fin cfg1.N) :
    (iblk1 V c 6 t : Vec Ideal S1x96 .f32) = (V c main_v72 : Vec Ideal S1x96 .f32) := by
  obtain ⟨-, -, -, -, ⟨e0, e1⟩, -⟩ := param_index1 t
  funext y
  show V c main_v72 (((cfg1.win 6).blk t).view.emb y) = V c main_v72 y
  refine congrArg (V c main_v72) (funext fun a => Fin.ext ?_)
  match a with
  | ⟨0, _⟩ => show win1_6.index t (0 : Fin 2) * 1 + 1 * (y 0).val = (y 0).val; omega
  | ⟨1, _⟩ => show win1_6.index t (1 : Fin 2) * 96 + 1 * (y 1).val = (y 1).val; omega

/-- The one block of window 7 (the shift) is its whole array, at every point. -/
theorem param1_7 (c : Dev nD) (t : Fin cfg1.N) :
    (iblk1 V c 7 t : Vec Ideal S1x96 .f32) = (V c main_v73 : Vec Ideal S1x96 .f32) := by
  obtain ⟨-, -, -, -, -, ⟨e0, e1⟩, -⟩ := param_index1 t
  funext y
  show V c main_v73 (((cfg1.win 7).blk t).view.emb y) = V c main_v73 y
  refine congrArg (V c main_v73) (funext fun a => Fin.ext ?_)
  match a with
  | ⟨0, _⟩ => show win1_7.index t (0 : Fin 2) * 1 + 1 * (y 0).val = (y 0).val; omega
  | ⟨1, _⟩ => show win1_7.index t (1 : Fin 2) * 96 + 1 * (y 1).val = (y 1).val; omega

/-- The one block of window 8 (the running mean) is its whole array, at every point. -/
theorem param1_8 (c : Dev nD) (t : Fin cfg1.N) :
    (iblk1 V c 8 t : Vec Ideal S1x96 .f32) = (V c main_v74 : Vec Ideal S1x96 .f32) := by
  obtain ⟨-, -, -, -, -, -, ⟨e0, e1⟩, -⟩ := param_index1 t
  funext y
  show V c main_v74 (((cfg1.win 8).blk t).view.emb y) = V c main_v74 y
  refine congrArg (V c main_v74) (funext fun a => Fin.ext ?_)
  match a with
  | ⟨0, _⟩ => show win1_8.index t (0 : Fin 2) * 1 + 1 * (y 0).val = (y 0).val; omega
  | ⟨1, _⟩ => show win1_8.index t (1 : Fin 2) * 96 + 1 * (y 1).val = (y 1).val; omega

/-- The one block of window 9 (the running variance) is its whole array, at every point. -/
theorem param1_9 (c : Dev nD) (t : Fin cfg1.N) :
    (iblk1 V c 9 t : Vec Ideal S1x96 .f32) = (V c main_v75 : Vec Ideal S1x96 .f32) := by
  obtain ⟨-, -, -, -, -, -, -, ⟨e0, e1⟩⟩ := param_index1 t
  funext y
  show V c main_v75 (((cfg1.win 9).blk t).view.emb y) = V c main_v75 y
  refine congrArg (V c main_v75) (funext fun a => Fin.ext ?_)
  match a with
  | ⟨0, _⟩ => show win1_9.index t (0 : Fin 2) * 1 + 1 * (y 0).val = (y 0).val; omega
  | ⟨1, _⟩ => show win1_9.index t (1 : Fin 2) * 96 + 1 * (y 1).val = (y 1).val; omega

/-- What point t writes back is block t of the layer of the entry arrays: entry (r, q) of the body's result
    is the layer's row function of row r of the input blocks, which is row 5000·t + r of the arrays, and the
    output block's entry (r, q) sits at (5000·t + r, q) of the output array. -/
theorem flushed1_eq (c : Dev nD) (t : Fin cfg1.N) :
    (dat1 V c).flushed 10 t = ((cfg1.win 10).blk t).view.read (Elt Ideal) (layer1 V c) := by
  show (cfg1.win 10).cut (grid1.coords t) ((dat1 V c).after 10 t) = _
  rw [after1_10]
  funext j
  obtain ⟨r, q, rfl⟩ : ∃ (r : Fin 5000) (q : Fin 96), j = ix2 r q := ⟨j 0, j 1, eq_ix2 j⟩
  obtain ⟨-, -, -, -, e0, e1⟩ := tiled_index1 t
  have ht : t.val < 10 := Nat.lt_of_lt_of_eq t.isLt N_1
  have hn : 5000 * t.val + r.val < 50000 := by have := r.isLt; omega
  show out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 r q)
    = layer1 V c (((cfg1.win 10).blk t).view.emb (ix2 r q))
  refine ((layer1_body (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) r q).trans ?_).trans
    (layer1_at V c _ ⟨5000 * t.val + r.val, hn⟩ q
      (Fin.ext (by show win1_10.index t (0 : Fin 2) * 5000 + 1 * r.val = 5000 * t.val + r.val; omega))
      (Fin.ext (by show win1_10.index t (1 : Fin 2) * 96 + 1 * q.val = q.val; omega))).symm
  rw [row1_0 V c t r ⟨5000 * t.val + r.val, hn⟩ rfl, row1_1 V c t r ⟨5000 * t.val + r.val, hn⟩ rfl,
    param1_2 V c t, param1_3 V c t, param1_4 V c t, param1_5 V c t, param1_6 V c t, param1_7 V c t,
    param1_8 V c t, param1_9 V c t]

/-- An index of the output array is in point t's block iff each coordinate is in the block's range on its axis. -/
theorem mem_out1 (t : Fin cfg1.N) (i : S50000x96.Idx) :
    i ∈ ((cfg1.win 10).blk t).view.set ↔ ∀ a : Fin 2, win1_10.index t a * S5000x96.size a ≤ (i a).val
      ∧ (i a).val < win1_10.index t a * S5000x96.size a + S5000x96.size a := by
  show i ∈ ((View.whole main_v76).slice (win1_10.rect t)).set ↔ _
  rw [View.set_slice_whole, Rect.mem_set_unit]
  exact Iff.rfl

/-- Every index of the output array is in the block of the point its row falls in: row n in point n / 5000. -/
theorem cover1 (i : S50000x96.Idx) :
    ∃ t : Fin cfg1.N, (cfg1.win 10).flush t = true ∧ i ∈ ((cfg1.win 10).blk t).view.set := by
  have hi0 : (i 0).val < 50000 := idx2_lt0 i
  have hi1 : (i 1).val < 96 := idx2_lt1 i
  have hN : (i 0).val / 5000 < cfg1.N := by rw [show cfg1.N = 10 from N_1]; omega
  obtain ⟨-, -, -, -, e0, e1⟩ := tiled_index1 ⟨(i 0).val / 5000, hN⟩
  have e0' : win1_10.index ⟨(i 0).val / 5000, hN⟩ (0 : Fin 2) = (i 0).val / 5000 := e0
  refine ⟨⟨(i 0).val / 5000, hN⟩, flush1_10 _, ?_⟩
  rw [mem_out1]
  intro a
  match a with
  | ⟨0, _⟩ =>
    show win1_10.index ⟨(i 0).val / 5000, hN⟩ (0 : Fin 2) * 5000 ≤ (i 0).val
      ∧ (i 0).val < win1_10.index ⟨(i 0).val / 5000, hN⟩ (0 : Fin 2) * 5000 + 5000
    omega
  | ⟨1, _⟩ =>
    show win1_10.index ⟨(i 0).val / 5000, hN⟩ (1 : Fin 2) * 96 ≤ (i 1).val
      ∧ (i 1).val < win1_10.index ⟨(i 0).val / 5000, hN⟩ (1 : Fin 2) * 96 + 96
    omega

/-- Region 1 leaves, in its output array, the second GIN layer of its entry arrays. -/
theorem layer1_array (c : Dev nD) :
    (dat1 V c).arrAt 10 cfg1.N = fun i =>
      ginRow (rowOf (V c main_v43 : Vec Ideal S50000x96 .f32) (i 0)) (rowOf (V c main_v53 : Vec Ideal S50000x96 .f32) (i 0))
        (matOf (V c main_v55 : Vec Ideal S96x96 .f32)) (rowOf (V c main_v70 : Vec Ideal S1x96 .f32) 0)
        (matOf (V c main_v59 : Vec Ideal S96x96 .f32)) (rowOf (V c main_v71 : Vec Ideal S1x96 .f32) 0)
        (rowOf (V c main_v72 : Vec Ideal S1x96 .f32) 0) (rowOf (V c main_v73 : Vec Ideal S1x96 .f32) 0)
        (rowOf (V c main_v74 : Vec Ideal S1x96 .f32) 0) (rowOf (V c main_v75 : Vec Ideal S1x96 .f32) 0) (i 1) :=
  (dat1 V c).arrAt_eq_of_cover 10 (layer1 V c) (fun t _ => flushed1_eq V c t) cover1

end Cert.KernelIdeal.LayerArray

end
-- ==== Proof.Bridge0.lean ====
/-
  Region 0's entry and exit, in the reference's own stages. Before the first kernel region the host
  has embedded the node tokens, gathered each edge's source row and added it into its destination
  row, and cut the first layer's slices out of the parameter arrays: the SAME operations, on the same
  arguments, as the reference's first stages — so each buffer the region reads holds the reference's
  stage (the one-row parameter buffers hold it reshaped to 1×96). The region then leaves, row by row,
  `ginRow` of those entry arrays, which is what the reference's first layer-output stage is.
-/
import proofs.«414043_j79035988181207_3_alg».proof.Proof.Gen.KernelIdeal.Frame
import proofs.«414043_j79035988181207_3_alg».proof.Proof.Gen.ReferenceIdeal.Read
import proofs.«414043_j79035988181207_3_alg».proof.Proof.GinSpec
import proofs.«414043_j79035988181207_3_alg».proof.Proof.KLayerArray
import proofs.«414043_j79035988181207_3_alg».proof.Proof.RefLayers
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo Idealize.SL.Sem
open Idealize.ShloMosaic.Pipeline (Dat)
open Cert.GinSpec Cert.KernelIdeal Cert.KernelIdeal.Gen
open Cert.ReferenceIdeal.Read (val_main_v1 val_main_v3 val_main_v10 val_main_v20 val_main_v23 val_main_v26 val_main_v32 val_main_v35 val_main_v41 val_main_v43 val_main_v51 val_main_v59 val_main_v62)

variable (m : (ℓ : Loc nD τ sig) → Buf (Elt Ideal) ℓ) (ρ : Dev nD → PrngReg) (c : Dev nD)

/-- A length-96 vector reshaped to 1×96 has the vector as its one row. -/
theorem row_of_reshaped (v : Vec Ideal S96 .f32) :
    rowOf (shapeCast S1x96 v shapeCasts_S96_S1x96 : Vec Ideal S1x96 .f32) 0 = vecOf v := by
  funext k
  exact shapeCast_apply v shapeCasts_S96_S1x96 (ix2 0 k) (ix1 k)
    (by rewrite [Shape.rowMajor_val_one, Shape.rowMajor_val_two]; show k.val = (0 : ℕ) * 96 + k.val; omega)

/-- `ginRow` depends on the six one-row parameters only through their values. -/
theorem ginRow_congr {x s : Fin 96 → EReal} {W₁ W₂ : Fin 96 → Fin 96 → EReal} {b₁ b₁' b₂ b₂' γ γ' β β' μ μ' v v' : Fin 96 → EReal}
    (h₁ : b₁ = b₁') (h₂ : b₂ = b₂') (hγ : γ = γ') (hβ : β = β') (hμ : μ = μ') (hv : v = v') (j : Fin 96) :
    ginRow x s W₁ b₁ W₂ b₂ γ β μ v j = ginRow x s W₁ b₁' W₂ b₂' γ' β' μ' v' j := by
  subst h₁ h₂ hγ hβ hμ hv; rfl

/-! ## What the first host stretch leaves (the contents region 0 is entered from) -/

/-- The edges' source nodes. -/
theorem w1_src : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The edges' destination nodes. -/
theorem w1_dst : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The embedded node features. -/
theorem w1_x : W1 m ρ c (Proc.devRef .tc main_v10) = val_main_v10 (F := Ideal) (m ((c : Thread nD τ).loc main_arg0)) (m ((c : Thread nD τ).loc main_arg2)) := by
  show StableHlo.after hostOps0 (W0 m ρ c) (Proc.devRef .tc main_v10) = _
  after_results_simp
  rfl

/-- Their neighbour sum. -/
theorem w1_seg : W1 m ρ c (Proc.devRef .tc main_v20) = val_main_v20 (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

/-- The first layer's first weight matrix. -/
theorem w1_W1 : W1 m ρ c (Proc.devRef .tc main_v22) = val_main_v23 (F := Ideal) (m ((c : Thread nD τ).loc main_arg3)) := by
  show StableHlo.after hostOps0 (W0 m ρ c) (Proc.devRef .tc main_v22) = _
  after_results_simp
  rfl

/-- Its first bias, as a row. -/
theorem w1_b1 : W1 m ρ c (Proc.devRef .tc main_v37) = shapeCast S1x96 (val_main_v26 (F := Ideal) (m ((c : Thread nD τ).loc main_arg4))) shapeCasts_S96_S1x96 := by
  show StableHlo.after hostOps0 (W0 m ρ c) (Proc.devRef .tc main_v37) = _
  after_results_simp
  rfl

/-- Its second weight matrix. -/
theorem w1_W2 : W1 m ρ c (Proc.devRef .tc main_v26) = val_main_v32 (F := Ideal) (m ((c : Thread nD τ).loc main_arg5)) := by
  show StableHlo.after hostOps0 (W0 m ρ c) (Proc.devRef .tc main_v26) = _
  after_results_simp
  rfl

/-- Its second bias, as a row. -/
theorem w1_b2 : W1 m ρ c (Proc.devRef .tc main_v38) = shapeCast S1x96 (val_main_v35 (F := Ideal) (m ((c : Thread nD τ).loc main_arg6))) shapeCasts_S96_S1x96 := by
  show StableHlo.after hostOps0 (W0 m ρ c) (Proc.devRef .tc main_v38) = _
  after_results_simp
  rfl

/-- The normalisation's scale. -/
theorem w1_gamma : W1 m ρ c (Proc.devRef .tc main_v39) = shapeCast S1x96 (val_main_v41 (F := Ideal) (m ((c : Thread nD τ).loc main_arg7))) shapeCasts_S96_S1x96 := by
  show StableHlo.after hostOps0 (W0 m ρ c) (Proc.devRef .tc main_v39) = _
  after_results_simp
  rfl

/-- Its shift. -/
theorem w1_beta : W1 m ρ c (Proc.devRef .tc main_v40) = shapeCast S1x96 (val_main_v59 (F := Ideal) (m ((c : Thread nD τ).loc main_arg8))) shapeCasts_S96_S1x96 := by
  show StableHlo.after hostOps0 (W0 m ρ c) (Proc.devRef .tc main_v40) = _
  after_results_simp
  rfl

/-- Its running mean. -/
theorem w1_mean : W1 m ρ c (Proc.devRef .tc main_v41) = shapeCast S1x96 (val_main_v43 (F := Ideal) (m ((c : Thread nD τ).loc main_arg9))) shapeCasts_S96_S1x96 := by
  show StableHlo.after hostOps0 (W0 m ρ c) (Proc.devRef .tc main_v41) = _
  after_results_simp
  rfl

/-- Its running variance. -/
theorem w1_var : W1 m ρ c (Proc.devRef .tc main_v42) = shapeCast S1x96 (val_main_v51 (F := Ideal) (m ((c : Thread nD τ).loc main_arg10))) shapeCasts_S96_S1x96 := by
  show StableHlo.after hostOps0 (W0 m ρ c) (Proc.devRef .tc main_v42) = _
  after_results_simp
  rfl

/-! ## What region 0 leaves -/

/-- Region 0's output array is the reference's first layer-output stage. -/
theorem out0 : W2 m ρ c (Proc.devRef .tc main_v43) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 10).trans ?_
  refine (Cert.KernelIdeal.LayerArray.layer0_array (V1 m ρ) c).trans ?_
  funext i
  rw [Cert.ReferenceIdeal.RefLayers.layer0_ref]
  show ginRow (rowOf (W1 m ρ c (Proc.devRef .tc main_v10)) (i 0)) (rowOf (W1 m ρ c (Proc.devRef .tc main_v20)) (i 0))
      (matOf (W1 m ρ c (Proc.devRef .tc main_v22))) (rowOf (W1 m ρ c (Proc.devRef .tc main_v37)) 0)
      (matOf (W1 m ρ c (Proc.devRef .tc main_v26))) (rowOf (W1 m ρ c (Proc.devRef .tc main_v38)) 0)
      (rowOf (W1 m ρ c (Proc.devRef .tc main_v39)) 0) (rowOf (W1 m ρ c (Proc.devRef .tc main_v40)) 0)
      (rowOf (W1 m ρ c (Proc.devRef .tc main_v41)) 0) (rowOf (W1 m ρ c (Proc.devRef .tc main_v42)) 0) (i 1) = _
  rw [w1_x, w1_seg, w1_W1, w1_b1, w1_W2, w1_b2, w1_gamma, w1_beta, w1_mean, w1_var]
  exact ginRow_congr (row_of_reshaped _) (row_of_reshaped _) (row_of_reshaped _) (row_of_reshaped _)
    (row_of_reshaped _) (row_of_reshaped _) (i 1)

end Cert.Bridge

end
-- ==== Proof.Bridge1.lean ====
/-
  Region 1's entry and exit, in the reference's own stages. Region 0 touches none of the edge lists
  nor the arguments, so the second host stretch finds them as the first left them; it gathers and
  sums the rows of region 0's output — the reference's first layer-output stage — exactly as the
  reference does, and cuts the second layer's parameter slices. Region 1 then leaves the reference's
  second layer-output stage.
-/
import proofs.«414043_j79035988181207_3_alg».proof.Proof.Gen.KernelIdeal.Frame
import proofs.«414043_j79035988181207_3_alg».proof.Proof.Gen.ReferenceIdeal.Read
import proofs.«414043_j79035988181207_3_alg».proof.Proof.GinSpec
import proofs.«414043_j79035988181207_3_alg».proof.Proof.KLayerArray
import proofs.«414043_j79035988181207_3_alg».proof.Proof.RefLayers
import proofs.«414043_j79035988181207_3_alg».proof.Proof.Bridge0
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo Idealize.SL.Sem
open Idealize.ShloMosaic.Pipeline (Dat)
open Cert.GinSpec Cert.KernelIdeal Cert.KernelIdeal.Gen
open Cert.ReferenceIdeal.Read (val_main_v1 val_main_v3 val_main_v62 val_main_v72 val_main_v75 val_main_v78 val_main_v84 val_main_v87 val_main_v93 val_main_v95 val_main_v103 val_main_v111 val_main_v114)

variable (m : (ℓ : Loc nD τ sig) → Buf (Elt Ideal) ℓ) (ρ : Dev nD → PrngReg) (c : Dev nD)

/-- `ginRow` depends on its ten arguments only through their values. -/
theorem ginRow_congr_all {x x' s s' : Fin 96 → EReal} {W₁ W₁' W₂ W₂' : Fin 96 → Fin 96 → EReal}
    {b₁ b₁' b₂ b₂' γ γ' β β' μ μ' v v' : Fin 96 → EReal}
    (hx : x = x') (hs : s = s') (hW₁ : W₁ = W₁') (h₁ : b₁ = b₁') (hW₂ : W₂ = W₂') (h₂ : b₂ = b₂')
    (hγ : γ = γ') (hβ : β = β') (hμ : μ = μ') (hv : v = v') (j : Fin 96) :
    ginRow x s W₁ b₁ W₂ b₂ γ β μ v j = ginRow x' s' W₁' b₁' W₂' b₂' γ' β' μ' v' j := by
  subst hx hs hW₁ h₁ hW₂ h₂ hγ hβ hμ hv; rfl

/-! ## Carried through region 0: the edge lists and the arguments -/

theorem w2_src : W2 m ρ c (Proc.devRef .tc main_v1) = val_main_v1 (F := Ideal) (m ((c : Thread nD τ).loc main_arg1)) :=
  (W2_of_ne m ρ c main_v1 (by decide)).trans (w1_src m ρ c)
theorem w2_dst : W2 m ρ c (Proc.devRef .tc main_v3) = val_main_v3 (F := Ideal) (m ((c : Thread nD τ).loc main_arg1)) :=
  (W2_of_ne m ρ c main_v3 (by decide)).trans (w1_dst m ρ c)
theorem w2_arg3 : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem w2_arg4 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem w2_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)
theorem w2_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)
theorem w2_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)
theorem w2_arg8 : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)
theorem w2_arg9 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)
theorem w2_arg10 : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)
theorem w2_arg11 : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp <;> rfl)
theorem w2_arg12 : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp <;> rfl)
theorem w2_arg13 : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp <;> rfl)
theorem w2_arg14 : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results_simp <;> rfl)

/-! ## What the second host stretch leaves (the contents region 1 is entered from) -/

/-- Region 0's output, untouched by the stretch. -/
theorem w3_x : W3 m ρ c (Proc.devRef .tc main_v43) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v43) = _
  after_results_simp
  exact out0 m ρ c
/-- Its neighbour sum. -/
theorem w3_seg : W3 m ρ c (Proc.devRef .tc main_v53) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v53) = _
  after_results_simp
  rw [w2_src m ρ c, w2_dst m ρ c, out0 m ρ c]
  rfl

/-- The second layer's first weight matrix. -/
theorem w3_W1 : W3 m ρ c (Proc.devRef .tc main_v55) = val_main_v75 (F := Ideal) (m ((c : Thread nD τ).loc main_arg3)) := by
  show StableHlo.after hostOps1 (W2 m ρ c) (Proc.devRef .tc main_v55) = _
  after_results_simp
  rw [w2_arg3 m ρ c]
  rfl

/-- Its first bias, as a row. -/
theorem w3_b1 : W3 m ρ c (Proc.devRef .tc main_v70) = shapeCast S1x96 (val_main_v78 (F := Ideal) (m ((c : Thread nD τ).loc main_arg4))) shapeCasts_S96_S1x96 := by
  show StableHlo.after hostOps1 (W2 m ρ c) (Proc.devRef .tc main_v70) = _
  after_results_simp
  rw [w2_arg4 m ρ c]
  rfl

/-- Its second weight matrix. -/
theorem w3_W2 : W3 m ρ c (Proc.devRef .tc main_v59) = val_main_v84 (F := Ideal) (m ((c : Thread nD τ).loc main_arg5)) := by
  show StableHlo.after hostOps1 (W2 m ρ c) (Proc.devRef .tc main_v59) = _
  after_results_simp
  rw [w2_arg5 m ρ c]
  rfl

/-- Its second bias, as a row. -/
theorem w3_b2 : W3 m ρ c (Proc.devRef .tc main_v71) = shapeCast S1x96 (val_main_v87 (F := Ideal) (m ((c : Thread nD τ).loc main_arg6))) shapeCasts_S96_S1x96 := by
  show StableHlo.after hostOps1 (W2 m ρ c) (Proc.devRef .tc main_v71) = _
  after_results_simp
  rw [w2_arg6 m ρ c]
  rfl

/-- The normalisation's scale. -/
theorem w3_gamma : W3 m ρ c (Proc.devRef .tc main_v72) = shapeCast S1x96 (val_main_v93 (F := Ideal) (m ((c : Thread nD τ).loc main_arg7))) shapeCasts_S96_S1x96 := by
  show StableHlo.after hostOps1 (W2 m ρ c) (Proc.devRef .tc main_v72) = _
  after_results_simp
  rw [w2_arg7 m ρ c]
  rfl

/-- Its shift. -/
theorem w3_beta : W3 m ρ c (Proc.devRef .tc main_v73) = shapeCast S1x96 (val_main_v111 (F := Ideal) (m ((c : Thread nD τ).loc main_arg8))) shapeCasts_S96_S1x96 := by
  show StableHlo.after hostOps1 (W2 m ρ c) (Proc.devRef .tc main_v73) = _
  after_results_simp
  rw [w2_arg8 m ρ c]
  rfl

/-- Its running mean. -/
theorem w3_mean : W3 m ρ c (Proc.devRef .tc main_v74) = shapeCast S1x96 (val_main_v95 (F := Ideal) (m ((c : Thread nD τ).loc main_arg9))) shapeCasts_S96_S1x96 := by
  show StableHlo.after hostOps1 (W2 m ρ c) (Proc.devRef .tc main_v74) = _
  after_results_simp
  rw [w2_arg9 m ρ c]
  rfl

/-- Its running variance. -/
theorem w3_var : W3 m ρ c (Proc.devRef .tc main_v75) = shapeCast S1x96 (val_main_v103 (F := Ideal) (m ((c : Thread nD τ).loc main_arg10))) shapeCasts_S96_S1x96 := by
  show StableHlo.after hostOps1 (W2 m ρ c) (Proc.devRef .tc main_v75) = _
  after_results_simp
  rw [w2_arg10 m ρ c]
  rfl

/-! ## What region 1 leaves -/

/-- Region 1's output array is the reference's second layer-output stage. -/
theorem out1 : W4 m ρ c (Proc.devRef .tc main_v76) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 10).trans ?_
  refine (Cert.KernelIdeal.LayerArray.layer1_array (V3 m ρ) c).trans ?_
  funext i
  refine Eq.trans ?_ (Cert.ReferenceIdeal.RefLayers.layer1_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i).symm
  exact ginRow_congr_all
    (congrArg (fun z : Vec Ideal S50000x96 .f32 => rowOf z (i 0)) (w3_x m ρ c))
    (congrArg (fun z : Vec Ideal S50000x96 .f32 => rowOf z (i 0)) (w3_seg m ρ c))
    (congrArg (fun z : Vec Ideal S96x96 .f32 => matOf z) (w3_W1 m ρ c))
    ((congrArg (fun z : Vec Ideal S1x96 .f32 => rowOf z 0) (w3_b1 m ρ c)).trans (row_of_reshaped _))
    (congrArg (fun z : Vec Ideal S96x96 .f32 => matOf z) (w3_W2 m ρ c))
    ((congrArg (fun z : Vec Ideal S1x96 .f32 => rowOf z 0) (w3_b2 m ρ c)).trans (row_of_reshaped _))
    ((congrArg (fun z : Vec Ideal S1x96 .f32 => rowOf z 0) (w3_gamma m ρ c)).trans (row_of_reshaped _))
    ((congrArg (fun z : Vec Ideal S1x96 .f32 => rowOf z 0) (w3_beta m ρ c)).trans (row_of_reshaped _))
    ((congrArg (fun z : Vec Ideal S1x96 .f32 => rowOf z 0) (w3_mean m ρ c)).trans (row_of_reshaped _))
    ((congrArg (fun z : Vec Ideal S1x96 .f32 => rowOf z 0) (w3_var m ρ c)).trans (row_of_reshaped _))
    (i 1)

end Cert.Bridge

end
-- ==== Proof.Bridge2.lean ====
/-
  Region 2's entry and exit, and the result. Neither host stretch nor region writes the edge lists,
  the arguments or region 0's output once they exist, so the third stretch finds them unchanged; it
  forms the neighbour sum of region 1's output — the reference's second layer-output stage — and cuts
  the third layer's slices and the three row-blocks of the first read-out matrix. Region 2 leaves,
  row by row, the read-out of the first two layers' rows and of the third layer's row formed on the
  spot; the reference instead concatenates the three layers' rows and multiplies by the whole matrix.
  The two agree because a sum over the 288 concatenated features is the sum of its three blocks of 96
  (`headRowCat_eq_headRow`) — so the kernel's result array IS the reference's result stage of the
  same arguments.
-/
import proofs.«414043_j79035988181207_3_alg».proof.Proof.Gen.KernelIdeal.Frame
import proofs.«414043_j79035988181207_3_alg».proof.Proof.Gen.ReferenceIdeal.Read
import proofs.«414043_j79035988181207_3_alg».proof.Proof.GinSpec
import proofs.«414043_j79035988181207_3_alg».proof.Proof.KHeadArray
import proofs.«414043_j79035988181207_3_alg».proof.Proof.RefLayers
import proofs.«414043_j79035988181207_3_alg».proof.Proof.RefHead
import proofs.«414043_j79035988181207_3_alg».proof.Proof.Bridge1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo Idealize.SL.Sem
open Idealize.ShloMosaic.Pipeline (Dat)
open Cert.GinSpec Cert.KernelIdeal Cert.KernelIdeal.Gen
open Cert.ReferenceIdeal.Read (val_main_v1 val_main_v3 val_main_v62 val_main_v114 val_main_v124 val_main_v127 val_main_v130 val_main_v136 val_main_v139 val_main_v145 val_main_v147 val_main_v155 val_main_v163 val_main_v166 val_main_v167 val_main_v176)

variable (m : (ℓ : Loc nD τ sig) → Buf (Elt Ideal) ℓ) (ρ : Dev nD → PrngReg) (c : Dev nD)

/-- A length-2 vector reshaped to 1×2 has the vector as its one row. -/
theorem row_of_reshaped2 (v : Vec Ideal S2 .f32) :
    rowOf (shapeCast S1x2 v shapeCasts_S2_S1x2 : Vec Ideal S1x2 .f32) 0 = vecOf v := by
  funext k
  exact shapeCast_apply v shapeCasts_S2_S1x2 (ix2 0 k) (ix1 k)
    (by rewrite [Shape.rowMajor_val_one, Shape.rowMajor_val_two]; show k.val = (0 : ℕ) * 2 + k.val; omega)

/-- `headRow` depends on its nine arguments only through their values. -/
theorem headRow_congr_all {a a' b b' c c' : Fin 96 → EReal} {La La' Lb Lb' Lc Lc' : Fin 96 → Fin 96 → EReal}
    {d₁ d₁' : Fin 96 → EReal} {M M' : Fin 96 → Fin 2 → EReal} {d₂ d₂' : Fin 2 → EReal}
    (ha : a = a') (hb : b = b') (hc : c = c') (hLa : La = La') (hLb : Lb = Lb') (hLc : Lc = Lc')
    (h₁ : d₁ = d₁') (hM : M = M') (h₂ : d₂ = d₂') (o : Fin 2) :
    headRow a b c La Lb Lc d₁ M d₂ o = headRow a' b' c' La' Lb' Lc' d₁' M' d₂' o := by
  subst ha hb hc hLa hLb hLc h₁ hM h₂; rfl

/-! ## The three row-blocks of the first read-out matrix -/

theorem readout_block0 (x : Vec Ideal S288x96 .f32) (k j : Fin 96) :
    extractStridedSlice S96x96 ![0, 0] x slices_S288x96_S96x96_0_0 (ix2 k j) = x (ix2 (blk0 k) j) :=
  extractStridedSlice_apply ![0, 0] x slices_S288x96_S96x96_0_0 (ix2 k j) (ix2 (blk0 k) j) (fun a => match a with
    | ⟨0, _⟩ => by show k.val = 0 + k.val; omega
    | ⟨1, _⟩ => by show j.val = 0 + j.val; omega)
theorem readout_block1 (x : Vec Ideal S288x96 .f32) (k j : Fin 96) :
    extractStridedSlice S96x96 ![96, 0] x slices_S288x96_S96x96_96_0 (ix2 k j) = x (ix2 (blk1 k) j) :=
  extractStridedSlice_apply ![96, 0] x slices_S288x96_S96x96_96_0 (ix2 k j) (ix2 (blk1 k) j) (fun a => match a with
    | ⟨0, _⟩ => by show 96 + k.val = 96 + k.val; omega
    | ⟨1, _⟩ => by show j.val = 0 + j.val; omega)
theorem readout_block2 (x : Vec Ideal S288x96 .f32) (k j : Fin 96) :
    extractStridedSlice S96x96 ![192, 0] x slices_S288x96_S96x96_192_0 (ix2 k j) = x (ix2 (blk2 k) j) :=
  extractStridedSlice_apply ![192, 0] x slices_S288x96_S96x96_192_0 (ix2 k j) (ix2 (blk2 k) j) (fun a => match a with
    | ⟨0, _⟩ => by show 192 + k.val = 192 + k.val; omega
    | ⟨1, _⟩ => by show j.val = 0 + j.val; omega)

/-! ## Carried through the second stretch and region 1 -/

theorem w3_src : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_src m ρ c
theorem w3_dst : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_dst m ρ c
theorem w3_arg3 : W3 m ρ c (Proc.devRef .tc main_arg3) = (m ((c : Thread nD τ).loc main_arg3)) := by
  show StableHlo.after hostOps1 (W2 m ρ c) (Proc.devRef .tc main_arg3) = _
  after_results_simp
  exact w2_arg3 m ρ c
theorem w3_arg4 : W3 m ρ c (Proc.devRef .tc main_arg4) = (m ((c : Thread nD τ).loc main_arg4)) := by
  show StableHlo.after hostOps1 (W2 m ρ c) (Proc.devRef .tc main_arg4) = _
  after_results_simp
  exact w2_arg4 m ρ c
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w3_arg6 : W3 m ρ c (Proc.devRef .tc main_arg6) = (m ((c : Thread nD τ).loc main_arg6)) := by
  show StableHlo.after hostOps1 (W2 m ρ c) (Proc.devRef .tc main_arg6) = _
  after_results_simp
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c
theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c
theorem w3_arg11 : W3 m ρ c (Proc.devRef .tc main_arg11) = (m ((c : Thread nD τ).loc main_arg11)) := by
  show StableHlo.after hostOps1 (W2 m ρ c) (Proc.devRef .tc main_arg11) = _
  after_results_simp
  exact w2_arg11 m ρ c
theorem w3_arg12 : W3 m ρ c (Proc.devRef .tc main_arg12) = (m ((c : Thread nD τ).loc main_arg12)) := by
  show StableHlo.after hostOps1 (W2 m ρ c) (Proc.devRef .tc main_arg12) = _
  after_results_simp
  exact w2_arg12 m ρ c
theorem w3_arg13 : W3 m ρ c (Proc.devRef .tc main_arg13) = (m ((c : Thread nD τ).loc main_arg13)) := by
  show StableHlo.after hostOps1 (W2 m ρ c) (Proc.devRef .tc main_arg13) = _
  after_results_simp
  exact w2_arg13 m ρ c
theorem w3_arg14 : W3 m ρ c (Proc.devRef .tc main_arg14) = (m ((c : Thread nD τ).loc main_arg14)) := by
  show StableHlo.after hostOps1 (W2 m ρ c) (Proc.devRef .tc main_arg14) = _
  after_results_simp
  exact w2_arg14 m ρ c
theorem w4_src : W4 m ρ c (Proc.devRef .tc main_v1) = val_main_v1 (F := Ideal) (m ((c : Thread nD τ).loc main_arg1)) :=
  (W4_of_ne m ρ c main_v1 (by decide)).trans (w3_src m ρ c)
theorem w4_dst : W4 m ρ c (Proc.devRef .tc main_v3) = val_main_v3 (F := Ideal) (m ((c : Thread nD τ).loc main_arg1)) :=
  (W4_of_ne m ρ c main_v3 (by decide)).trans (w3_dst m ρ c)
theorem w4_arg3 : W4 m ρ c (Proc.devRef .tc main_arg3) = (m ((c : Thread nD τ).loc main_arg3)) :=
  (W4_of_ne m ρ c main_arg3 (by decide)).trans (w3_arg3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)
theorem w4_arg13 : W4 m ρ c (Proc.devRef .tc main_arg13) = (m ((c : Thread nD τ).loc main_arg13)) :=
  (W4_of_ne m ρ c main_arg13 (by decide)).trans (w3_arg13 m ρ c)
theorem w4_arg14 : W4 m ρ c (Proc.devRef .tc main_arg14) = (m ((c : Thread nD τ).loc main_arg14)) :=
  (W4_of_ne m ρ c main_arg14 (by decide)).trans (w3_arg14 m ρ c)
/-- Region 0's output is an INPUT array of region 1, which leaves it as it found it. -/
theorem w4_x0 : W4 m ρ c (Proc.devRef .tc main_v43) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 0).trans (((dat1 (V3 m ρ) c).arrAt_in 0 rfl _).trans ((A_eq1 (V3 m ρ) c 0).trans (w3_x m ρ c)))

/-! ## What the third host stretch leaves (the contents region 2 is entered from) -/

theorem w5_x0 : W5 m ρ c (Proc.devRef .tc main_v43) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v43) = _
  after_results_simp
  exact w4_x0 m ρ c
theorem w5_x1 : W5 m ρ c (Proc.devRef .tc main_v76) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v76) = _
  after_results_simp
  exact out1 m ρ c
/-- The neighbour sum of region 1's output. -/
theorem w5_seg : W5 m ρ c (Proc.devRef .tc main_v86) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v86) = _
  after_results_simp
  rw [w4_src m ρ c, w4_dst m ρ c, out1 m ρ c]
  rfl

/-- The third layer's first weight matrix. -/
theorem w5_W1 : W5 m ρ c (Proc.devRef .tc main_v91) = val_main_v127 (F := Ideal) (m ((c : Thread nD τ).loc main_arg3)) := by
  show StableHlo.after hostOps2 (W4 m ρ c) (Proc.devRef .tc main_v91) = _
  after_results_simp
  rw [w4_arg3 m ρ c]
  rfl

/-- Its first bias, as a row. -/
theorem w5_b1 : W5 m ρ c (Proc.devRef .tc main_v106) = shapeCast S1x96 (val_main_v130 (F := Ideal) (m ((c : Thread nD τ).loc main_arg4))) shapeCasts_S96_S1x96 := by
  show StableHlo.after hostOps2 (W4 m ρ c) (Proc.devRef .tc main_v106) = _
  after_results_simp
  rw [w4_arg4 m ρ c]
  rfl

/-- Its second weight matrix. -/
theorem w5_W2 : W5 m ρ c (Proc.devRef .tc main_v95) = val_main_v136 (F := Ideal) (m ((c : Thread nD τ).loc main_arg5)) := by
  show StableHlo.after hostOps2 (W4 m ρ c) (Proc.devRef .tc main_v95) = _
  after_results_simp
  rw [w4_arg5 m ρ c]
  rfl

/-- Its second bias, as a row. -/
theorem w5_b2 : W5 m ρ c (Proc.devRef .tc main_v107) = shapeCast S1x96 (val_main_v139 (F := Ideal) (m ((c : Thread nD τ).loc main_arg6))) shapeCasts_S96_S1x96 := by
  show StableHlo.after hostOps2 (W4 m ρ c) (Proc.devRef .tc main_v107) = _
  after_results_simp
  rw [w4_arg6 m ρ c]
  rfl

/-- The normalisation's scale. -/
theorem w5_gamma : W5 m ρ c (Proc.devRef .tc main_v108) = shapeCast S1x96 (val_main_v145 (F := Ideal) (m ((c : Thread nD τ).loc main_arg7))) shapeCasts_S96_S1x96 := by
  show StableHlo.after hostOps2 (W4 m ρ c) (Proc.devRef .tc main_v108) = _
  after_results_simp
  rw [w4_arg7 m ρ c]
  rfl

/-- Its shift. -/
theorem w5_beta : W5 m ρ c (Proc.devRef .tc main_v109) = shapeCast S1x96 (val_main_v163 (F := Ideal) (m ((c : Thread nD τ).loc main_arg8))) shapeCasts_S96_S1x96 := by
  show StableHlo.after hostOps2 (W4 m ρ c) (Proc.devRef .tc main_v109) = _
  after_results_simp
  rw [w4_arg8 m ρ c]
  rfl

/-- Its running mean. -/
theorem w5_mean : W5 m ρ c (Proc.devRef .tc main_v110) = shapeCast S1x96 (val_main_v147 (F := Ideal) (m ((c : Thread nD τ).loc main_arg9))) shapeCasts_S96_S1x96 := by
  show StableHlo.after hostOps2 (W4 m ρ c) (Proc.devRef .tc main_v110) = _
  after_results_simp
  rw [w4_arg9 m ρ c]
  rfl

/-- Its running variance. -/
theorem w5_var : W5 m ρ c (Proc.devRef .tc main_v111) = shapeCast S1x96 (val_main_v155 (F := Ideal) (m ((c : Thread nD τ).loc main_arg10))) shapeCasts_S96_S1x96 := by
  show StableHlo.after hostOps2 (W4 m ρ c) (Proc.devRef .tc main_v111) = _
  after_results_simp
  rw [w4_arg10 m ρ c]
  rfl

/-- Rows 0–95 of the first read-out matrix. -/
theorem w5_L0 : W5 m ρ c (Proc.devRef .tc main_v87) = extractStridedSlice S96x96 ![0, 0] (m ((c : Thread nD τ).loc main_arg11)) slices_S288x96_S96x96_0_0 := by
  show StableHlo.after hostOps2 (W4 m ρ c) (Proc.devRef .tc main_v87) = _
  after_results_simp
  rw [w4_arg11 m ρ c]

/-- Rows 96–191. -/
theorem w5_L1 : W5 m ρ c (Proc.devRef .tc main_v88) = extractStridedSlice S96x96 ![96, 0] (m ((c : Thread nD τ).loc main_arg11)) slices_S288x96_S96x96_96_0 := by
  show StableHlo.after hostOps2 (W4 m ρ c) (Proc.devRef .tc main_v88) = _
  after_results_simp
  rw [w4_arg11 m ρ c]

/-- Rows 192–287. -/
theorem w5_L2 : W5 m ρ c (Proc.devRef .tc main_v89) = extractStridedSlice S96x96 ![192, 0] (m ((c : Thread nD τ).loc main_arg11)) slices_S288x96_S96x96_192_0 := by
  show StableHlo.after hostOps2 (W4 m ρ c) (Proc.devRef .tc main_v89) = _
  after_results_simp
  rw [w4_arg11 m ρ c]

/-- The first read-out bias, as a row. -/
theorem w5_d1 : W5 m ρ c (Proc.devRef .tc main_v112) = shapeCast S1x96 (m ((c : Thread nD τ).loc main_arg12)) shapeCasts_S96_S1x96 := by
  show StableHlo.after hostOps2 (W4 m ρ c) (Proc.devRef .tc main_v112) = _
  after_results_simp
  rw [w4_arg12 m ρ c]
  rfl

/-- The second read-out matrix: an argument, read as launched. -/
theorem w5_M : W5 m ρ c (Proc.devRef .tc main_arg13) = (m ((c : Thread nD τ).loc main_arg13)) := by
  show StableHlo.after hostOps2 (W4 m ρ c) (Proc.devRef .tc main_arg13) = _
  after_results_simp
  exact w4_arg13 m ρ c
/-- The second read-out bias, as a row. -/
theorem w5_d2 : W5 m ρ c (Proc.devRef .tc main_v113) = shapeCast S1x2 (m ((c : Thread nD τ).loc main_arg14)) shapeCasts_S2_S1x2 := by
  show StableHlo.after hostOps2 (W4 m ρ c) (Proc.devRef .tc main_v113) = _
  after_results_simp
  rw [w4_arg14 m ρ c]
  rfl

/-! ## The result -/

/-- The kernel's result array is the reference's result stage of the same arguments. -/
theorem out2 : W6 m ρ c (Proc.devRef .tc main_v114) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 17).trans ?_
  refine (Cert.KernelIdeal.HeadArray.head_array (V5 m ρ) c).trans ?_
  funext i
  refine Eq.trans ?_ (Cert.ReferenceIdeal.RefHead.head_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i).symm
  refine Eq.trans (headRow_congr_all
    (congrArg (fun z : Vec Ideal S50000x96 .f32 => rowOf z (i 0)) (w5_x0 m ρ c))
    (congrArg (fun z : Vec Ideal S50000x96 .f32 => rowOf z (i 0)) (w5_x1 m ρ c))
    (funext fun j => ginRow_congr_all
      (congrArg (fun z : Vec Ideal S50000x96 .f32 => rowOf z (i 0)) (w5_x1 m ρ c))
      (congrArg (fun z : Vec Ideal S50000x96 .f32 => rowOf z (i 0)) (w5_seg m ρ c))
      (congrArg (fun z : Vec Ideal S96x96 .f32 => matOf z) (w5_W1 m ρ c))
      ((congrArg (fun z : Vec Ideal S1x96 .f32 => rowOf z 0) (w5_b1 m ρ c)).trans (row_of_reshaped _))
      (congrArg (fun z : Vec Ideal S96x96 .f32 => matOf z) (w5_W2 m ρ c))
      ((congrArg (fun z : Vec Ideal S1x96 .f32 => rowOf z 0) (w5_b2 m ρ c)).trans (row_of_reshaped _))
      ((congrArg (fun z : Vec Ideal S1x96 .f32 => rowOf z 0) (w5_gamma m ρ c)).trans (row_of_reshaped _))
      ((congrArg (fun z : Vec Ideal S1x96 .f32 => rowOf z 0) (w5_beta m ρ c)).trans (row_of_reshaped _))
      ((congrArg (fun z : Vec Ideal S1x96 .f32 => rowOf z 0) (w5_mean m ρ c)).trans (row_of_reshaped _))
      ((congrArg (fun z : Vec Ideal S1x96 .f32 => rowOf z 0) (w5_var m ρ c)).trans (row_of_reshaped _))
      j)
    (congrArg (fun z : Vec Ideal S96x96 .f32 => matOf z) (w5_L0 m ρ c))
    (congrArg (fun z : Vec Ideal S96x96 .f32 => matOf z) (w5_L1 m ρ c))
    (congrArg (fun z : Vec Ideal S96x96 .f32 => matOf z) (w5_L2 m ρ c))
    ((congrArg (fun z : Vec Ideal S1x96 .f32 => rowOf z 0) (w5_d1 m ρ c)).trans (row_of_reshaped _))
    (congrArg (fun z : Vec Ideal S96x2 .f32 => matOf z) (w5_M m ρ c))
    ((congrArg (fun z : Vec Ideal S1x2 .f32 => rowOf z 0) (w5_d2 m ρ c)).trans (row_of_reshaped2 _))
    (i 1)) ?_
  exact (headRowCat_eq_headRow _ _ _ _ (ginRow (rowOf (val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (i 0)) (rowOf (val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (i 0))
        (matOf (val_main_v127 (F := Ideal) (m ((c : Thread nD τ).loc main_arg3)))) (vecOf (val_main_v130 (F := Ideal) (m ((c : Thread nD τ).loc main_arg4))))
        (matOf (val_main_v136 (F := Ideal) (m ((c : Thread nD τ).loc main_arg5)))) (vecOf (val_main_v139 (F := Ideal) (m ((c : Thread nD τ).loc main_arg6))))
        (vecOf (val_main_v145 (F := Ideal) (m ((c : Thread nD τ).loc main_arg7)))) (vecOf (val_main_v163 (F := Ideal) (m ((c : Thread nD τ).loc main_arg8))))
        (vecOf (val_main_v147 (F := Ideal) (m ((c : Thread nD τ).loc main_arg9)))) (vecOf (val_main_v155 (F := Ideal) (m ((c : Thread nD τ).loc main_arg10))))) _ _ _ _ _ _
    (fun k => Cert.ReferenceIdeal.RefHead.concat_blk0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) k)
    (fun k => Cert.ReferenceIdeal.RefHead.concat_blk1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) k)
    (fun k => (Cert.ReferenceIdeal.RefHead.concat_blk2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) k).trans
      (Cert.ReferenceIdeal.RefLayers.layer2_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (i 0) k)))
    (fun k j => (readout_block0 (m ((c : Thread nD τ).loc main_arg11)) k j).symm)
    (fun k j => (readout_block1 (m ((c : Thread nD τ).loc main_arg11)) k j).symm)
    (fun k j => (readout_block2 (m ((c : Thread nD τ).loc main_arg11)) k j).symm) (i 1)).symm

end Cert.Bridge

end
-- ==== Proof.lean ====
/-
  A three-layer GIN graph network with a jumping-knowledge read-out, in eval mode: a Pallas program
  of three kernel regions (two node-tiled GIN layers, then the third layer fused with the read-out)
  against its jnp reference, equal as extended reals.

  Both programs embed the node tokens and form each layer's neighbour sum with the SAME host
  operations (a row gather along the edges' sources, a scatter-add into the destinations), so those
  are carried as they stand and never opened. What differs is read row by row:
    * a GIN layer is, on one node's row, γ·(relu(relu((x + s)·W₁ + b₁)·W₂ + b₂) − μ)·rsqrt(σ² + ε) + β
      in both programs — the kernel's bf16 casts are the identity on the extended reals, its two
      matrix products and the host's `dot_general`s are the same sums over the 96 input features, and
      its row tiling covers every node exactly once;
    * the read-out is relu([a | b | c]·L + d₁)·M + d₂ in the reference, while the kernel adds the three
      layers' products with the three row-blocks of L: one finite sum regrouped, which needs only
      that addition of extended reals is commutative and associative — no finiteness of any input.
  So the kernel's result array is the reference's result stage of the same arguments
  (`Cert.Bridge.out2`), and the two runs end with equal results. The three frames are the generated
  ones; no operation was rewritten by the idealization, so `preserves` is `True`.
-/
import proofs.«414043_j79035988181207_3_alg».proof.Defs
import proofs.«414043_j79035988181207_3_alg».proof.Proof.Gen.Kernel
import proofs.«414043_j79035988181207_3_alg».proof.Proof.Gen.Kernel.Skeleton
import proofs.«414043_j79035988181207_3_alg».proof.Proof.Gen.Kernel.Launch
import proofs.«414043_j79035988181207_3_alg».proof.Proof.Gen.Kernel.Points
import proofs.«414043_j79035988181207_3_alg».proof.Proof.Gen.Kernel.Frame
import proofs.«414043_j79035988181207_3_alg».proof.Proof.Gen.KernelIdeal
import proofs.«414043_j79035988181207_3_alg».proof.Proof.Gen.KernelIdeal.Skeleton
import proofs.«414043_j79035988181207_3_alg».proof.Proof.Gen.KernelIdeal.Launch
import proofs.«414043_j79035988181207_3_alg».proof.Proof.Gen.KernelIdeal.Points
import proofs.«414043_j79035988181207_3_alg».proof.Proof.Gen.KernelIdeal.Frame
import proofs.«414043_j79035988181207_3_alg».proof.Proof.Gen.ReferenceIdeal
import proofs.«414043_j79035988181207_3_alg».proof.Proof.Gen.ReferenceIdeal.Run
import proofs.«414043_j79035988181207_3_alg».proof.Proof.Gen.ReferenceIdeal.Read
import proofs.«414043_j79035988181207_3_alg».proof.Proof.Gen.Pre_finite_inputs
import proofs.«414043_j79035988181207_3_alg».proof.Proof.KRun
import proofs.«414043_j79035988181207_3_alg».proof.Proof.Bridge2
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference has no kernel: its frame is its run with the result dropped
    exact fun m ρ _ => (θ_run Cert.ReferenceIdeal.defs _ _).mono (fun _ h c => (h c).2)
      (Cert.ReferenceIdeal.Value.run (F := Ideal) m ρ)
  · -- both runs end at the reference's result stage of the kernel's arguments
    intro m ρ m' ρ' _ hagree
    refine ⟨fun c => Cert.ReferenceIdeal.Read.val_main_v176 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
    · exact (θ_run Cert.KernelIdeal.defs _ _).mono
        (fun r h c => ⟨(h c).1.trans (Cert.Bridge.out2 m ρ c), (h c).2⟩)
        (Cert.KernelIdeal.ValueRun.run_value (F := Ideal) m ρ)
    · refine (θ_run Cert.ReferenceIdeal.defs _ _).mono (fun r h c => ⟨(h c).1.trans ?_, (h c).2⟩)
        (Cert.ReferenceIdeal.Value.run (F := Ideal) m' ρ')
      obtain ⟨h0, h1, h2, h3, h4, h5, h6, h7, h8, h9, h10, h11, h12, h13, h14⟩ := hagree c
      rw [Cert.ReferenceIdeal.Read.val_main_v176_eq, h0, h1, h2, h3, h4, h5, h6, h7, h8, h9, h10, h11, h12, h13, h14]⟩

end Cert.Proof

end
